-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024 : Shape := ⟨1, ![1024]⟩
abbrev S1024x4224 : Shape := ⟨2, ![1024, 4224]⟩
abbrev S4224 : Shape := ⟨1, ![4224]⟩
abbrev S2048x1024 : Shape := ⟨2, ![2048, 1024]⟩
abbrev S128 : Shape := ⟨1, ![128]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4224 : S_.BroadcastsInDim S1024x4224 (![] : Fin 0 → Fin S1024x4224.rank)
  reducesTo_S1024x4224_S_d0_1 : S1024x4224.ReducesTo [0, 1] S_
  bcast_S_S4224 : S_.BroadcastsInDim S4224 (![] : Fin 0 → Fin S4224.rank)
  reducesTo_S4224_S_d0 : S4224.ReducesTo [0] S_
  bcast_S_S2048x1024 : S_.BroadcastsInDim S2048x1024 (![] : Fin 0 → Fin S2048x1024.rank)
  reducesTo_S2048x1024_S_d0_1 : S2048x1024.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S128 .f32) (main_arg10 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S4224 .f32) (main_arg5 : FVec F S2048x1024 .f32) (main_arg6 : FVec F S1024 .f32) (main_arg7 : FVec F S128 .f32) (main_arg8 : FVec F S128 .f32) (main_arg9 : FVec F S128 .f32) (main_arg10 : FVec F S128 .f32) (main_v13 : IVec S_ 1) (main_v16 : IVec S1024x4224 1) : IVec S_ 1 :=
  let main_c_5 : IVec S_ 1 := constantI S_ 1 1#1
  let main_v17 : IVec S_ 1 := (fun x v => Host.reduce IntOp.andi x v reducesTo_S1024x4224_S_d0_1 h_S_) main_v16 main_c_5
  let main_v18 : IVec S_ 1 := andi main_v13 main_v17
  let main_v19 : FVec F S4224 .f32 := Host.absf main_arg4
  let main_cst_6 : FVec F S_ .f32 := constant S_ .f32 0x7F800000#32
  let main_v20 : FVec F S4224 .f32 := broadcastInDim S4224 ![] bcast_S_S4224 main_cst_6
  let main_v21 : IVec S4224 1 := cmpf .olt main_v19 main_v20
  let main_c_7 : IVec S_ 1 := constantI S_ 1 1#1
  let main_v22 : IVec S_ 1 := (fun x v => Host.reduce IntOp.andi x v reducesTo_S4224_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S1024 .f32) (main_arg2 : FVec F S1024 .f32) (main_arg3 : FVec F S1024x4224 .f32) (main_arg4 : FVec F S4224 .f32) (main_arg5 : FVec F S2048x1024 .f32) (main_arg6 : FVec F S1024 .f32) (main_arg7 : FVec F S128 .f32) (main_arg8 : FVec F S128 .f32) (main_arg9 : FVec F S128 .f32) (main_arg10 : FVec F S128 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x4224 .f32 := Host.absf main_arg3
  let main_cst_4 : FVec F S_ .f32 := constant S_ .f32 0x7F800000#32
  let main_v15 : FVec F S1024x4224 .f32 := broadcastInDim S1024x4224 ![] bcast_S_S1024x4224 main_cst_4
  let main_v16 : IVec S1024x4224 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024 : Shape := ⟨1, ![1024]⟩
abbrev S1024x4224 : Shape := ⟨2, ![1024, 4224]⟩
abbrev S4224 : Shape := ⟨1, ![4224]⟩
abbrev S2048x1024 : Shape := ⟨2, ![2048, 1024]⟩
abbrev S128 : Shape := ⟨1, ![128]⟩
abbrev S4x2048x2048 : Shape := ⟨3, ![4, 2048, 2048]⟩
abbrev S4x2048x128 : Shape := ⟨3, ![4, 2048, 128]⟩
abbrev S1x256x1024 : Shape := ⟨3, ![1, 256, 1024]⟩
abbrev S1x256x2048 : Shape := ⟨3, ![1, 256, 2048]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x4224 : Shape := ⟨2, ![256, 4224]⟩
abbrev S1x4224 : Shape := ⟨2, ![1, 4224]⟩
abbrev S256x2048 : Shape := ⟨2, ![256, 2048]⟩
abbrev S256x128 : Shape := ⟨2, ![256, 128]⟩
abbrev S1x128 : Shape := ⟨2, ![1, 128]⟩
abbrev S1x512x128 : Shape := ⟨3, ![1, 512, 128]⟩
abbrev S1x512x2048 : Shape := ⟨3, ![1, 512, 2048]⟩
abbrev S1x512x1024 : Shape := ⟨3, ![1, 512, 1024]⟩
abbrev S512x2048 : Shape := ⟨2, ![512, 2048]⟩
abbrev S512x128 : Shape := ⟨2, ![512, 128]⟩
abbrev S128x512 : Shape := ⟨2, ![128, 512]⟩
abbrev S512x512 : Shape := ⟨2, ![512, 512]⟩
abbrev S512x1024 : Shape := ⟨2, ![512, 1024]⟩

abbrev nBuf : Space → Nat
  | .hbm => 18
  | .vmem => 33
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x4224, .f32⟩
  | .hbm, ⟨4, _⟩ => ⟨S4224, .f32⟩
  | .hbm, ⟨5, _⟩ => ⟨S2048x1024, .f32⟩
  | .hbm, ⟨6, _⟩ => ⟨S1024, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1024x4224, .bf16⟩
  | .hbm, ⟨12, _⟩ => ⟨S2048x1024, .bf16⟩
  | .hbm, ⟨13, _⟩ => ⟨S4x2048x2048, .bf16⟩
  | .hbm, ⟨14, _⟩ => ⟨S4x2048x2048, .bf16⟩
  | .hbm, ⟨15, _⟩ => ⟨S4x2048x128, .bf16⟩
  | .hbm, ⟨16, _⟩ => ⟨S4x2048x128, .bf16⟩
  | .hbm, ⟨17, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024, .f32⟩
  | .local _ .vmem, ⟨3, _⟩ => ⟨S1024, .f32⟩
  | .local _ .vmem, ⟨4, _⟩ => ⟨S1024x4224, .bf16⟩
  | .local _ .vmem, ⟨5, _⟩ => ⟨S4224, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S1x256x2048, .bf16⟩
  | .local _ .vmem, ⟨11, _⟩ => ⟨S1x256x2048, .bf16⟩
  | .local _ .vmem, ⟨12, _⟩ => ⟨S1x256x2048, .bf16⟩
  | .local _ .vmem, ⟨13, _⟩ => ⟨S1x256x2048, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S1x256x128, .bf16⟩
  | .local _ .vmem, ⟨18, _⟩ => ⟨S1x512x128, .bf16⟩
  | .local _ .vmem, ⟨19, _⟩ => ⟨S1x512x128, .bf16⟩
  | .local _ .vmem, ⟨20, _⟩ => ⟨S1x512x128, .bf16⟩
  | .local _ .vmem, ⟨21, _⟩ => ⟨S1x512x128, .bf16⟩
  | .local _ .vmem, ⟨22, _⟩ => ⟨S1x512x2048, .bf16⟩
  | .local _ .vmem, ⟨23, _⟩ => ⟨S1x512x2048, .bf16⟩
  | .local _ .vmem, ⟨24, _⟩ => ⟨S1x512x2048, .bf16⟩
  | .local _ .vmem, ⟨25, _⟩ => ⟨S1x512x2048, .bf16⟩
  | .local _ .vmem, ⟨26, _⟩ => ⟨S1x512x1024, .f32⟩
  | .local _ .vmem, ⟨27, _⟩ => ⟨S1x512x1024, .f32⟩
  | .local _ .vmem, ⟨28, _⟩ => ⟨S2048x1024, .bf16⟩
  | .local _ .vmem, ⟨29, _⟩ => ⟨S1024, .f32⟩
  | .local _ .vmem, ⟨30, _⟩ => ⟨S1x512x1024, .f32⟩
  | .local _ .vmem, ⟨31, _⟩ => ⟨S1x512x1024, .f32⟩
  | .local _ .vmem, ⟨32, _⟩ => ⟨S512x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg7_1 : Ref sig .tc := ⟨.vmem, 31, rfl⟩
abbrev cc1_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem6_0 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4224 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_16 : BitVec 32 := 0#32
  let v25 : BitVec 1 := Scalar.cmpi .ne v24 c0_i32_16
  v25

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 1 → Memref sig .tc .vmem S2048x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 2 → Memref sig .tc .vmem S1x512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1024x4224_S1024x4224_0_0 : ∀ a, (![0, 0] : Fin 2 → Nat) a + S1024x4224.size a ≤ S1024x4224.size a
  h_S1024x4224 : 0 < S1024x4224.numel
  shapeCasts_S1024x4224_S1024x4224 : S1024x4224.ShapeCasts S1024x4224
  inb_S4224_S4224_0 : ∀ a, (![0] : Fin 1 → Nat) a + S4224.size a ≤ S4224.size a
  h_S4224 : 0 < S4224.numel
  shapeCasts_S4224_S1x4224 : S4224.ShapeCasts S1x4224
  broadcasts_S1x4224_S256x4224 : S1x4224.Broadcasts S256x4224
  slices_S256x4224_o0_0_S256x2048 : S256x4224.Slices ![0, 0] S256x2048
  slices_S256x4224_o0_2048_S256x2048 : S256x4224.Slices ![0, 2048] S256x2048
  slices_S256x4224_o0_4096_S256x128 : S256x4224.Slices ![0, 4096] S256x128
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  packedbf16_S1x256x2048_S1x256x2048_0_0_0 : (Rect.unit (s := S1x256x2048) ![0, 0, 0] S1x256x2048.size inb_S1x256x2048_S1x256x2048_0_0_0).PackedRows (EltTy.packing .bf16)
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  packedbf16_S1x256x128_S1x256x128_0_0_0 : (Rect.unit (s := S1x256x128) ![0, 0, 0] S1x256x128.size inb_S1x256x128_S1x256x128_0_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  transposes_S512x128_p1_0_S128x512 : S512x128.Transposes [1, 0] S128x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x1024_S512x1024 : S1x1024.Broadcasts S512x1024
  shapeCasts_S512x1024_S1x512x1024 : S512x1024.ShapeCasts S1x512x1024
  dot_S256x1024_S1024x4224_S256x4224_1_0_0_1_n_n_wf : DotDims.WF S256x1024 S1024x4224 S256x4224 [1] [0] [0] [1] [] []
  dot_S512x128_S128x512_S512x512_1_0_0_1_n_n_wf : DotDims.WF S512x128 S128x512 S512x512 [1] [0] [0] [1] [] []
  dot_S512x512_S512x2048_S512x2048_1_0_0_1_n_n_wf : DotDims.WF S512x512 S512x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4224.size a ≤ S1024x4224.size a
  hwx0_3 : ∀ i : grid0.Coords, EltTy.bits .bf16 = 32 ∨ (Rect.block (s := S1024x4224) S1024x4224.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4224.size a ≤ S4224.size a
  hwx0_4 : ∀ i : grid0.Coords, EltTy.bits .f32 = 32 ∨ (Rect.block (s := S4224) S4224.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x2048.size a ≤ S4x2048x2048.size a
  hwx0_9 : ∀ i : grid0.Coords, EltTy.bits .bf16 = 32 ∨ (Rect.block (s := S4x2048x2048) S1x256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x2048.size a ≤ S4x2048x2048.size a
  hwx0_10 : ∀ i : grid0.Coords, EltTy.bits .bf16 = 32 ∨ (Rect.block (s := S4x2048x2048) S1x256x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x128.size a ≤ S4x2048x128.size a
  hwx0_11 : ∀ i : grid0.Coords, EltTy.bits .bf16 = 32 ∨ (Rect.block (s := S4x2048x128) S1x256x128.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256x128.size a ≤ S4x2048x128.size a
  hwx0_12 : ∀ i : grid0.Coords, EltTy.bits .bf16 = 32 ∨ (Rect.block (s := S4x2048x128) S1x256x128.size (cc0_transform_12 i) (hinb0_12 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x128.size a
  hwx1_0 : ∀ i : grid1.Coords, EltTy.bits .bf16 = 32 ∨ (Rect.block (s := S4x2048x128) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S4x2048x128.size a
  hwx1_1 : ∀ i : grid1.Coords, EltTy.bits .bf16 = 32 ∨ (Rect.block (s := S4x2048x128) S1x512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S4x2048x2048.size a
  hwx1_2 : ∀ i : grid1.Coords, EltTy.bits .bf16 = 32 ∨ (Rect.block (s := S4x2048x2048) S1x512x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x2048.size a ≤ S4x2048x2048.size a
  hwx1_3 : ∀ i : grid1.Coords, EltTy.bits .bf16 = 32 ∨ (Rect.block (s := S4x2048x2048) S1x512x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x2048x1024.size a
  hwx1_4 : ∀ i : grid1.Coords, EltTy.bits .f32 = 32 ∨ (Rect.block (s := S4x2048x1024) S1x512x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x1024.size a ≤ S2048x1024.size a
  hwx1_5 : ∀ i : grid1.Coords, EltTy.bits .bf16 = 32 ∨ (Rect.block (s := S2048x1024) S2048x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024.size a ≤ S1024.size a
  hwx1_6 : ∀ i : grid1.Coords, EltTy.bits .f32 = 32 ∨ (Rect.block (s := S1024) S1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x1024.size a ≤ S4x2048x1024.size a
  hwx1_7 : ∀ i : grid1.Coords, EltTy.bits .f32 = 32 ∨ (Rect.block (s := S4x2048x1024) S1x512x1024.size (cc1_transform_7 i) (hinb1_7 i)).WholeWords (EltTy.packing .f32)

variable [Facts₀]

def dot_S256x1024_S1024x4224_S256x4224_1_0_0_1_n_n : DotDims S256x1024 S1024x4224 S256x4224 where
  lhsContracting := [1]
  rhsContracting := [0]
  lhsNonContracting := [0]
  rhsNonContracting := [1]
  lhsBatch := []
  rhsBatch := []
  wf := dot_S256x1024_S1024x4224_S256x4224_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x4224.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4224.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_0) S1x256x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_1) S1x256x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_2) S1x256x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v2_3) S1x256x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v2_2) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_3) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S1x512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S1x512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S1x512x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S2048x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S1x512x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024 : Shape := ⟨1, ![1024]⟩
abbrev S1024x4224 : Shape := ⟨2, ![1024, 4224]⟩
abbrev S4224 : Shape := ⟨1, ![4224]⟩
abbrev S2048x1024 : Shape := ⟨2, ![2048, 1024]⟩
abbrev S128 : Shape := ⟨1, ![128]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4224 : Shape := ⟨3, ![4, 2048, 4224]⟩
abbrev S1x1x4224 : Shape := ⟨3, ![1, 1, 4224]⟩
abbrev S4x2048x2048 : Shape := ⟨3, ![4, 2048, 2048]⟩
abbrev S4x2048x128 : Shape := ⟨3, ![4, 2048, 128]⟩
abbrev S1x1x128 : Shape := ⟨3, ![1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x4224, .f32⟩
  | .hbm, ⟨4, _⟩ => ⟨S4224, .f32⟩
  | .hbm, ⟨5, _⟩ => ⟨S2048x1024, .f32⟩
  | .hbm, ⟨6, _⟩ => ⟨S1024, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1, .f32⟩
  | .hbm, ⟨32, _⟩ => ⟨S4x2048x1024, .f32⟩
  | .hbm, ⟨33, _⟩ => ⟨S4x2048x1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S1x1x1024, .f32⟩
  | .hbm, ⟨38, _⟩ => ⟨S4x2048x1024, .f32⟩
  | .hbm, ⟨39, _⟩ => ⟨S4x2048x1024, .f32⟩
  | .hbm, ⟨40, _⟩ => ⟨S4x2048x4224, .f32⟩
  | .hbm, ⟨41, _⟩ => ⟨S1x1x4224, .f32⟩
  | .hbm, ⟨42, _⟩ => ⟨S4x2048x4224, .f32⟩
  | .hbm, ⟨43, _⟩ => ⟨S4x2048x4224, .f32⟩
  | .hbm, ⟨44, _⟩ => ⟨S4x2048x4224, .f32⟩
  | .hbm, ⟨45, _⟩ => ⟨S4x2048x4224, .f32⟩
  | .hbm, ⟨46, _⟩ => ⟨S_, .f32⟩
  | .hbm, ⟨47, _⟩ => ⟨S4x2048x4224, .f32⟩
  | .hbm, ⟨48, _⟩ => ⟨S4x2048x4224, .f32⟩
  | .hbm, ⟨49, _⟩ => ⟨S_, .f32⟩
  | .hbm, ⟨50, _⟩ => ⟨S4x2048x4224, .f32⟩
  | .hbm, ⟨51, _⟩ => ⟨S4x2048x4224, .f32⟩
  | .hbm, ⟨52, _⟩ => ⟨S4x2048x4224, .f32⟩
  | .hbm, ⟨53, _⟩ => ⟨S4x2048x2048, .f32⟩
  | .hbm, ⟨54, _⟩ => ⟨S4x2048x2048, .f32⟩
  | .hbm, ⟨55, _⟩ => ⟨S4x2048x128, .f32⟩
  | .hbm, ⟨56, _⟩ => ⟨S1x1x128, .f32⟩
  | .hbm, ⟨57, _⟩ => ⟨S4x2048x128, .f32⟩
  | .hbm, ⟨58, _⟩ => ⟨S4x2048x128, .f32⟩
  | .hbm, ⟨59, _⟩ => ⟨S1x1x128, .f32⟩
  | .hbm, ⟨60, _⟩ => ⟨S4x2048x128, .f32⟩
  | .hbm, ⟨61, _⟩ => ⟨S4x2048x128, .f32⟩
  | .hbm, ⟨62, _⟩ => ⟨S1x1x128, .f32⟩
  | .hbm, ⟨63, _⟩ => ⟨S4x2048x128, .f32⟩
  | .hbm, ⟨64, _⟩ => ⟨S4x2048x128, .f32⟩
  | .hbm, ⟨65, _⟩ => ⟨S1x1x128, .f32⟩
  | .hbm, ⟨66, _⟩ => ⟨S4x2048x128, .f32⟩
  | .hbm, ⟨67, _⟩ => ⟨S4x2048x128, .f32⟩
  | .hbm, ⟨68, _⟩ => ⟨S4x2048x2048, .f32⟩
  | .hbm, ⟨69, _⟩ => ⟨S_, .f32⟩
  | .hbm, ⟨70, _⟩ => ⟨S4x2048x2048, .f32⟩
  | .hbm, ⟨71, _⟩ => ⟨S4x2048x2048, .f32⟩
  | .hbm, ⟨72, _⟩ => ⟨S_, .f32⟩
  | .hbm, ⟨73, _⟩ => ⟨S4x2048x2048, .f32⟩
  | .hbm, ⟨74, _⟩ => ⟨S4x2048x2048, .f32⟩
  | .hbm, ⟨75, _⟩ => ⟨S4x2048x2048, .f32⟩
  | .hbm, ⟨76, _⟩ => ⟨S4x2048x2048, .f32⟩
  | .hbm, ⟨77, _⟩ => ⟨S4x2048x2048, .f32⟩
  | .hbm, ⟨78, _⟩ => ⟨S4x2048x1024, .f32⟩
  | .hbm, ⟨79, _⟩ => ⟨S4x2048x1024, .f32⟩
  | .hbm, ⟨80, _⟩ => ⟨S1x1x1024, .f32⟩
  | .hbm, ⟨81, _⟩ => ⟨S4x2048x1024, .f32⟩
  | .hbm, ⟨82, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S4224_S1x1x4224_2 : S4224.BroadcastsInDim S1x1x4224 (![2] : Fin 1 → Fin S1x1x4224.rank)
  bcast_S1x1x4224_S4x2048x4224_0_1_2 : S1x1x4224.BroadcastsInDim S4x2048x4224 (![0, 1, 2] : Fin 3 → Fin S4x2048x4224.rank)
  bcast_S_S4x2048x4224 : S_.BroadcastsInDim S4x2048x4224 (![] : Fin 0 → Fin S4x2048x4224.rank)
  slices_S4x2048x4224_S4x2048x2048_0_0_0 : S4x2048x4224.Slices ![0, 0, 0] S4x2048x2048
  slices_S4x2048x4224_S4x2048x2048_0_0_2048 : S4x2048x4224.Slices ![0, 0, 2048] S4x2048x2048
  slices_S4x2048x4224_S4x2048x128_0_0_4096 : S4x2048x4224.Slices ![0, 0, 4096] S4x2048x128
  bcast_S128_S1x1x128_2 : S128.BroadcastsInDim S1x1x128 (![2] : Fin 1 → Fin S1x1x128.rank)
  bcast_S1x1x128_S4x2048x128_0_1_2 : S1x1x128.BroadcastsInDim S4x2048x128 (![0, 1, 2] : Fin 3 → Fin S4x2048x128.rank)
  bcast_S_S4x2048x2048 : S_.BroadcastsInDim S4x2048x2048 (![] : Fin 0 → Fin S4x2048x2048.rank)
  dot_S4x2048x1024_S1024x4224_S4x2048x4224_2_0_01_1_n_n_wf : DotDims.WF S4x2048x1024 S1024x4224 S4x2048x4224 [2] [0] [0, 1] [1] [] []
  dot_S4x2048x128_S4x2048x128_S4x2048x2048_2_2_1_1_0_0_wf : DotDims.WF S4x2048x128 S4x2048x128 S4x2048x2048 [2] [2] [1] [1] [0] [0]
  dot_S4x2048x2048_S4x2048x2048_S4x2048x2048_2_1_1_2_0_0_wf : DotDims.WF S4x2048x2048 S4x2048x2048 S4x2048x2048 [2] [1] [1] [2] [0] [0]
  dot_S4x2048x2048_S2048x1024_S4x2048x1024_2_0_01_1_n_n_wf : DotDims.WF S4x2048x2048 S2048x1024 S4x2048x1024 [2] [0] [0, 1] [1] [] []

variable [Facts₀]

def dot_S4x2048x1024_S1024x4224_S4x2048x4224_2_0_01_1_n_n : DotDims S4x2048x1024 S1024x4224 S4x2048x4224 where
  lhsContracting := [2]
  rhsContracting := [0]
  lhsNonContracting := [0, 1]
  rhsNonContracting := [1]
  lhsBatch := []
  rhsBatch := []
  wf := dot_S4x2048x1024_S1024x4224_S4x2048x4224_2_0_01_1_n_n_wf
def dot_S4x2048x128_S4x2048x128_S4x2048x2048_2_2_1_1_0_0 : DotDims S4x2048x128 S4x2048x128 S4x2048x2048 where
  lhsContracting := [2]
  rhsContracting := [2]
  lhsNonContracting := [1]
  rhsNonContracting := [1]
  lhsBatch := [0]
  rhsBatch := [0]
  wf := dot_S4x2048x128_S4x2048x128_S4x2048x2048_2_2_1_1_0_0_wf
def dot_S4x2048x2048_S4x2048x2048_S4x2048x2048_2_1_1_2_0_0 : DotDims S4x2048x2048 S4x2048x2048 S4x2048x2048 where
  lhsContracting := [2]
  rhsContracting := [1]
  lhsNonContracting := [1]
  rhsNonContracting := [2]
  lhsBatch := [0]
  rhsBatch := [0]
  wf := dot_S4x2048x2048_S4x2048x2048_S4x2048x2048_2_1_1_2_0_0_wf
def dot_S4x2048x2048_S2048x1024_S4x2048x1024_2_0_01_1_n_n : DotDims S4x2048x2048 S2048x1024 S4x2048x1024 where
  lhsContracting := [2]
  rhsContracting := [0]
  lhsNonContracting := [0, 1]
  rhsNonContracting := [1]
  lhsBatch := []
  rhsBatch := []
  wf := dot_S4x2048x2048_S2048x1024_S4x2048x1024_2_0_01_1_n_n_wf

class Facts : Prop extends Facts₀ where

variable [Facts]
-- ==== Proof.KernelR0.lean ====
/-
  The first kernel region (normalise, project, x · logistic x, split into u, v, q, k), at a PARAMETER V: the
  buffer contents the region is entered from.

  A point (b, l) of the 4 × 8 grid reads a [1, 256, 1024] block of x and the whole of the gain, the shift,
  the projection matrix, its bias and the four affine vectors, and stores four whole output blocks: u and v
  ([1, 256, 2048] each) and q and k ([1, 256, 128] each). Every output block is ONE store over the whole
  staging buffer, so what a buffer holds after the body is that store's value, a pure function of the nine
  input blocks (`out0_9` … `out0_12`). The body also loads each output buffer before storing into it; the
  loaded values are not used, so the buffers may hold anything when the body is entered.
-/
import proofs.«124477_j41326175322889_1_alg».proof.Proof.Gen.Kernel.Launch
import proofs.«124477_j41326175322889_1_alg».proof.Proof.Gen.Kernel.Skeleton
import proofs.«124477_j41326175322889_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body leaves in each output buffer, from the nine input blocks -/

/-- The u block: features 0 … 2047 of the activated projection of the x block. -/
def out0_9 (x0 : Vec F S1x256x1024 .f32) (x1 x2 : Vec F S1024 .f32) (x3 : Vec F S1024x4224 .bf16) (x4 : Vec F S4224 .f32) :
    Vec F S1x256x2048 .bf16 :=
  k0_pay1 (k0_pay6 x0 x1 x2 x3 x4)
/-- The v block: features 2048 … 4095. -/
def out0_10 (x0 : Vec F S1x256x1024 .f32) (x1 x2 : Vec F S1024 .f32) (x3 : Vec F S1024x4224 .bf16) (x4 : Vec F S4224 .f32) :
    Vec F S1x256x2048 .bf16 :=
  k0_pay2 (k0_pay7 x0 x1 x2 x3 x4)
/-- The q block: features 4096 … 4223 times the query gain, plus the query shift. -/
def out0_11 (x0 : Vec F S1x256x1024 .f32) (x1 x2 : Vec F S1024 .f32) (x3 : Vec F S1024x4224 .bf16) (x4 : Vec F S4224 .f32)
    (x5 x6 : Vec F S128 .f32) : Vec F S1x256x128 .bf16 :=
  k0_pay3 (k0_pay9 x0 x1 x2 x3 x4 x5) x6
/-- The k block: the same features times the key gain, plus the key shift. -/
def out0_12 (x0 : Vec F S1x256x1024 .f32) (x1 x2 : Vec F S1024 .f32) (x3 : Vec F S1024x4224 .bf16) (x4 : Vec F S4224 .f32)
    (x7 x8 : Vec F S128 .f32) : Vec F S1x256x128 .bf16 :=
  k0_pay4 (k0_pay8 x0 x1 x2 x3 x4) x7 x8

/-! ## The proof data -/

/-- The proof data of the first pipeline on core `c`: the arrays as the region finds them; after the body at point `t`
    each input's buffer at its block and each output's at its store's value of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t)
    | ⟨10, _⟩ => out0_10 (iblk0 V c 0 t) (iblk0 V c 1 t) (iblk0 V c 2 t) (iblk0 V c 3 t) (iblk0 V c 4 t)
    | ⟨11, _⟩ => out0_11 (iblk0 V c 0 t) (iblk0 V c 1 t) (iblk0 V c 2 t) (iblk0 V c 3 t) (iblk0 V c 4 t) (iblk0 V c 5 t) (iblk0 V c 6 t)
    | ⟨12, _⟩ => out0_12 (iblk0 V c 0 t) (iblk0 V c 1 t) (iblk0 V c 2 t) (iblk0 V c 3 t) (iblk0 V c 4 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves in the output windows' buffers. -/
theorem after0_9 (c : Dev nD) (t : Fin cfg0.N) : (dat0 V c).after 9 t
    = out0_9 (iblk0 V c 0 t) (iblk0 V c 1 t) (iblk0 V c 2 t) (iblk0 V c 3 t) (iblk0 V c 4 t) := by dsimp only [dat0]
theorem after0_10 (c : Dev nD) (t : Fin cfg0.N) : (dat0 V c).after 10 t
    = out0_10 (iblk0 V c 0 t) (iblk0 V c 1 t) (iblk0 V c 2 t) (iblk0 V c 3 t) (iblk0 V c 4 t) := by dsimp only [dat0]
theorem after0_11 (c : Dev nD) (t : Fin cfg0.N) : (dat0 V c).after 11 t
    = out0_11 (iblk0 V c 0 t) (iblk0 V c 1 t) (iblk0 V c 2 t) (iblk0 V c 3 t) (iblk0 V c 4 t) (iblk0 V c 5 t) (iblk0 V c 6 t) := by dsimp only [dat0]
theorem after0_12 (c : Dev nD) (t : Fin cfg0.N) : (dat0 V c).after 12 t
    = out0_12 (iblk0 V c 0 t) (iblk0 V c 1 t) (iblk0 V c 2 t) (iblk0 V c 3 t) (iblk0 V c 4 t) (iblk0 V c 7 t) (iblk0 V c 8 t) := by dsimp only [dat0]

/-! ## What the body finds in each input window's buffer

An input window's current staging buffer holds its block at every point of the grid, whether the pipeline fetched it
there or not: where it was not fetched the block index has not moved since the last fetch, and the body leaves the
block in place. Stated for ANY proof data whose array is `V`'s and whose body leaves the block in place; no input
window is cut at its array's end and none is ever idle. Window 0 (the x block) moves with the point; windows 1 … 8
are whole arrays, the same block at every point. -/

/-- Input window 0 (the x block) holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the gain) holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the shift) holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the projection matrix) holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the projection bias) holds its block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 (the query gain) holds its block at every point. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 (the query shift) holds its block at every point. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7 (the key gain) holds its block at every point. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8 (the key shift) holds its block at every point. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the input windows' buffers: their blocks, untouched. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]

/-- So against the proof data each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The whole-buffer rectangles start at zero on every axis

Every load and every store of the body is over a whole staging buffer: the rectangle of full extent at offsets
`![0, …, 0]`. Reading through it is the identity and one store through it leaves its value. -/

theorem off1_zero : (![0] : Fin 1 → Nat) = fun _ => 0 := funext fun a => by fin_cases a <;> rfl
theorem off2_zero : (![0, 0] : Fin 2 → Nat) = fun _ => 0 := funext fun a => by fin_cases a <;> rfl
theorem off3_zero : (![0, 0, 0] : Fin 3 → Nat) = fun _ => 0 := funext fun a => by fin_cases a <;> rfl

/-- ONE store through the full rectangle of a buffer, read back, is the stored value, whatever the buffer held: the
    rectangle covers every index, so the canonical form of the one-piece list is its value. -/
theorem read_store_whole {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

/-! ## The body's triple -/

set_option maxHeartbeats 4000000 in
/-- The kernel body on whole staging memrefs — the nine inputs' at read contents `x0 … x8`, the four outputs' at
    anything — runs to the continuation holding the inputs' as they were and each output's at `out0_w` of the
    inputs'. The body reads each input buffer whole (a read through the zero-offset full rectangle is the contents),
    so every value it computes is a function of `x0 … x8`; each output buffer is overwritten by ONE store through the
    full rectangle, which covers it, so reading it back gives that store's value whatever the buffer held: the u and
    v slices of the activated projection rounded to bf16, and the q and k affine images of its last 128 features. -/
theorem sound_kernel0 (c : Dev nD) (E : Set ℕ) (i : grid0.Coords) (arg2 : Memref sig .tc .vmem S1x256x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x4224 .bf16) (harg5 : arg5.IsWhole) (arg6 : Memref sig .tc .vmem S4224 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S1x256x2048 .bf16) (harg11 : arg11.IsWhole) (arg12 : Memref sig .tc .vmem S1x256x2048 .bf16) (harg12 : arg12.IsWhole) (arg13 : Memref sig .tc .vmem S1x256x128 .bf16) (harg13 : arg13.IsWhole) (arg14 : Memref sig .tc .vmem S1x256x128 .bf16) (harg14 : arg14.IsWhole)
    (x0 : Vec F S1x256x1024 .f32) (x1 : Vec F S1024 .f32) (x2 : Vec F S1024 .f32) (x3 : Vec F S1024x4224 .bf16) (x4 : Vec F S4224 .f32) (x5 : Vec F S128 .f32) (x6 : Vec F S128 .f32) (x7 : Vec F S128 .f32) (x8 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare (out0_9 x0 x1 x2 x3 x4) ∗ owns (c : Thread nD τ) arg12 fullShare (out0_10 x0 x1 x2 x3 x4) ∗ owns (c : Thread nD τ) arg13 fullShare (out0_11 x0 x1 x2 x3 x4 x5 x6) ∗ owns (c : Thread nD τ) arg14 fullShare (out0_12 x0 x1 x2 x3 x4 x7 x8)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14) K := by
  simp only [cc0__proj_kernel_eq_skeleton]; unfold cc0__proj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec
  sl_step
  iapply Hk
  -- the inputs come back as they were: a whole memref's raw contents read back to the contents they were named by
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  -- each output: the one store through the full rectangle reads back as its value, and the whole-buffer loads under
  -- that value read the inputs' contents
  isplitl [H9]
  · iexists _; isplitr
    swap; · iexact H9
    ipureintro
    rw [read_store_whole _ _ off3_zero]
    sl_unfold_run_names
    simp only [View.readAt_eq_ld, harg2.read_unread, harg3.read_unread, harg4.read_unread, harg5.read_unread, harg6.read_unread, harg7.read_unread, harg8.read_unread, harg9.read_unread, harg10.read_unread, View.ld_unit_zero (S := S1x256x1024) off3_zero, View.ld_unit_zero (S := S1024) off1_zero, View.ld_unit_zero (S := S1024x4224) off2_zero, View.ld_unit_zero (S := S4224) off1_zero, View.ld_unit_zero (S := S128) off1_zero]
    rfl
  isplitl [H10]
  · iexists _; isplitr
    swap; · iexact H10
    ipureintro
    rw [read_store_whole _ _ off3_zero]
    sl_unfold_run_names
    simp only [View.readAt_eq_ld, harg2.read_unread, harg3.read_unread, harg4.read_unread, harg5.read_unread, harg6.read_unread, harg7.read_unread, harg8.read_unread, harg9.read_unread, harg10.read_unread, View.ld_unit_zero (S := S1x256x1024) off3_zero, View.ld_unit_zero (S := S1024) off1_zero, View.ld_unit_zero (S := S1024x4224) off2_zero, View.ld_unit_zero (S := S4224) off1_zero, View.ld_unit_zero (S := S128) off1_zero]
    rfl
  isplitl [H11]
  · iexists _; isplitr
    swap; · iexact H11
    ipureintro
    rw [read_store_whole _ _ off3_zero]
    sl_unfold_run_names
    simp only [View.readAt_eq_ld, harg2.read_unread, harg3.read_unread, harg4.read_unread, harg5.read_unread, harg6.read_unread, harg7.read_unread, harg8.read_unread, harg9.read_unread, harg10.read_unread, View.ld_unit_zero (S := S1x256x1024) off3_zero, View.ld_unit_zero (S := S1024) off1_zero, View.ld_unit_zero (S := S1024x4224) off2_zero, View.ld_unit_zero (S := S4224) off1_zero, View.ld_unit_zero (S := S128) off1_zero]
    rfl
  · iexists _; isplitr
    swap; · iexact H12
    ipureintro
    rw [read_store_whole _ _ off3_zero]
    sl_unfold_run_names
    simp only [View.readAt_eq_ld, harg2.read_unread, harg3.read_unread, harg4.read_unread, harg5.read_unread, harg6.read_unread, harg7.read_unread, harg8.read_unread, harg9.read_unread, harg10.read_unread, View.ld_unit_zero (S := S1x256x1024) off3_zero, View.ld_unit_zero (S := S1024) off1_zero, View.ld_unit_zero (S := S1024x4224) off2_zero, View.ld_unit_zero (S := S4224) off1_zero, View.ld_unit_zero (S := S128) off1_zero]
    rfl

/-! ## The body obligation, at a generic point -/

/-- What the body is called with at point `t`: the invariant, nothing owed, and each of the thirteen windows'
    current staging buffers at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- What it returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 4000000 in
/-- The body at any point: each input's buffer holds its block, so the body's triple applies at the nine blocks; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-! ## The body obligation -/

/-- The body at every point of the grid, against the proof data: from the invariant, nothing owed, and each window's
    current staging buffer at what the pipeline left in it, the body runs to the same with each buffer at `after`. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelR1.lean ====
/-
  The second kernel region (scores, their positive part squared, the weighted sum of values accumulated over the
  key tiles, then gate, project back, add x and a bias), at a PARAMETER V: the buffer contents the region is entered
  from.

  A point (b, qi, ki) of the 4 × 4 × 4 grid reads a [1, 512, 128] block of q (rows of tile qi) and of k (rows of
  tile ki), a [1, 512, 2048] block of v (tile ki) and of u (tile qi), a [1, 512, 1024] block of x (tile qi), and
  the whole of the output projection and its bias. A scratch of [512, 2048] is carried from point to point: at
  ki = 0 it is set to zero and then one tile's weighted values are added; at ki = 1, 2, 3 one more tile's are added
  to what the point before left (`scr1`). Only at ki = 3 is the output block stored (`out1_7`); at the other points
  the output window is idle, its buffer handed back untouched and not written back.

  Position t of the grid is 16 b + 4 qi + ki, so ki = t mod 4.
-/
import proofs.«124477_j41326175322889_1_alg».proof.Proof.Gen.Kernel.Launch
import proofs.«124477_j41326175322889_1_alg».proof.Proof.Gen.Kernel.Skeleton
import proofs.«124477_j41326175322889_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two conditions, decided over the grid -/

/-- The first `scf.if`'s condition (reset the scratch), from the grid coordinates. -/
abbrev cond1_0 (i : grid1.Coords) : Prop :=
  (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The second `scf.if`'s condition (store the output block). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel
/-- Input window 4 is never idle. -/
theorem liveAt1_4 : ∀ t : Fin cfg1.N, cfg1.idle 4 (grid1.coords t) = false := by decide +kernel
/-- Input window 5 is never idle. -/
theorem liveAt1_5 : ∀ t : Fin cfg1.N, cfg1.idle 5 (grid1.coords t) = false := by decide +kernel
/-- Input window 6 is never idle. -/
theorem liveAt1_6 : ∀ t : Fin cfg1.N, cfg1.idle 6 (grid1.coords t) = false := by decide +kernel
/-- Away from a last key tile the output window is idle: the body stores nothing into it, -/
theorem idleAt1_7 : ∀ t : Fin cfg1.N, ¬t.val % 4 = 3 → cfg1.idle 7 (grid1.coords t) = true := by decide +kernel
/-- and the pipeline does not write its block back. -/
theorem noFlush1_7 : ∀ t : Fin cfg1.N, ¬t.val % 4 = 3 → (cfg1.win 7).flush t = false := by decide +kernel
/-- At a last key tile it is live. -/
theorem liveAt1_7 : ∀ t : Fin cfg1.N, t.val % 4 = 3 → cfg1.idle 7 (grid1.coords t) = false := by decide +kernel

/-! ## The carried scratch and the output block, point by point -/

/-- The scratch the kernel carries between points. -/
abbrev scM1 : Memref sig .tc .vmem S512x2048 .f32 := Memref.whole cc1_scratch0

/-- What the scratch holds after the body at position `n`: at a first key tile the zero block plus this tile's weighted
    values; otherwise what position `n - 1` left plus this tile's. -/
def scr1 (c : Dev nD) : (n : ℕ) → n < cfg1.N → Vec F S512x2048 .f32
  | 0, hn => k1_pay2 (iblk1 V c 0 ⟨0, hn⟩) (iblk1 V c 1 ⟨0, hn⟩) (iblk1 V c 2 ⟨0, hn⟩) (k1_pay1 (F := F))
  | n + 1, hn =>
    if (n + 1) % 4 = 0 then
      k1_pay2 (iblk1 V c 0 ⟨n + 1, hn⟩) (iblk1 V c 1 ⟨n + 1, hn⟩) (iblk1 V c 2 ⟨n + 1, hn⟩) (k1_pay1 (F := F))
    else
      k1_pay2 (iblk1 V c 0 ⟨n + 1, hn⟩) (iblk1 V c 1 ⟨n + 1, hn⟩) (iblk1 V c 2 ⟨n + 1, hn⟩) (scr1 c n (Nat.lt_of_succ_lt hn))

/-- At a first key tile: the zero block plus this tile's weighted values. -/
theorem scr1_reset (c : Dev nD) (t : Fin cfg1.N) (h0 : t.val % 4 = 0) :
    scr1 V c t.val t.isLt = k1_pay2 (iblk1 V c 0 t) (iblk1 V c 1 t) (iblk1 V c 2 t) (k1_pay1 (F := F)) := by
  obtain ⟨n, hn⟩ := t
  cases n with
  | zero => rfl
  | succ n => exact if_pos h0

/-- At a later key tile: what the point before left plus this tile's. -/
theorem scr1_acc (c : Dev nD) (t : Fin cfg1.N) (h0 : ¬t.val % 4 = 0) :
    scr1 V c t.val t.isLt = k1_pay2 (iblk1 V c 0 t) (iblk1 V c 1 t) (iblk1 V c 2 t)
      (scr1 V c (t.val - 1) (Nat.lt_of_le_of_lt (Nat.sub_le _ _) t.isLt)) := by
  obtain ⟨n, hn⟩ := t
  cases n with
  | zero => exact absurd (Nat.zero_mod _) h0
  | succ n => exact if_neg h0

/-- The output block a last key tile stores: x plus the gated scratch projected back, plus the bias. (At the other
    points the window is idle and nothing consults this.) -/
def out1_7 (c : Dev nD) (t : Fin cfg1.N) : Vec F S1x512x1024 .f32 :=
  k1_pay3 (iblk1 V c 3 t) (scr1 V c t.val t.isLt) (iblk1 V c 5 t) (iblk1 V c 4 t) (iblk1 V c 6 t)

/-! ## The invariant: the scratch at what the point before left -/

/-- One scoped buffer, whole, at some contents. -/
abbrev anyBuf (c : Dev nD) (r : Ref sig .tc) : sProp 𝕄 :=
  iprop(∃ f : Buf (Elt F) ((c : Thread nD τ).loc r), ((c : Thread nD τ).loc r) ↦{fullShare} f)

/-- What a region of this class may use and need not describe, for this region: the first region's eighteen staging
    buffers at anything, the scratch at anything, and the generator register at some state. -/
theorem PhiA1_eq (c : Dev nD) :
    (Pipeline.ΦA spec1 c : sProp 𝕄)
      = iprop((anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg8_0 ∗ anyBuf (F := F) c cc0_stg9_0 ∗ anyBuf (F := F) c cc0_stg9_1 ∗ anyBuf (F := F) c cc0_stg10_0 ∗ anyBuf (F := F) c cc0_stg10_1 ∗ anyBuf (F := F) c cc0_stg11_0 ∗ anyBuf (F := F) c cc0_stg11_1 ∗ anyBuf (F := F) c cc0_stg12_0 ∗ anyBuf (F := F) c cc0_stg12_1 ∗ (∃ d, owns (c : Thread nD τ) scM1 fullShare d)) ∗ (∃ r, prngReg c r)) := by
  unfold Pipeline.ΦA; rw [scopedRest1_eq]; simp only [scM1, owns_whole]; try rfl

/-- Before position `n`: at the start the class's invariant; afterwards the same with the scratch at what position
    `n - 1` left. -/
def PhiS1 (c : Dev nD) : (n : ℕ) → n ≤ cfg1.N → sProp 𝕄
  | 0, _ => Pipeline.ΦA spec1 c
  | n + 1, hn => iprop((anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg8_0 ∗ anyBuf (F := F) c cc0_stg9_0 ∗ anyBuf (F := F) c cc0_stg9_1 ∗ anyBuf (F := F) c cc0_stg10_0 ∗ anyBuf (F := F) c cc0_stg10_1 ∗ anyBuf (F := F) c cc0_stg11_0 ∗ anyBuf (F := F) c cc0_stg11_1 ∗ anyBuf (F := F) c cc0_stg12_0 ∗ anyBuf (F := F) c cc0_stg12_1 ∗ owns (c : Thread nD τ) scM1 fullShare (scr1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg8_0 ∗ anyBuf (F := F) c cc0_stg9_0 ∗ anyBuf (F := F) c cc0_stg9_1 ∗ anyBuf (F := F) c cc0_stg10_0 ∗ anyBuf (F := F) c cc0_stg10_1 ∗ anyBuf (F := F) c cc0_stg11_0 ∗ anyBuf (F := F) c cc0_stg11_1 ∗ anyBuf (F := F) c cc0_stg12_0 ∗ anyBuf (F := F) c cc0_stg12_1 ∗ owns (c : Thread nD τ) scM1 fullShare (scr1 V c n hn)) ∗ (∃ r, prngReg c r)) := rfl
theorem PhiS1_pos (c : Dev nD) (n : ℕ) (h : n ≤ cfg1.N) (hz : n ≠ 0) :
    PhiS1 V c n h = iprop((anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg8_0 ∗ anyBuf (F := F) c cc0_stg9_0 ∗ anyBuf (F := F) c cc0_stg9_1 ∗ anyBuf (F := F) c cc0_stg10_0 ∗ anyBuf (F := F) c cc0_stg10_1 ∗ anyBuf (F := F) c cc0_stg11_0 ∗ anyBuf (F := F) c cc0_stg11_1 ∗ anyBuf (F := F) c cc0_stg12_0 ∗ anyBuf (F := F) c cc0_stg12_1 ∗ owns (c : Thread nD τ) scM1 fullShare (scr1 V c (n - 1) (by omega))) ∗ (∃ r, prngReg c r)) := by
  cases n with
  | zero => exact absurd rfl hz
  | succ n => rfl

/-! ## The proof data -/

/-- The proof data of the second pipeline on core `c`: the arrays as the region finds them; after the body at point `t`
    each input's buffer at its block and the output's at `out1_7`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 V c t
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 V c t := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body's three runs

The body stores whole buffers only, so what a buffer holds after a run is the payload of the last store into it, and a
load of a buffer after a store into it in the same run reads that store's payload. Each run is stated over any whole
staging memrefs and any contents of the literal vector types; the two conditionals are decided by the case's hypotheses. -/

/-- The zero offsets of a store or load of a whole buffer, in each rank. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Reading a buffer back after a list of stores whose last covers the whole buffer gives that store's payload. -/
theorem read_last_whole {S : Shape} {e : EltTy} (v : View sig .tc .vmem S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz inb w L]

set_option maxHeartbeats 1000000 in
/-- At a first key tile (the first conditional taken, the second not): the scratch, found at anything, is set to the zero
    block and then this tile's weighted values are added to it; every window's buffer is handed back as found. -/
theorem run1_A (c : Dev nD) (E : Set ℕ) (i : grid1.Coords) (a3 : Memref sig .tc .vmem S1x512x128 .bf16) (h3 : a3.IsWhole) (a4 : Memref sig .tc .vmem S1x512x128 .bf16) (h4 : a4.IsWhole) (a5 : Memref sig .tc .vmem S1x512x2048 .bf16) (h5 : a5.IsWhole) (a6 : Memref sig .tc .vmem S1x512x2048 .bf16) (h6 : a6.IsWhole) (a7 : Memref sig .tc .vmem S1x512x1024 .f32) (h7 : a7.IsWhole) (a8 : Memref sig .tc .vmem S2048x1024 .bf16) (h8 : a8.IsWhole) (a9 : Memref sig .tc .vmem S1024 .f32) (h9 : a9.IsWhole) (a10 : Memref sig .tc .vmem S1x512x1024 .f32) (h10 : a10.IsWhole) (a11 : Memref sig .tc .vmem S512x2048 .f32) (h11 : a11.IsWhole)
    (hc0 : cond1_0 i) (hc1 : ¬cond1_1 i)
    (x0 : Vec F S1x512x128 .bf16) (x1 : Vec F S1x512x128 .bf16) (x2 : Vec F S1x512x2048 .bf16) (x3 : Vec F S1x512x2048 .bf16) (x4 : Vec F S1x512x1024 .f32) (x5 : Vec F S2048x1024 .bf16) (x6 : Vec F S1024 .f32) (x7 : Vec F S1x512x1024 .f32) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare x6 ∗ owns (c : Thread nD τ) a10 fullShare x7 ∗ (∃ d, owns (c : Thread nD τ) a11 fullShare d)
        ∗ (iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare x6 ∗ owns (c : Thread nD τ) a10 fullShare x7
            ∗ owns (c : Thread nD τ) a11 fullShare (k1_pay2 x0 x1 x2 (k1_pay1 (F := F)))) -∗ K ⟨⟩))
      ⊢ wp frame (wpE (defs₀ (F := F)) Variants.none c none) E (cc1__attn_kernel i a3 h3 a4 h4 a5 h5 a6 h6 a7 h7 a8 h8 a9 h9 a10 h10 a11 h11) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  subst hf0; subst hf1; subst hf2; subst hf3; subst hf4; subst hf5; subst hf6; subst hf7
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact HS
  ipureintro
  rw [read_last_whole a11.view fs hz2]
  sl_unfold_words
  simp only [View.readAt_eq_ld, View.ld_unit_zero (S := S1x512x128) hz3, View.ld_unit_zero (S := S1x512x2048) hz3, View.readCov_unit_zero (S := S512x2048) _ hz2]

set_option maxHeartbeats 1000000 in
/-- At a middle key tile (neither conditional taken): this tile's weighted values are added to what the scratch held;
    every window's buffer is handed back as found. -/
theorem run1_B (c : Dev nD) (E : Set ℕ) (i : grid1.Coords) (a3 : Memref sig .tc .vmem S1x512x128 .bf16) (h3 : a3.IsWhole) (a4 : Memref sig .tc .vmem S1x512x128 .bf16) (h4 : a4.IsWhole) (a5 : Memref sig .tc .vmem S1x512x2048 .bf16) (h5 : a5.IsWhole) (a6 : Memref sig .tc .vmem S1x512x2048 .bf16) (h6 : a6.IsWhole) (a7 : Memref sig .tc .vmem S1x512x1024 .f32) (h7 : a7.IsWhole) (a8 : Memref sig .tc .vmem S2048x1024 .bf16) (h8 : a8.IsWhole) (a9 : Memref sig .tc .vmem S1024 .f32) (h9 : a9.IsWhole) (a10 : Memref sig .tc .vmem S1x512x1024 .f32) (h10 : a10.IsWhole) (a11 : Memref sig .tc .vmem S512x2048 .f32) (h11 : a11.IsWhole)
    (hc0 : ¬cond1_0 i) (hc1 : ¬cond1_1 i)
    (x0 : Vec F S1x512x128 .bf16) (x1 : Vec F S1x512x128 .bf16) (x2 : Vec F S1x512x2048 .bf16) (x3 : Vec F S1x512x2048 .bf16) (x4 : Vec F S1x512x1024 .f32) (x5 : Vec F S2048x1024 .bf16) (x6 : Vec F S1024 .f32) (x7 : Vec F S1x512x1024 .f32) (xs : Vec F S512x2048 .f32) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare x6 ∗ owns (c : Thread nD τ) a10 fullShare x7 ∗ owns (c : Thread nD τ) a11 fullShare xs
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ owns (c : Thread nD τ) a8 fullShare x5
            ∗ owns (c : Thread nD τ) a9 fullShare x6 ∗ owns (c : Thread nD τ) a10 fullShare x7
            ∗ owns (c : Thread nD τ) a11 fullShare (k1_pay2 x0 x1 x2 xs)) -∗ K ⟨⟩))
      ⊢ wp frame (wpE (defs₀ (F := F)) Variants.none c none) E (cc1__attn_kernel i a3 h3 a4 h4 a5 h5 a6 h6 a7 h7 a8 h8 a9 h9 a10 h10 a11 h11) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact HS
  ipureintro
  rw [read_last_whole a11.view fs hz2]
  simp only [View.readAt_eq_ld, View.ld_unit_zero (S := S1x512x128) hz3, View.ld_unit_zero (S := S1x512x2048) hz3, View.ld_unit_zero (S := S512x2048) hz2]

set_option maxHeartbeats 1000000 in
/-- At a last key tile (the second conditional taken, the first not): this tile's weighted values are added to what the
    scratch held, and the output buffer, found at anything, is left at x plus the gated scratch projected back plus the
    bias; the input buffers are handed back as found. -/
theorem run1_C (c : Dev nD) (E : Set ℕ) (i : grid1.Coords) (a3 : Memref sig .tc .vmem S1x512x128 .bf16) (h3 : a3.IsWhole) (a4 : Memref sig .tc .vmem S1x512x128 .bf16) (h4 : a4.IsWhole) (a5 : Memref sig .tc .vmem S1x512x2048 .bf16) (h5 : a5.IsWhole) (a6 : Memref sig .tc .vmem S1x512x2048 .bf16) (h6 : a6.IsWhole) (a7 : Memref sig .tc .vmem S1x512x1024 .f32) (h7 : a7.IsWhole) (a8 : Memref sig .tc .vmem S2048x1024 .bf16) (h8 : a8.IsWhole) (a9 : Memref sig .tc .vmem S1024 .f32) (h9 : a9.IsWhole) (a10 : Memref sig .tc .vmem S1x512x1024 .f32) (h10 : a10.IsWhole) (a11 : Memref sig .tc .vmem S512x2048 .f32) (h11 : a11.IsWhole)
    (hc0 : ¬cond1_0 i) (hc1 : cond1_1 i)
    (x0 : Vec F S1x512x128 .bf16) (x1 : Vec F S1x512x128 .bf16) (x2 : Vec F S1x512x2048 .bf16) (x3 : Vec F S1x512x2048 .bf16) (x4 : Vec F S1x512x1024 .f32) (x5 : Vec F S2048x1024 .bf16) (x6 : Vec F S1024 .f32) (xs : Vec F S512x2048 .f32) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare x6 ∗ (∃ d, owns (c : Thread nD τ) a10 fullShare d) ∗ owns (c : Thread nD τ) a11 fullShare xs
        ∗ (iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare x6 ∗ owns (c : Thread nD τ) a10 fullShare (k1_pay3 x3 (k1_pay2 x0 x1 x2 xs) x5 x4 x6)
            ∗ owns (c : Thread nD τ) a11 fullShare (k1_pay2 x0 x1 x2 xs)) -∗ K ⟨⟩))
      ⊢ wp frame (wpE (defs₀ (F := F)) Variants.none c none) E (cc1__attn_kernel i a3 h3 a4 h4 a5 h5 a6 h6 a7 h7 a8 h8 a9 h9 a10 h10 a11 h11) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst hf0; subst hf1; subst hf2; subst hf3; subst hf4; subst hf5; subst hf6; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    rw [read_last_whole a10.view f7 hz3]
    sl_unfold_words
    simp only [View.readAt_eq_ld, View.ld_unit_zero (S := S1x512x128) hz3, View.ld_unit_zero (S := S1x512x2048) hz3, View.ld_unit_zero (S := S1x512x1024) hz3, View.ld_unit_zero (S := S2048x1024) hz2, View.ld_unit_zero (S := S1024) hz1, View.ld_unit_zero (S := S512x2048) hz2, View.readCov_unit_zero (S := S512x2048) _ hz2]
  iexists _; isplitr
  swap; · iexact HS
  ipureintro
  sl_unfold_words
  rw [read_last_whole a11.view fs hz2]
  simp only [View.readAt_eq_ld, View.ld_unit_zero (S := S1x512x128) hz3, View.ld_unit_zero (S := S1x512x2048) hz3, View.ld_unit_zero (S := S1x512x1024) hz3, View.ld_unit_zero (S := S2048x1024) hz2, View.ld_unit_zero (S := S1024) hz1, View.ld_unit_zero (S := S512x2048) hz2, View.readCov_unit_zero (S := S512x2048) _ hz2]

/-! ## What the windows' buffers hold when the body is called -/

/-- Input window 0's current buffer holds its block at every point, fetched there or not: where it is not fetched the
    block index has not moved since the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- Input window 1's current buffer holds its block at every point, fetched there or not: where it is not fetched the
    block index has not moved since the point before. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- Input window 2's current buffer holds its block at every point, fetched there or not: where it is not fetched the
    block index has not moved since the point before. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
/-- Input window 3's current buffer holds its block at every point, fetched there or not: where it is not fetched the
    block index has not moved since the point before. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
/-- Input window 4's current buffer holds its block at every point, fetched there or not: where it is not fetched the
    block index has not moved since the point before. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
/-- Input window 5's current buffer holds its block at every point, fetched there or not: where it is not fetched the
    block index has not moved since the point before. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
/-- Input window 6's current buffer holds its block at every point, fetched there or not: where it is not fetched the
    block index has not moved since the point before. -/
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## What the body hands back, window by window -/

/-- Input window 0 is live everywhere: its buffer is handed back at its block. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
/-- Input window 1 is live everywhere: its buffer is handed back at its block. -/
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
/-- Input window 2 is live everywhere: its buffer is handed back at its block. -/
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
/-- Input window 3 is live everywhere: its buffer is handed back at its block. -/
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
/-- Input window 4 is live everywhere: its buffer is handed back at its block. -/
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]
/-- Input window 5 is live everywhere: its buffer is handed back at its block. -/
theorem leaves1_5 (c : Dev nD) (t : Fin cfg1.N) :
    (dat1 V c).leavesExact 5 t = owns (c : Thread nD τ) (st1_5 t) fullShare (iblk1 V c 5 t) := by
  unfold Dat.leavesExact; rw [liveAt1_5 t, after1_5]
/-- Input window 6 is live everywhere: its buffer is handed back at its block. -/
theorem leaves1_6 (c : Dev nD) (t : Fin cfg1.N) :
    (dat1 V c).leavesExact 6 t = owns (c : Thread nD τ) (st1_6 t) fullShare (iblk1 V c 6 t) := by
  unfold Dat.leavesExact; rw [liveAt1_6 t, after1_6]
/-- At a last key tile the output window is live: its buffer is handed back at the stored block. -/
theorem leaves1_7_live (c : Dev nD) (t : Fin cfg1.N) (h1 : t.val % 4 = 3) :
    (dat1 V c).leavesExact 7 t = owns (c : Thread nD τ) (st1_7 t) fullShare (out1_7 V c t) := by
  unfold Dat.leavesExact; rw [liveAt1_7 t h1, after1_7]

/-! ## The body at a point -/

/-- At any position the invariant gives the class's, spelt out: the scratch's named contents are forgotten. -/
theorem PhiS1_forget (c : Dev nD) (n : ℕ) (h : n ≤ cfg1.N) :
    PhiS1 V c n h ⊢ iprop((anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg8_0 ∗ anyBuf (F := F) c cc0_stg9_0 ∗ anyBuf (F := F) c cc0_stg9_1 ∗ anyBuf (F := F) c cc0_stg10_0 ∗ anyBuf (F := F) c cc0_stg10_1 ∗ anyBuf (F := F) c cc0_stg11_0 ∗ anyBuf (F := F) c cc0_stg11_1 ∗ anyBuf (F := F) c cc0_stg12_0 ∗ anyBuf (F := F) c cc0_stg12_1 ∗ (∃ d, owns (c : Thread nD τ) scM1 fullShare d)) ∗ (∃ r, prngReg c r)) := by
  cases n with
  | zero => rw [PhiS1_zero V c 0 h rfl, PhiA1_eq]
  | succ n =>
    rw [PhiS1_succ]
    iintro ⟨⟨H0, H1, H2, H3, H4, H5, H6, H7, H8, H9, H10, H11, H12, H13, H14, H15, H16, H17, HS⟩, Hg⟩
    isplitr [Hg]
    ·
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact HS
    iexact Hg

/-- What the body is called with at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 1000000 in
/-- The body at any point. The input buffers hold their blocks; the position's residue mod 4 says which of the two
    conditionals are taken; in each of the three cases the body's run applies: the invariant lends it the scratch (at
    anything where it is about to be reset, else at what the point before left) and takes it back at this point's
    contents, the first region's buffers and the generator register pass through untouched, and the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6, PhiS1_castSucc V c t]
  have hN : t.val < 64 := lt_of_lt_of_eq t.isLt (show cfg1.N = 64 from N_1)
  by_cases h0 : t.val % 4 = 0
  · -- a first key tile: the scratch is reset, then this tile's weighted values are added; nothing is stored out
    have h1 : ¬t.val % 4 = 3 := by omega
    rw [Dat.leavesExact_idle (dat1 V c) 7 t (idleAt1_7 t h1) (noFlush1_7 t h1), scr1_reset V c t h0]
    iintro ⟨HP, Ho, ⟨%d0, B0⟩, ⟨%d1, B1⟩, ⟨%d2, B2⟩, ⟨%d3, B3⟩, ⟨%d4, B4⟩, ⟨%d5, B5⟩, ⟨%d6, B6⟩, ⟨%d7, B7⟩⟩
    ihave ⟨⟨H0, H1, H2, H3, H4, H5, H6, H7, H8, H9, H10, H11, H12, H13, H14, H15, H16, H17, ⟨%ds, HS⟩⟩, Hg⟩ := (PhiS1_forget V c t.val (Nat.le_of_lt t.isLt)) $$ HP
    iapply (run1_A c Set.univ (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) _ _)
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [HS]; · iexists _; iexact HS
    iintro ⟨B0, B1, B2, B3, B4, B5, B6, B7, HS⟩
    isplitl [H0 H1 H2 H3 H4 H5 H6 H7 H8 H9 H10 H11 H12 H13 H14 H15 H16 H17 HS Hg]
    · isplitr [Hg]
      ·
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        iexact HS
      iexact Hg
    isplitl [Ho]; · iexact Ho
    isplitl [B0]; · iexact B0
    isplitl [B1]; · iexact B1
    isplitl [B2]; · iexact B2
    isplitl [B3]; · iexact B3
    isplitl [B4]; · iexact B4
    isplitl [B5]; · iexact B5
    isplitl [B6]; · iexact B6
    iexists _; iexact B7
  · have hz : t.val ≠ 0 := fun e => h0 (by rw [e])
    rw [PhiS1_pos V c _ _ hz, scr1_acc V c t h0]
    by_cases h1 : t.val % 4 = 3
    · -- a last key tile: this tile's weighted values are added to what the point before left, and the output block is stored
      rw [leaves1_7_live V c t h1]
      unfold out1_7
      rw [scr1_acc V c t h0]
      iintro ⟨⟨⟨H0, H1, H2, H3, H4, H5, H6, H7, H8, H9, H10, H11, H12, H13, H14, H15, H16, H17, HS⟩, Hg⟩, Ho, ⟨%d0, B0⟩, ⟨%d1, B1⟩, ⟨%d2, B2⟩, ⟨%d3, B3⟩, ⟨%d4, B4⟩, ⟨%d5, B5⟩, ⟨%d6, B6⟩, ⟨%d7, B7⟩⟩
      iapply (run1_C c Set.univ (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _)
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexists _; iexact B7
      isplitl [HS]; · iexact HS
      iintro ⟨B0, B1, B2, B3, B4, B5, B6, B7, HS⟩
      isplitl [H0 H1 H2 H3 H4 H5 H6 H7 H8 H9 H10 H11 H12 H13 H14 H15 H16 H17 HS Hg]
      · isplitr [Hg]
        ·
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          iexact HS
        iexact Hg
      isplitl [Ho]; · iexact Ho
      isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    · -- a middle key tile: this tile's weighted values are added to what the point before left; nothing is stored out
      rw [Dat.leavesExact_idle (dat1 V c) 7 t (idleAt1_7 t h1) (noFlush1_7 t h1)]
      iintro ⟨⟨⟨H0, H1, H2, H3, H4, H5, H6, H7, H8, H9, H10, H11, H12, H13, H14, H15, H16, H17, HS⟩, Hg⟩, Ho, ⟨%d0, B0⟩, ⟨%d1, B1⟩, ⟨%d2, B2⟩, ⟨%d3, B3⟩, ⟨%d4, B4⟩, ⟨%d5, B5⟩, ⟨%d6, B6⟩, ⟨%d7, B7⟩⟩
      iapply (run1_B c Set.univ (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _ _)
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [HS]; · iexact HS
      iintro ⟨B0, B1, B2, B3, B4, B5, B6, B7, HS⟩
      isplitl [H0 H1 H2 H3 H4 H5 H6 H7 H8 H9 H10 H11 H12 H13 H14 H15 H16 H17 HS Hg]
      · isplitr [Hg]
        ·
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          iexact HS
        iexact Hg
      isplitl [Ho]; · iexact Ho
      isplitl [B0]; · iexact B0
      isplitl [B1]; · iexact B1
      isplitl [B2]; · iexact B2
      isplitl [B3]; · iexact B3
      isplitl [B4]; · iexact B4
      isplitl [B5]; · iexact B5
      isplitl [B6]; · iexact B6
      iexists _; iexact B7

/-! ## The body obligation, and the invariant's two ends -/

/-- The body at every point of the grid, against the proof data. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  have hN : cfg1.N = 64 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨H0, H1, H2, H3, H4, H5, H6, H7, H8, H9, H10, H11, H12, H13, H14, H15, H16, H17, HS⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexists _; iexact HS
  iexact Hg

end Cert.Kernel.Hand

end
-- ==== Proof.KernelRun.lean ====
/-
  The run of the whole program: a stretch of two host casts, the first kernel region, the second kernel region.

  Between two of these items a core holds every unscoped buffer at a known valuation: the launch memory (`W0`), then
  the two casts applied (`W1`), then the first region's arrays at what its write-backs leave and every other buffer
  as it was (`W2`), then the same for the second region (`W3`). Beside the buffers ride the generator register at
  some state and the fact that the core owes nothing. Each region splits its arrays out of the unscoped buffers on
  entry and puts them back on exit; the second region's invariant starts and ends at the class's (the carried
  scratch's contents are named only between its points). The launch composes the three items; the last valuation,
  read against the final memory, gives every unscoped buffer's final contents, from which both the frame (each
  argument walks back through the valuations to the launch memory) and the result array are read.
-/
import proofs.«124477_j41326175322889_1_alg».proof.Proof.Gen.Kernel.Launch
import proofs.«124477_j41326175322889_1_alg».proof.Proof.Gen.Kernel.Skeleton
import proofs.«124477_j41326175322889_1_alg».proof.Proof.Gen.Kernel.Points
import proofs.«124477_j41326175322889_1_alg».proof.Proof.Gen.Kernel.Regions
import proofs.«124477_j41326175322889_1_alg».proof.Proof.KernelR0
import proofs.«124477_j41326175322889_1_alg».proof.Proof.KernelR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c => Gen.V0 m c
/-- After the two host casts (the first region's entry). -/
abbrev W1 : Dev nD → Valuation τ sig (Elt F) := fun c => Gen.V1 m c
/-- The same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the second region's entry). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched, and the result array

No host cast and no region writes an argument: the casts write only their own results, a region reads an argument
through an input window (whose array it leaves as entered) or not at all. So the last valuation at an argument walks
back to the launch memory. -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 4).trans (((dat1 (V2 m) c).arrAt_in 4 rfl _).trans (A_eq1 (V2 m) c 4))
    _ = W1 m c (Proc.devRef .tc main_arg0) := (W2_arr m c 0).trans (((dat0 (V1 m) c).arrAt_in 0 rfl _).trans (A_eq0 (V1 m) c 0))
    _ = W0 m c (Proc.devRef .tc main_arg0) := Gen.V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := Gen.V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = W0 m c (Proc.devRef .tc main_arg2) := Gen.V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := Gen.V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 4).trans (((dat0 (V1 m) c).arrAt_in 4 rfl _).trans (A_eq0 (V1 m) c 4))
    _ = W0 m c (Proc.devRef .tc main_arg4) := Gen.V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := Gen.V1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := (W3_arr m c 6).trans (((dat1 (V2 m) c).arrAt_in 6 rfl _).trans (A_eq1 (V2 m) c 6))
    _ = W1 m c (Proc.devRef .tc main_arg6) := W2_of_ne m c main_arg6 (by decide)
    _ = W0 m c (Proc.devRef .tc main_arg6) := Gen.V1_of m c main_arg6 (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := (W2_arr m c 5).trans (((dat0 (V1 m) c).arrAt_in 5 rfl _).trans (A_eq0 (V1 m) c 5))
    _ = W0 m c (Proc.devRef .tc main_arg7) := Gen.V1_of m c main_arg7 (by decide)
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := (W2_arr m c 6).trans (((dat0 (V1 m) c).arrAt_in 6 rfl _).trans (A_eq0 (V1 m) c 6))
    _ = W0 m c (Proc.devRef .tc main_arg8) := Gen.V1_of m c main_arg8 (by decide)
    _ = m ((c : Thread nD τ).loc main_arg8) := rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := (W2_arr m c 7).trans (((dat0 (V1 m) c).arrAt_in 7 rfl _).trans (A_eq0 (V1 m) c 7))
    _ = W0 m c (Proc.devRef .tc main_arg9) := Gen.V1_of m c main_arg9 (by decide)
    _ = m ((c : Thread nD τ).loc main_arg9) := rfl
theorem W3_main_arg10 (c : Dev nD) : W3 m c (Proc.devRef .tc main_arg10) = m ((c : Thread nD τ).loc main_arg10) :=
  calc W3 m c (Proc.devRef .tc main_arg10)
    _ = W2 m c (Proc.devRef .tc main_arg10) := W3_of_ne m c main_arg10 (by decide)
    _ = W1 m c (Proc.devRef .tc main_arg10) := (W2_arr m c 8).trans (((dat0 (V1 m) c).arrAt_in 8 rfl _).trans (A_eq0 (V1 m) c 8))
    _ = W0 m c (Proc.devRef .tc main_arg10) := Gen.V1_of m c main_arg10 (by decide)
    _ = m ((c : Thread nD τ).loc main_arg10) := rfl

/-- The result array at the end is what the second region's write-backs leave. -/
theorem W3_main_v3 (c : Dev nD) : W3 m c (Proc.devRef .tc main_v3) = (dat1 (V2 m) c).arrAt 7 cfg1.N :=
  W3_arr m c 7

/-- What the second region is entered with: the first region's four output arrays at what its write-backs leave, -/
theorem V2_main_v2_0 (c : Dev nD) : V2 m c main_v2_0 = (dat0 (V1 m) c).arrAt 9 cfg0.N := W2_arr m c 9
theorem V2_main_v2_1 (c : Dev nD) : V2 m c main_v2_1 = (dat0 (V1 m) c).arrAt 10 cfg0.N := W2_arr m c 10
theorem V2_main_v2_2 (c : Dev nD) : V2 m c main_v2_2 = (dat0 (V1 m) c).arrAt 11 cfg0.N := W2_arr m c 11
theorem V2_main_v2_3 (c : Dev nD) : V2 m c main_v2_3 = (dat0 (V1 m) c).arrAt 12 cfg0.N := W2_arr m c 12
/-- and the buffers the first region does not stage or only reads, as the host casts left them. -/
theorem V2_main_arg0 (c : Dev nD) : V2 m c main_arg0 = V1 m c main_arg0 :=
  (W2_arr m c 0).trans (((dat0 (V1 m) c).arrAt_in 0 rfl _).trans (A_eq0 (V1 m) c 0))
theorem V2_main_v1 (c : Dev nD) : V2 m c main_v1 = V1 m c main_v1 := W2_of_ne m c main_v1 (by decide)
theorem V2_main_arg6 (c : Dev nD) : V2 m c main_arg6 = V1 m c main_arg6 := W2_of_ne m c main_arg6 (by decide)

/-! ## The proof data family and what rides beside the buffers -/

/-- The prefetched tables' admissible contents: no pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)
/-- The host casts as an item over the unscoped buffers. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) R
/-- The last thread state without the owing part: every unscoped buffer at the last valuation, the generator register. -/
abbrev Tₙ (c : Dev nD) : sProp 𝕄 := iprop(StableHlo.held (c : Thread nD τ) (Pipeline.ucRefs τ sig) (W3 m c) ∗ ∃ r, prngReg c r)

/-! ## The regions as items -/

-- a library lemma stated over `pin pcs a p` unifies with the pinned configuration only when unification may unfold plain
-- definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The whole program as three items, and the launch -/

/-- @main's items in order. -/
abbrev segs : List (Pipeline.Seg (pcfgs (F := F)) adm (pdats m) () defs₀ 𝒱₀ L lv) :=
  [ .host (hseg0 m), .region (reg0 m), .region (reg1 m) ]
/-- @main IS the run of the items. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

-- the launch theorem's implicit arguments are found by unifying its conclusion with this one, which takes unfolding plain
-- definitions in a metavariable's type
set_option backward.isDefEq.respectTransparency.types false in
/-- From any memory with zero counters every weakly fair execution of @main terminates, nothing faulting, and in the
    final memory every unscoped buffer of every core holds what the last valuation says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c),
     (h c _ (mem_uc main_arg9 (by decide))).trans (W3_main_arg9 m c),
     (h c _ (mem_uc main_arg10 (by decide))).trans (W3_main_arg10 m c)⟩) (run_all m ρ)

/-- The result array beside the frame: the result ends at what the second region's write-backs leave. -/
theorem run_value : θ_run defs (onTc (τ := τ) (main (F := F))) ⟨m, fun _ => 0, ρ⟩ (fun r => ∀ c : Dev nD,
      r.2.mem ((c.tc : Thread nD τ).loc main_v3) = (dat1 (V2 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v3 (by decide))).trans (W3_main_v3 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c),
     (h c _ (mem_uc main_arg9 (by decide))).trans (W3_main_arg9 m c),
     (h c _ (mem_uc main_arg10 (by decide))).trans (W3_main_arg10 m c)⟩) (run_all m ρ)

end Cert.Kernel.Hand

end
-- ==== Proof.R0.lean ====
/-
  The first kernel region (normalise, project, x · logistic x, split into u, v, q, k), at a PARAMETER V: the
  buffer contents the region is entered from.

  A point (b, l) of the 4 × 8 grid reads a [1, 256, 1024] block of x and the whole of the gain, the shift,
  the projection matrix, its bias and the four affine vectors, and stores four whole output blocks: u and v
  ([1, 256, 2048] each) and q and k ([1, 256, 128] each). Every output block is ONE store over the whole
  staging buffer, so what a buffer holds after the body is that store's value, a pure function of the nine
  input blocks (`out0_9` … `out0_12`). The body also loads each output buffer before storing into it; the
  loaded values are not used, so the buffers may hold anything when the body is entered.
-/
import proofs.«124477_j41326175322889_1_alg».proof.Proof.Gen.KernelIdeal.Launch
import proofs.«124477_j41326175322889_1_alg».proof.Proof.Gen.KernelIdeal.Skeleton
import proofs.«124477_j41326175322889_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body leaves in each output buffer, from the nine input blocks -/

/-- The u block: features 0 … 2047 of the activated projection of the x block. -/
def out0_9 (x0 : Vec F S1x256x1024 .f32) (x1 x2 : Vec F S1024 .f32) (x3 : Vec F S1024x4224 .bf16) (x4 : Vec F S4224 .f32) :
    Vec F S1x256x2048 .bf16 :=
  k0_pay1 (k0_pay6 x0 x1 x2 x3 x4)
/-- The v block: features 2048 … 4095. -/
def out0_10 (x0 : Vec F S1x256x1024 .f32) (x1 x2 : Vec F S1024 .f32) (x3 : Vec F S1024x4224 .bf16) (x4 : Vec F S4224 .f32) :
    Vec F S1x256x2048 .bf16 :=
  k0_pay2 (k0_pay7 x0 x1 x2 x3 x4)
/-- The q block: features 4096 … 4223 times the query gain, plus the query shift. -/
def out0_11 (x0 : Vec F S1x256x1024 .f32) (x1 x2 : Vec F S1024 .f32) (x3 : Vec F S1024x4224 .bf16) (x4 : Vec F S4224 .f32)
    (x5 x6 : Vec F S128 .f32) : Vec F S1x256x128 .bf16 :=
  k0_pay3 (k0_pay9 x0 x1 x2 x3 x4 x5) x6
/-- The k block: the same features times the key gain, plus the key shift. -/
def out0_12 (x0 : Vec F S1x256x1024 .f32) (x1 x2 : Vec F S1024 .f32) (x3 : Vec F S1024x4224 .bf16) (x4 : Vec F S4224 .f32)
    (x7 x8 : Vec F S128 .f32) : Vec F S1x256x128 .bf16 :=
  k0_pay4 (k0_pay8 x0 x1 x2 x3 x4) x7 x8

/-! ## The proof data -/

/-- The proof data of the first pipeline on core `c`: the arrays as the region finds them; after the body at point `t`
    each input's buffer at its block and each output's at its store's value of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t)
    | ⟨10, _⟩ => out0_10 (iblk0 V c 0 t) (iblk0 V c 1 t) (iblk0 V c 2 t) (iblk0 V c 3 t) (iblk0 V c 4 t)
    | ⟨11, _⟩ => out0_11 (iblk0 V c 0 t) (iblk0 V c 1 t) (iblk0 V c 2 t) (iblk0 V c 3 t) (iblk0 V c 4 t) (iblk0 V c 5 t) (iblk0 V c 6 t)
    | ⟨12, _⟩ => out0_12 (iblk0 V c 0 t) (iblk0 V c 1 t) (iblk0 V c 2 t) (iblk0 V c 3 t) (iblk0 V c 4 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves in the output windows' buffers. -/
theorem after0_9 (c : Dev nD) (t : Fin cfg0.N) : (dat0 V c).after 9 t
    = out0_9 (iblk0 V c 0 t) (iblk0 V c 1 t) (iblk0 V c 2 t) (iblk0 V c 3 t) (iblk0 V c 4 t) := by dsimp only [dat0]
theorem after0_10 (c : Dev nD) (t : Fin cfg0.N) : (dat0 V c).after 10 t
    = out0_10 (iblk0 V c 0 t) (iblk0 V c 1 t) (iblk0 V c 2 t) (iblk0 V c 3 t) (iblk0 V c 4 t) := by dsimp only [dat0]
theorem after0_11 (c : Dev nD) (t : Fin cfg0.N) : (dat0 V c).after 11 t
    = out0_11 (iblk0 V c 0 t) (iblk0 V c 1 t) (iblk0 V c 2 t) (iblk0 V c 3 t) (iblk0 V c 4 t) (iblk0 V c 5 t) (iblk0 V c 6 t) := by dsimp only [dat0]
theorem after0_12 (c : Dev nD) (t : Fin cfg0.N) : (dat0 V c).after 12 t
    = out0_12 (iblk0 V c 0 t) (iblk0 V c 1 t) (iblk0 V c 2 t) (iblk0 V c 3 t) (iblk0 V c 4 t) (iblk0 V c 7 t) (iblk0 V c 8 t) := by dsimp only [dat0]

/-! ## What the body finds in each input window's buffer

An input window's current staging buffer holds its block at every point of the grid, whether the pipeline fetched it
there or not: where it was not fetched the block index has not moved since the last fetch, and the body leaves the
block in place. Stated for ANY proof data whose array is `V`'s and whose body leaves the block in place; no input
window is cut at its array's end and none is ever idle. Window 0 (the x block) moves with the point; windows 1 … 8
are whole arrays, the same block at every point. -/

/-- Input window 0 (the x block) holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the gain) holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the shift) holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the projection matrix) holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the projection bias) holds its block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 (the query gain) holds its block at every point. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 (the query shift) holds its block at every point. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7 (the key gain) holds its block at every point. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8 (the key shift) holds its block at every point. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the input windows' buffers: their blocks, untouched. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]

/-- So against the proof data each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The whole-buffer rectangles start at zero on every axis

Every load and every store of the body is over a whole staging buffer: the rectangle of full extent at offsets
`![0, …, 0]`. Reading through it is the identity and one store through it leaves its value. -/

theorem off1_zero : (![0] : Fin 1 → Nat) = fun _ => 0 := funext fun a => by fin_cases a <;> rfl
theorem off2_zero : (![0, 0] : Fin 2 → Nat) = fun _ => 0 := funext fun a => by fin_cases a <;> rfl
theorem off3_zero : (![0, 0, 0] : Fin 3 → Nat) = fun _ => 0 := funext fun a => by fin_cases a <;> rfl

/-- ONE store through the full rectangle of a buffer, read back, is the stored value, whatever the buffer held: the
    rectangle covers every index, so the canonical form of the one-piece list is its value. -/
theorem read_store_whole {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

/-! ## The body's triple -/

set_option maxHeartbeats 4000000 in
/-- The kernel body on whole staging memrefs — the nine inputs' at read contents `x0 … x8`, the four outputs' at
    anything — runs to the continuation holding the inputs' as they were and each output's at `out0_w` of the
    inputs'. The body reads each input buffer whole (a read through the zero-offset full rectangle is the contents),
    so every value it computes is a function of `x0 … x8`; each output buffer is overwritten by ONE store through the
    full rectangle, which covers it, so reading it back gives that store's value whatever the buffer held: the u and
    v slices of the activated projection rounded to bf16, and the q and k affine images of its last 128 features. -/
theorem sound_kernel0 (c : Dev nD) (E : Set ℕ) (i : grid0.Coords) (arg2 : Memref sig .tc .vmem S1x256x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x4224 .bf16) (harg5 : arg5.IsWhole) (arg6 : Memref sig .tc .vmem S4224 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S1x256x2048 .bf16) (harg11 : arg11.IsWhole) (arg12 : Memref sig .tc .vmem S1x256x2048 .bf16) (harg12 : arg12.IsWhole) (arg13 : Memref sig .tc .vmem S1x256x128 .bf16) (harg13 : arg13.IsWhole) (arg14 : Memref sig .tc .vmem S1x256x128 .bf16) (harg14 : arg14.IsWhole)
    (x0 : Vec F S1x256x1024 .f32) (x1 : Vec F S1024 .f32) (x2 : Vec F S1024 .f32) (x3 : Vec F S1024x4224 .bf16) (x4 : Vec F S4224 .f32) (x5 : Vec F S128 .f32) (x6 : Vec F S128 .f32) (x7 : Vec F S128 .f32) (x8 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare (out0_9 x0 x1 x2 x3 x4) ∗ owns (c : Thread nD τ) arg12 fullShare (out0_10 x0 x1 x2 x3 x4) ∗ owns (c : Thread nD τ) arg13 fullShare (out0_11 x0 x1 x2 x3 x4 x5 x6) ∗ owns (c : Thread nD τ) arg14 fullShare (out0_12 x0 x1 x2 x3 x4 x7 x8)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14) K := by
  simp only [cc0__proj_kernel_eq_skeleton]; unfold cc0__proj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec
  sl_step
  iapply Hk
  -- the inputs come back as they were: a whole memref's raw contents read back to the contents they were named by
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  -- each output: the one store through the full rectangle reads back as its value, and the whole-buffer loads under
  -- that value read the inputs' contents
  isplitl [H9]
  · iexists _; isplitr
    swap; · iexact H9
    ipureintro
    rw [read_store_whole _ _ off3_zero]
    sl_unfold_run_names
    simp only [View.readAt_eq_ld, harg2.read_unread, harg3.read_unread, harg4.read_unread, harg5.read_unread, harg6.read_unread, harg7.read_unread, harg8.read_unread, harg9.read_unread, harg10.read_unread, View.ld_unit_zero (S := S1x256x1024) off3_zero, View.ld_unit_zero (S := S1024) off1_zero, View.ld_unit_zero (S := S1024x4224) off2_zero, View.ld_unit_zero (S := S4224) off1_zero, View.ld_unit_zero (S := S128) off1_zero]
    rfl
  isplitl [H10]
  · iexists _; isplitr
    swap; · iexact H10
    ipureintro
    rw [read_store_whole _ _ off3_zero]
    sl_unfold_run_names
    simp only [View.readAt_eq_ld, harg2.read_unread, harg3.read_unread, harg4.read_unread, harg5.read_unread, harg6.read_unread, harg7.read_unread, harg8.read_unread, harg9.read_unread, harg10.read_unread, View.ld_unit_zero (S := S1x256x1024) off3_zero, View.ld_unit_zero (S := S1024) off1_zero, View.ld_unit_zero (S := S1024x4224) off2_zero, View.ld_unit_zero (S := S4224) off1_zero, View.ld_unit_zero (S := S128) off1_zero]
    rfl
  isplitl [H11]
  · iexists _; isplitr
    swap; · iexact H11
    ipureintro
    rw [read_store_whole _ _ off3_zero]
    sl_unfold_run_names
    simp only [View.readAt_eq_ld, harg2.read_unread, harg3.read_unread, harg4.read_unread, harg5.read_unread, harg6.read_unread, harg7.read_unread, harg8.read_unread, harg9.read_unread, harg10.read_unread, View.ld_unit_zero (S := S1x256x1024) off3_zero, View.ld_unit_zero (S := S1024) off1_zero, View.ld_unit_zero (S := S1024x4224) off2_zero, View.ld_unit_zero (S := S4224) off1_zero, View.ld_unit_zero (S := S128) off1_zero]
    rfl
  · iexists _; isplitr
    swap; · iexact H12
    ipureintro
    rw [read_store_whole _ _ off3_zero]
    sl_unfold_run_names
    simp only [View.readAt_eq_ld, harg2.read_unread, harg3.read_unread, harg4.read_unread, harg5.read_unread, harg6.read_unread, harg7.read_unread, harg8.read_unread, harg9.read_unread, harg10.read_unread, View.ld_unit_zero (S := S1x256x1024) off3_zero, View.ld_unit_zero (S := S1024) off1_zero, View.ld_unit_zero (S := S1024x4224) off2_zero, View.ld_unit_zero (S := S4224) off1_zero, View.ld_unit_zero (S := S128) off1_zero]
    rfl

/-! ## The body obligation, at a generic point -/

/-- What the body is called with at point `t`: the invariant, nothing owed, and each of the thirteen windows'
    current staging buffers at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- What it returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 4000000 in
/-- The body at any point: each input's buffer holds its block, so the body's triple applies at the nine blocks; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-! ## The body obligation -/

/-- The body at every point of the grid, against the proof data: from the invariant, nothing owed, and each window's
    current staging buffer at what the pipeline left in it, the body runs to the same with each buffer at `after`. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1.lean ====
/-
  The second kernel region (scores, their positive part squared, the weighted sum of values accumulated over the
  key tiles, then gate, project back, add x and a bias), at a PARAMETER V: the buffer contents the region is entered
  from.

  A point (b, qi, ki) of the 4 × 4 × 4 grid reads a [1, 512, 128] block of q (rows of tile qi) and of k (rows of
  tile ki), a [1, 512, 2048] block of v (tile ki) and of u (tile qi), a [1, 512, 1024] block of x (tile qi), and
  the whole of the output projection and its bias. A scratch of [512, 2048] is carried from point to point: at
  ki = 0 it is set to zero and then one tile's weighted values are added; at ki = 1, 2, 3 one more tile's are added
  to what the point before left (`scr1`). Only at ki = 3 is the output block stored (`out1_7`); at the other points
  the output window is idle, its buffer handed back untouched and not written back.

  Position t of the grid is 16 b + 4 qi + ki, so ki = t mod 4.
-/
import proofs.«124477_j41326175322889_1_alg».proof.Proof.Gen.KernelIdeal.Launch
import proofs.«124477_j41326175322889_1_alg».proof.Proof.Gen.KernelIdeal.Skeleton
import proofs.«124477_j41326175322889_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two conditions, decided over the grid -/

/-- The first `scf.if`'s condition (reset the scratch), from the grid coordinates. -/
abbrev cond1_0 (i : grid1.Coords) : Prop :=
  (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The second `scf.if`'s condition (store the output block). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel
/-- Input window 4 is never idle. -/
theorem liveAt1_4 : ∀ t : Fin cfg1.N, cfg1.idle 4 (grid1.coords t) = false := by decide +kernel
/-- Input window 5 is never idle. -/
theorem liveAt1_5 : ∀ t : Fin cfg1.N, cfg1.idle 5 (grid1.coords t) = false := by decide +kernel
/-- Input window 6 is never idle. -/
theorem liveAt1_6 : ∀ t : Fin cfg1.N, cfg1.idle 6 (grid1.coords t) = false := by decide +kernel
/-- Away from a last key tile the output window is idle: the body stores nothing into it, -/
theorem idleAt1_7 : ∀ t : Fin cfg1.N, ¬t.val % 4 = 3 → cfg1.idle 7 (grid1.coords t) = true := by decide +kernel
/-- and the pipeline does not write its block back. -/
theorem noFlush1_7 : ∀ t : Fin cfg1.N, ¬t.val % 4 = 3 → (cfg1.win 7).flush t = false := by decide +kernel
/-- At a last key tile it is live. -/
theorem liveAt1_7 : ∀ t : Fin cfg1.N, t.val % 4 = 3 → cfg1.idle 7 (grid1.coords t) = false := by decide +kernel

/-! ## The carried scratch and the output block, point by point -/

/-- The scratch the kernel carries between points. -/
abbrev scM1 : Memref sig .tc .vmem S512x2048 .f32 := Memref.whole cc1_scratch0

/-- What the scratch holds after the body at position `n`: at a first key tile the zero block plus this tile's weighted
    values; otherwise what position `n - 1` left plus this tile's. -/
def scr1 (c : Dev nD) : (n : ℕ) → n < cfg1.N → Vec F S512x2048 .f32
  | 0, hn => k1_pay2 (iblk1 V c 0 ⟨0, hn⟩) (iblk1 V c 1 ⟨0, hn⟩) (iblk1 V c 2 ⟨0, hn⟩) (k1_pay1 (F := F))
  | n + 1, hn =>
    if (n + 1) % 4 = 0 then
      k1_pay2 (iblk1 V c 0 ⟨n + 1, hn⟩) (iblk1 V c 1 ⟨n + 1, hn⟩) (iblk1 V c 2 ⟨n + 1, hn⟩) (k1_pay1 (F := F))
    else
      k1_pay2 (iblk1 V c 0 ⟨n + 1, hn⟩) (iblk1 V c 1 ⟨n + 1, hn⟩) (iblk1 V c 2 ⟨n + 1, hn⟩) (scr1 c n (Nat.lt_of_succ_lt hn))

/-- At a first key tile: the zero block plus this tile's weighted values. -/
theorem scr1_reset (c : Dev nD) (t : Fin cfg1.N) (h0 : t.val % 4 = 0) :
    scr1 V c t.val t.isLt = k1_pay2 (iblk1 V c 0 t) (iblk1 V c 1 t) (iblk1 V c 2 t) (k1_pay1 (F := F)) := by
  obtain ⟨n, hn⟩ := t
  cases n with
  | zero => rfl
  | succ n => exact if_pos h0

/-- At a later key tile: what the point before left plus this tile's. -/
theorem scr1_acc (c : Dev nD) (t : Fin cfg1.N) (h0 : ¬t.val % 4 = 0) :
    scr1 V c t.val t.isLt = k1_pay2 (iblk1 V c 0 t) (iblk1 V c 1 t) (iblk1 V c 2 t)
      (scr1 V c (t.val - 1) (Nat.lt_of_le_of_lt (Nat.sub_le _ _) t.isLt)) := by
  obtain ⟨n, hn⟩ := t
  cases n with
  | zero => exact absurd (Nat.zero_mod _) h0
  | succ n => exact if_neg h0

/-- The output block a last key tile stores: x plus the gated scratch projected back, plus the bias. (At the other
    points the window is idle and nothing consults this.) -/
def out1_7 (c : Dev nD) (t : Fin cfg1.N) : Vec F S1x512x1024 .f32 :=
  k1_pay3 (iblk1 V c 3 t) (scr1 V c t.val t.isLt) (iblk1 V c 5 t) (iblk1 V c 4 t) (iblk1 V c 6 t)

/-! ## The invariant: the scratch at what the point before left -/

/-- One scoped buffer, whole, at some contents. -/
abbrev anyBuf (c : Dev nD) (r : Ref sig .tc) : sProp 𝕄 :=
  iprop(∃ f : Buf (Elt F) ((c : Thread nD τ).loc r), ((c : Thread nD τ).loc r) ↦{fullShare} f)

/-- What a region of this class may use and need not describe, for this region: the first region's eighteen staging
    buffers at anything, the scratch at anything, and the generator register at some state. -/
theorem PhiA1_eq (c : Dev nD) :
    (Pipeline.ΦA spec1 c : sProp 𝕄)
      = iprop((anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg8_0 ∗ anyBuf (F := F) c cc0_stg9_0 ∗ anyBuf (F := F) c cc0_stg9_1 ∗ anyBuf (F := F) c cc0_stg10_0 ∗ anyBuf (F := F) c cc0_stg10_1 ∗ anyBuf (F := F) c cc0_stg11_0 ∗ anyBuf (F := F) c cc0_stg11_1 ∗ anyBuf (F := F) c cc0_stg12_0 ∗ anyBuf (F := F) c cc0_stg12_1 ∗ (∃ d, owns (c : Thread nD τ) scM1 fullShare d)) ∗ (∃ r, prngReg c r)) := by
  unfold Pipeline.ΦA; rw [scopedRest1_eq]; simp only [scM1, owns_whole]; try rfl

/-- Before position `n`: at the start the class's invariant; afterwards the same with the scratch at what position
    `n - 1` left. -/
def PhiS1 (c : Dev nD) : (n : ℕ) → n ≤ cfg1.N → sProp 𝕄
  | 0, _ => Pipeline.ΦA spec1 c
  | n + 1, hn => iprop((anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg8_0 ∗ anyBuf (F := F) c cc0_stg9_0 ∗ anyBuf (F := F) c cc0_stg9_1 ∗ anyBuf (F := F) c cc0_stg10_0 ∗ anyBuf (F := F) c cc0_stg10_1 ∗ anyBuf (F := F) c cc0_stg11_0 ∗ anyBuf (F := F) c cc0_stg11_1 ∗ anyBuf (F := F) c cc0_stg12_0 ∗ anyBuf (F := F) c cc0_stg12_1 ∗ owns (c : Thread nD τ) scM1 fullShare (scr1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg8_0 ∗ anyBuf (F := F) c cc0_stg9_0 ∗ anyBuf (F := F) c cc0_stg9_1 ∗ anyBuf (F := F) c cc0_stg10_0 ∗ anyBuf (F := F) c cc0_stg10_1 ∗ anyBuf (F := F) c cc0_stg11_0 ∗ anyBuf (F := F) c cc0_stg11_1 ∗ anyBuf (F := F) c cc0_stg12_0 ∗ anyBuf (F := F) c cc0_stg12_1 ∗ owns (c : Thread nD τ) scM1 fullShare (scr1 V c n hn)) ∗ (∃ r, prngReg c r)) := rfl
theorem PhiS1_pos (c : Dev nD) (n : ℕ) (h : n ≤ cfg1.N) (hz : n ≠ 0) :
    PhiS1 V c n h = iprop((anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg8_0 ∗ anyBuf (F := F) c cc0_stg9_0 ∗ anyBuf (F := F) c cc0_stg9_1 ∗ anyBuf (F := F) c cc0_stg10_0 ∗ anyBuf (F := F) c cc0_stg10_1 ∗ anyBuf (F := F) c cc0_stg11_0 ∗ anyBuf (F := F) c cc0_stg11_1 ∗ anyBuf (F := F) c cc0_stg12_0 ∗ anyBuf (F := F) c cc0_stg12_1 ∗ owns (c : Thread nD τ) scM1 fullShare (scr1 V c (n - 1) (by omega))) ∗ (∃ r, prngReg c r)) := by
  cases n with
  | zero => exact absurd rfl hz
  | succ n => rfl

/-! ## The proof data -/

/-- The proof data of the second pipeline on core `c`: the arrays as the region finds them; after the body at point `t`
    each input's buffer at its block and the output's at `out1_7`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 V c t
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 V c t := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body's three runs

The body stores whole buffers only, so what a buffer holds after a run is the payload of the last store into it, and a
load of a buffer after a store into it in the same run reads that store's payload. Each run is stated over any whole
staging memrefs and any contents of the literal vector types; the two conditionals are decided by the case's hypotheses. -/

/-- The zero offsets of a store or load of a whole buffer, in each rank. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Reading a buffer back after a list of stores whose last covers the whole buffer gives that store's payload. -/
theorem read_last_whole {S : Shape} {e : EltTy} (v : View sig .tc .vmem S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz inb w L]

set_option maxHeartbeats 1000000 in
/-- At a first key tile (the first conditional taken, the second not): the scratch, found at anything, is set to the zero
    block and then this tile's weighted values are added to it; every window's buffer is handed back as found. -/
theorem run1_A (c : Dev nD) (E : Set ℕ) (i : grid1.Coords) (a3 : Memref sig .tc .vmem S1x512x128 .bf16) (h3 : a3.IsWhole) (a4 : Memref sig .tc .vmem S1x512x128 .bf16) (h4 : a4.IsWhole) (a5 : Memref sig .tc .vmem S1x512x2048 .bf16) (h5 : a5.IsWhole) (a6 : Memref sig .tc .vmem S1x512x2048 .bf16) (h6 : a6.IsWhole) (a7 : Memref sig .tc .vmem S1x512x1024 .f32) (h7 : a7.IsWhole) (a8 : Memref sig .tc .vmem S2048x1024 .bf16) (h8 : a8.IsWhole) (a9 : Memref sig .tc .vmem S1024 .f32) (h9 : a9.IsWhole) (a10 : Memref sig .tc .vmem S1x512x1024 .f32) (h10 : a10.IsWhole) (a11 : Memref sig .tc .vmem S512x2048 .f32) (h11 : a11.IsWhole)
    (hc0 : cond1_0 i) (hc1 : ¬cond1_1 i)
    (x0 : Vec F S1x512x128 .bf16) (x1 : Vec F S1x512x128 .bf16) (x2 : Vec F S1x512x2048 .bf16) (x3 : Vec F S1x512x2048 .bf16) (x4 : Vec F S1x512x1024 .f32) (x5 : Vec F S2048x1024 .bf16) (x6 : Vec F S1024 .f32) (x7 : Vec F S1x512x1024 .f32) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare x6 ∗ owns (c : Thread nD τ) a10 fullShare x7 ∗ (∃ d, owns (c : Thread nD τ) a11 fullShare d)
        ∗ (iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare x6 ∗ owns (c : Thread nD τ) a10 fullShare x7
            ∗ owns (c : Thread nD τ) a11 fullShare (k1_pay2 x0 x1 x2 (k1_pay1 (F := F)))) -∗ K ⟨⟩))
      ⊢ wp frame (wpE (defs₀ (F := F)) Variants.none c none) E (cc1__attn_kernel i a3 h3 a4 h4 a5 h5 a6 h6 a7 h7 a8 h8 a9 h9 a10 h10 a11 h11) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  subst hf0; subst hf1; subst hf2; subst hf3; subst hf4; subst hf5; subst hf6; subst hf7
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact HS
  ipureintro
  rw [read_last_whole a11.view fs hz2]
  sl_unfold_words
  simp only [View.readAt_eq_ld, View.ld_unit_zero (S := S1x512x128) hz3, View.ld_unit_zero (S := S1x512x2048) hz3, View.readCov_unit_zero (S := S512x2048) _ hz2]

set_option maxHeartbeats 1000000 in
/-- At a middle key tile (neither conditional taken): this tile's weighted values are added to what the scratch held;
    every window's buffer is handed back as found. -/
theorem run1_B (c : Dev nD) (E : Set ℕ) (i : grid1.Coords) (a3 : Memref sig .tc .vmem S1x512x128 .bf16) (h3 : a3.IsWhole) (a4 : Memref sig .tc .vmem S1x512x128 .bf16) (h4 : a4.IsWhole) (a5 : Memref sig .tc .vmem S1x512x2048 .bf16) (h5 : a5.IsWhole) (a6 : Memref sig .tc .vmem S1x512x2048 .bf16) (h6 : a6.IsWhole) (a7 : Memref sig .tc .vmem S1x512x1024 .f32) (h7 : a7.IsWhole) (a8 : Memref sig .tc .vmem S2048x1024 .bf16) (h8 : a8.IsWhole) (a9 : Memref sig .tc .vmem S1024 .f32) (h9 : a9.IsWhole) (a10 : Memref sig .tc .vmem S1x512x1024 .f32) (h10 : a10.IsWhole) (a11 : Memref sig .tc .vmem S512x2048 .f32) (h11 : a11.IsWhole)
    (hc0 : ¬cond1_0 i) (hc1 : ¬cond1_1 i)
    (x0 : Vec F S1x512x128 .bf16) (x1 : Vec F S1x512x128 .bf16) (x2 : Vec F S1x512x2048 .bf16) (x3 : Vec F S1x512x2048 .bf16) (x4 : Vec F S1x512x1024 .f32) (x5 : Vec F S2048x1024 .bf16) (x6 : Vec F S1024 .f32) (x7 : Vec F S1x512x1024 .f32) (xs : Vec F S512x2048 .f32) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare x6 ∗ owns (c : Thread nD τ) a10 fullShare x7 ∗ owns (c : Thread nD τ) a11 fullShare xs
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ owns (c : Thread nD τ) a8 fullShare x5
            ∗ owns (c : Thread nD τ) a9 fullShare x6 ∗ owns (c : Thread nD τ) a10 fullShare x7
            ∗ owns (c : Thread nD τ) a11 fullShare (k1_pay2 x0 x1 x2 xs)) -∗ K ⟨⟩))
      ⊢ wp frame (wpE (defs₀ (F := F)) Variants.none c none) E (cc1__attn_kernel i a3 h3 a4 h4 a5 h5 a6 h6 a7 h7 a8 h8 a9 h9 a10 h10 a11 h11) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact HS
  ipureintro
  rw [read_last_whole a11.view fs hz2]
  simp only [View.readAt_eq_ld, View.ld_unit_zero (S := S1x512x128) hz3, View.ld_unit_zero (S := S1x512x2048) hz3, View.ld_unit_zero (S := S512x2048) hz2]

set_option maxHeartbeats 1000000 in
/-- At a last key tile (the second conditional taken, the first not): this tile's weighted values are added to what the
    scratch held, and the output buffer, found at anything, is left at x plus the gated scratch projected back plus the
    bias; the input buffers are handed back as found. -/
theorem run1_C (c : Dev nD) (E : Set ℕ) (i : grid1.Coords) (a3 : Memref sig .tc .vmem S1x512x128 .bf16) (h3 : a3.IsWhole) (a4 : Memref sig .tc .vmem S1x512x128 .bf16) (h4 : a4.IsWhole) (a5 : Memref sig .tc .vmem S1x512x2048 .bf16) (h5 : a5.IsWhole) (a6 : Memref sig .tc .vmem S1x512x2048 .bf16) (h6 : a6.IsWhole) (a7 : Memref sig .tc .vmem S1x512x1024 .f32) (h7 : a7.IsWhole) (a8 : Memref sig .tc .vmem S2048x1024 .bf16) (h8 : a8.IsWhole) (a9 : Memref sig .tc .vmem S1024 .f32) (h9 : a9.IsWhole) (a10 : Memref sig .tc .vmem S1x512x1024 .f32) (h10 : a10.IsWhole) (a11 : Memref sig .tc .vmem S512x2048 .f32) (h11 : a11.IsWhole)
    (hc0 : ¬cond1_0 i) (hc1 : cond1_1 i)
    (x0 : Vec F S1x512x128 .bf16) (x1 : Vec F S1x512x128 .bf16) (x2 : Vec F S1x512x2048 .bf16) (x3 : Vec F S1x512x2048 .bf16) (x4 : Vec F S1x512x1024 .f32) (x5 : Vec F S2048x1024 .bf16) (x6 : Vec F S1024 .f32) (xs : Vec F S512x2048 .f32) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare x6 ∗ (∃ d, owns (c : Thread nD τ) a10 fullShare d) ∗ owns (c : Thread nD τ) a11 fullShare xs
        ∗ (iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ owns (c : Thread nD τ) a8 fullShare x5
        ∗ owns (c : Thread nD τ) a9 fullShare x6 ∗ owns (c : Thread nD τ) a10 fullShare (k1_pay3 x3 (k1_pay2 x0 x1 x2 xs) x5 x4 x6)
            ∗ owns (c : Thread nD τ) a11 fullShare (k1_pay2 x0 x1 x2 xs)) -∗ K ⟨⟩))
      ⊢ wp frame (wpE (defs₀ (F := F)) Variants.none c none) E (cc1__attn_kernel i a3 h3 a4 h4 a5 h5 a6 h6 a7 h7 a8 h8 a9 h9 a10 h10 a11 h11) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst hf0; subst hf1; subst hf2; subst hf3; subst hf4; subst hf5; subst hf6; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    rw [read_last_whole a10.view f7 hz3]
    sl_unfold_words
    simp only [View.readAt_eq_ld, View.ld_unit_zero (S := S1x512x128) hz3, View.ld_unit_zero (S := S1x512x2048) hz3, View.ld_unit_zero (S := S1x512x1024) hz3, View.ld_unit_zero (S := S2048x1024) hz2, View.ld_unit_zero (S := S1024) hz1, View.ld_unit_zero (S := S512x2048) hz2, View.readCov_unit_zero (S := S512x2048) _ hz2]
  iexists _; isplitr
  swap; · iexact HS
  ipureintro
  sl_unfold_words
  rw [read_last_whole a11.view fs hz2]
  simp only [View.readAt_eq_ld, View.ld_unit_zero (S := S1x512x128) hz3, View.ld_unit_zero (S := S1x512x2048) hz3, View.ld_unit_zero (S := S1x512x1024) hz3, View.ld_unit_zero (S := S2048x1024) hz2, View.ld_unit_zero (S := S1024) hz1, View.ld_unit_zero (S := S512x2048) hz2, View.readCov_unit_zero (S := S512x2048) _ hz2]

/-! ## What the windows' buffers hold when the body is called -/

/-- Input window 0's current buffer holds its block at every point, fetched there or not: where it is not fetched the
    block index has not moved since the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- Input window 1's current buffer holds its block at every point, fetched there or not: where it is not fetched the
    block index has not moved since the point before. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- Input window 2's current buffer holds its block at every point, fetched there or not: where it is not fetched the
    block index has not moved since the point before. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
/-- Input window 3's current buffer holds its block at every point, fetched there or not: where it is not fetched the
    block index has not moved since the point before. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
/-- Input window 4's current buffer holds its block at every point, fetched there or not: where it is not fetched the
    block index has not moved since the point before. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
/-- Input window 5's current buffer holds its block at every point, fetched there or not: where it is not fetched the
    block index has not moved since the point before. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
/-- Input window 6's current buffer holds its block at every point, fetched there or not: where it is not fetched the
    block index has not moved since the point before. -/
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## What the body hands back, window by window -/

/-- Input window 0 is live everywhere: its buffer is handed back at its block. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
/-- Input window 1 is live everywhere: its buffer is handed back at its block. -/
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
/-- Input window 2 is live everywhere: its buffer is handed back at its block. -/
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
/-- Input window 3 is live everywhere: its buffer is handed back at its block. -/
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
/-- Input window 4 is live everywhere: its buffer is handed back at its block. -/
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]
/-- Input window 5 is live everywhere: its buffer is handed back at its block. -/
theorem leaves1_5 (c : Dev nD) (t : Fin cfg1.N) :
    (dat1 V c).leavesExact 5 t = owns (c : Thread nD τ) (st1_5 t) fullShare (iblk1 V c 5 t) := by
  unfold Dat.leavesExact; rw [liveAt1_5 t, after1_5]
/-- Input window 6 is live everywhere: its buffer is handed back at its block. -/
theorem leaves1_6 (c : Dev nD) (t : Fin cfg1.N) :
    (dat1 V c).leavesExact 6 t = owns (c : Thread nD τ) (st1_6 t) fullShare (iblk1 V c 6 t) := by
  unfold Dat.leavesExact; rw [liveAt1_6 t, after1_6]
/-- At a last key tile the output window is live: its buffer is handed back at the stored block. -/
theorem leaves1_7_live (c : Dev nD) (t : Fin cfg1.N) (h1 : t.val % 4 = 3) :
    (dat1 V c).leavesExact 7 t = owns (c : Thread nD τ) (st1_7 t) fullShare (out1_7 V c t) := by
  unfold Dat.leavesExact; rw [liveAt1_7 t h1, after1_7]

/-! ## The body at a point -/

/-- At any position the invariant gives the class's, spelt out: the scratch's named contents are forgotten. -/
theorem PhiS1_forget (c : Dev nD) (n : ℕ) (h : n ≤ cfg1.N) :
    PhiS1 V c n h ⊢ iprop((anyBuf (F := F) c cc0_stg0_0 ∗ anyBuf (F := F) c cc0_stg0_1 ∗ anyBuf (F := F) c cc0_stg1_0 ∗ anyBuf (F := F) c cc0_stg2_0 ∗ anyBuf (F := F) c cc0_stg3_0 ∗ anyBuf (F := F) c cc0_stg4_0 ∗ anyBuf (F := F) c cc0_stg5_0 ∗ anyBuf (F := F) c cc0_stg6_0 ∗ anyBuf (F := F) c cc0_stg7_0 ∗ anyBuf (F := F) c cc0_stg8_0 ∗ anyBuf (F := F) c cc0_stg9_0 ∗ anyBuf (F := F) c cc0_stg9_1 ∗ anyBuf (F := F) c cc0_stg10_0 ∗ anyBuf (F := F) c cc0_stg10_1 ∗ anyBuf (F := F) c cc0_stg11_0 ∗ anyBuf (F := F) c cc0_stg11_1 ∗ anyBuf (F := F) c cc0_stg12_0 ∗ anyBuf (F := F) c cc0_stg12_1 ∗ (∃ d, owns (c : Thread nD τ) scM1 fullShare d)) ∗ (∃ r, prngReg c r)) := by
  cases n with
  | zero => rw [PhiS1_zero V c 0 h rfl, PhiA1_eq]
  | succ n =>
    rw [PhiS1_succ]
    iintro ⟨⟨H0, H1, H2, H3, H4, H5, H6, H7, H8, H9, H10, H11, H12, H13, H14, H15, H16, H17, HS⟩, Hg⟩
    isplitr [Hg]
    ·
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact HS
    iexact Hg

/-- What the body is called with at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 1000000 in
/-- The body at any point. The input buffers hold their blocks; the position's residue mod 4 says which of the two
    conditionals are taken; in each of the three cases the body's run applies: the invariant lends it the scratch (at
    anything where it is about to be reset, else at what the point before left) and takes it back at this point's
    contents, the first region's buffers and the generator register pass through untouched, and the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6, PhiS1_castSucc V c t]
  have hN : t.val < 64 := lt_of_lt_of_eq t.isLt (show cfg1.N = 64 from N_1)
  by_cases h0 : t.val % 4 = 0
  · -- a first key tile: the scratch is reset, then this tile's weighted values are added; nothing is stored out
    have h1 : ¬t.val % 4 = 3 := by omega
    rw [Dat.leavesExact_idle (dat1 V c) 7 t (idleAt1_7 t h1) (noFlush1_7 t h1), scr1_reset V c t h0]
    iintro ⟨HP, Ho, ⟨%d0, B0⟩, ⟨%d1, B1⟩, ⟨%d2, B2⟩, ⟨%d3, B3⟩, ⟨%d4, B4⟩, ⟨%d5, B5⟩, ⟨%d6, B6⟩, ⟨%d7, B7⟩⟩
    ihave ⟨⟨H0, H1, H2, H3, H4, H5, H6, H7, H8, H9, H10, H11, H12, H13, H14, H15, H16, H17, ⟨%ds, HS⟩⟩, Hg⟩ := (PhiS1_forget V c t.val (Nat.le_of_lt t.isLt)) $$ HP
    iapply (run1_A c Set.univ (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) _ _)
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [HS]; · iexists _; iexact HS
    iintro ⟨B0, B1, B2, B3, B4, B5, B6, B7, HS⟩
    isplitl [H0 H1 H2 H3 H4 H5 H6 H7 H8 H9 H10 H11 H12 H13 H14 H15 H16 H17 HS Hg]
    · isplitr [Hg]
      ·
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        iexact HS
      iexact Hg
    isplitl [Ho]; · iexact Ho
    isplitl [B0]; · iexact B0
    isplitl [B1]; · iexact B1
    isplitl [B2]; · iexact B2
    isplitl [B3]; · iexact B3
    isplitl [B4]; · iexact B4
    isplitl [B5]; · iexact B5
    isplitl [B6]; · iexact B6
    iexists _; iexact B7
  · have hz : t.val ≠ 0 := fun e => h0 (by rw [e])
    rw [PhiS1_pos V c _ _ hz, scr1_acc V c t h0]
    by_cases h1 : t.val % 4 = 3
    · -- a last key tile: this tile's weighted values are added to what the point before left, and the output block is stored
      rw [leaves1_7_live V c t h1]
      unfold out1_7
      rw [scr1_acc V c t h0]
      iintro ⟨⟨⟨H0, H1, H2, H3, H4, H5, H6, H7, H8, H9, H10, H11, H12, H13, H14, H15, H16, H17, HS⟩, Hg⟩, Ho, ⟨%d0, B0⟩, ⟨%d1, B1⟩, ⟨%d2, B2⟩, ⟨%d3, B3⟩, ⟨%d4, B4⟩, ⟨%d5, B5⟩, ⟨%d6, B6⟩, ⟨%d7, B7⟩⟩
      iapply (run1_C c Set.univ (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _)
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexists _; iexact B7
      isplitl [HS]; · iexact HS
      iintro ⟨B0, B1, B2, B3, B4, B5, B6, B7, HS⟩
      isplitl [H0 H1 H2 H3 H4 H5 H6 H7 H8 H9 H10 H11 H12 H13 H14 H15 H16 H17 HS Hg]
      · isplitr [Hg]
        ·
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          iexact HS
        iexact Hg
      isplitl [Ho]; · iexact Ho
      isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    · -- a middle key tile: this tile's weighted values are added to what the point before left; nothing is stored out
      rw [Dat.leavesExact_idle (dat1 V c) 7 t (idleAt1_7 t h1) (noFlush1_7 t h1)]
      iintro ⟨⟨⟨H0, H1, H2, H3, H4, H5, H6, H7, H8, H9, H10, H11, H12, H13, H14, H15, H16, H17, HS⟩, Hg⟩, Ho, ⟨%d0, B0⟩, ⟨%d1, B1⟩, ⟨%d2, B2⟩, ⟨%d3, B3⟩, ⟨%d4, B4⟩, ⟨%d5, B5⟩, ⟨%d6, B6⟩, ⟨%d7, B7⟩⟩
      iapply (run1_B c Set.univ (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _ _)
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [HS]; · iexact HS
      iintro ⟨B0, B1, B2, B3, B4, B5, B6, B7, HS⟩
      isplitl [H0 H1 H2 H3 H4 H5 H6 H7 H8 H9 H10 H11 H12 H13 H14 H15 H16 H17 HS Hg]
      · isplitr [Hg]
        ·
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          iexact HS
        iexact Hg
      isplitl [Ho]; · iexact Ho
      isplitl [B0]; · iexact B0
      isplitl [B1]; · iexact B1
      isplitl [B2]; · iexact B2
      isplitl [B3]; · iexact B3
      isplitl [B4]; · iexact B4
      isplitl [B5]; · iexact B5
      isplitl [B6]; · iexact B6
      iexists _; iexact B7

/-! ## The body obligation, and the invariant's two ends -/

/-- The body at every point of the grid, against the proof data. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  have hN : cfg1.N = 64 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨H0, H1, H2, H3, H4, H5, H6, H7, H8, H9, H10, H11, H12, H13, H14, H15, H16, H17, HS⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexists _; iexact HS
  iexact Hg

end Cert.KernelIdeal.Hand

end
-- ==== Proof.Run.lean ====
/-
  The run of the whole program: a stretch of two host casts, the first kernel region, the second kernel region.

  Between two of these items a core holds every unscoped buffer at a known valuation: the launch memory (`W0`), then
  the two casts applied (`W1`), then the first region's arrays at what its write-backs leave and every other buffer
  as it was (`W2`), then the same for the second region (`W3`). Beside the buffers ride the generator register at
  some state and the fact that the core owes nothing. Each region splits its arrays out of the unscoped buffers on
  entry and puts them back on exit; the second region's invariant starts and ends at the class's (the carried
  scratch's contents are named only between its points). The launch composes the three items; the last valuation,
  read against the final memory, gives every unscoped buffer's final contents, from which both the frame (each
  argument walks back through the valuations to the launch memory) and the result array are read.
-/
import proofs.«124477_j41326175322889_1_alg».proof.Proof.Gen.KernelIdeal.Launch
import proofs.«124477_j41326175322889_1_alg».proof.Proof.Gen.KernelIdeal.Skeleton
import proofs.«124477_j41326175322889_1_alg».proof.Proof.Gen.KernelIdeal.Points
import proofs.«124477_j41326175322889_1_alg».proof.Proof.Gen.KernelIdeal.Regions
import proofs.«124477_j41326175322889_1_alg».proof.Proof.R0
import proofs.«124477_j41326175322889_1_alg».proof.Proof.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c => Gen.V0 m c
/-- After the two host casts (the first region's entry). -/
abbrev W1 : Dev nD → Valuation τ sig (Elt F) := fun c => Gen.V1 m c
/-- The same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the second region's entry). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched, and the result array

No host cast and no region writes an argument: the casts write only their own results, a region reads an argument
through an input window (whose array it leaves as entered) or not at all. So the last valuation at an argument walks
back to the launch memory. -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 4).trans (((dat1 (V2 m) c).arrAt_in 4 rfl _).trans (A_eq1 (V2 m) c 4))
    _ = W1 m c (Proc.devRef .tc main_arg0) := (W2_arr m c 0).trans (((dat0 (V1 m) c).arrAt_in 0 rfl _).trans (A_eq0 (V1 m) c 0))
    _ = W0 m c (Proc.devRef .tc main_arg0) := Gen.V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := Gen.V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = W0 m c (Proc.devRef .tc main_arg2) := Gen.V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := Gen.V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 4).trans (((dat0 (V1 m) c).arrAt_in 4 rfl _).trans (A_eq0 (V1 m) c 4))
    _ = W0 m c (Proc.devRef .tc main_arg4) := Gen.V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := Gen.V1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := (W3_arr m c 6).trans (((dat1 (V2 m) c).arrAt_in 6 rfl _).trans (A_eq1 (V2 m) c 6))
    _ = W1 m c (Proc.devRef .tc main_arg6) := W2_of_ne m c main_arg6 (by decide)
    _ = W0 m c (Proc.devRef .tc main_arg6) := Gen.V1_of m c main_arg6 (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := (W2_arr m c 5).trans (((dat0 (V1 m) c).arrAt_in 5 rfl _).trans (A_eq0 (V1 m) c 5))
    _ = W0 m c (Proc.devRef .tc main_arg7) := Gen.V1_of m c main_arg7 (by decide)
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := (W2_arr m c 6).trans (((dat0 (V1 m) c).arrAt_in 6 rfl _).trans (A_eq0 (V1 m) c 6))
    _ = W0 m c (Proc.devRef .tc main_arg8) := Gen.V1_of m c main_arg8 (by decide)
    _ = m ((c : Thread nD τ).loc main_arg8) := rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := (W2_arr m c 7).trans (((dat0 (V1 m) c).arrAt_in 7 rfl _).trans (A_eq0 (V1 m) c 7))
    _ = W0 m c (Proc.devRef .tc main_arg9) := Gen.V1_of m c main_arg9 (by decide)
    _ = m ((c : Thread nD τ).loc main_arg9) := rfl
theorem W3_main_arg10 (c : Dev nD) : W3 m c (Proc.devRef .tc main_arg10) = m ((c : Thread nD τ).loc main_arg10) :=
  calc W3 m c (Proc.devRef .tc main_arg10)
    _ = W2 m c (Proc.devRef .tc main_arg10) := W3_of_ne m c main_arg10 (by decide)
    _ = W1 m c (Proc.devRef .tc main_arg10) := (W2_arr m c 8).trans (((dat0 (V1 m) c).arrAt_in 8 rfl _).trans (A_eq0 (V1 m) c 8))
    _ = W0 m c (Proc.devRef .tc main_arg10) := Gen.V1_of m c main_arg10 (by decide)
    _ = m ((c : Thread nD τ).loc main_arg10) := rfl

/-- The result array at the end is what the second region's write-backs leave. -/
theorem W3_main_v3 (c : Dev nD) : W3 m c (Proc.devRef .tc main_v3) = (dat1 (V2 m) c).arrAt 7 cfg1.N :=
  W3_arr m c 7

/-- What the second region is entered with: the first region's four output arrays at what its write-backs leave, -/
theorem V2_main_v2_0 (c : Dev nD) : V2 m c main_v2_0 = (dat0 (V1 m) c).arrAt 9 cfg0.N := W2_arr m c 9
theorem V2_main_v2_1 (c : Dev nD) : V2 m c main_v2_1 = (dat0 (V1 m) c).arrAt 10 cfg0.N := W2_arr m c 10
theorem V2_main_v2_2 (c : Dev nD) : V2 m c main_v2_2 = (dat0 (V1 m) c).arrAt 11 cfg0.N := W2_arr m c 11
theorem V2_main_v2_3 (c : Dev nD) : V2 m c main_v2_3 = (dat0 (V1 m) c).arrAt 12 cfg0.N := W2_arr m c 12
/-- and the buffers the first region does not stage or only reads, as the host casts left them. -/
theorem V2_main_arg0 (c : Dev nD) : V2 m c main_arg0 = V1 m c main_arg0 :=
  (W2_arr m c 0).trans (((dat0 (V1 m) c).arrAt_in 0 rfl _).trans (A_eq0 (V1 m) c 0))
theorem V2_main_v1 (c : Dev nD) : V2 m c main_v1 = V1 m c main_v1 := W2_of_ne m c main_v1 (by decide)
theorem V2_main_arg6 (c : Dev nD) : V2 m c main_arg6 = V1 m c main_arg6 := W2_of_ne m c main_arg6 (by decide)

/-! ## The proof data family and what rides beside the buffers -/

/-- The prefetched tables' admissible contents: no pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)
/-- The host casts as an item over the unscoped buffers. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) R
/-- The last thread state without the owing part: every unscoped buffer at the last valuation, the generator register. -/
abbrev Tₙ (c : Dev nD) : sProp 𝕄 := iprop(StableHlo.held (c : Thread nD τ) (Pipeline.ucRefs τ sig) (W3 m c) ∗ ∃ r, prngReg c r)

/-! ## The regions as items -/

-- a library lemma stated over `pin pcs a p` unifies with the pinned configuration only when unification may unfold plain
-- definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The whole program as three items, and the launch -/

/-- @main's items in order. -/
abbrev segs : List (Pipeline.Seg (pcfgs (F := F)) adm (pdats m) () defs₀ 𝒱₀ L lv) :=
  [ .host (hseg0 m), .region (reg0 m), .region (reg1 m) ]
/-- @main IS the run of the items. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

-- the launch theorem's implicit arguments are found by unifying its conclusion with this one, which takes unfolding plain
-- definitions in a metavariable's type
set_option backward.isDefEq.respectTransparency.types false in
/-- From any memory with zero counters every weakly fair execution of @main terminates, nothing faulting, and in the
    final memory every unscoped buffer of every core holds what the last valuation says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c),
     (h c _ (mem_uc main_arg9 (by decide))).trans (W3_main_arg9 m c),
     (h c _ (mem_uc main_arg10 (by decide))).trans (W3_main_arg10 m c)⟩) (run_all m ρ)

/-- The result array beside the frame: the result ends at what the second region's write-backs leave. -/
theorem run_value : θ_run defs (onTc (τ := τ) (main (F := F))) ⟨m, fun _ => 0, ρ⟩ (fun r => ∀ c : Dev nD,
      r.2.mem ((c.tc : Thread nD τ).loc main_v3) = (dat1 (V2 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v3 (by decide))).trans (W3_main_v3 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c),
     (h c _ (mem_uc main_arg9 (by decide))).trans (W3_main_arg9 m c),
     (h c _ (mem_uc main_arg10 (by decide))).trans (W3_main_arg10 m c)⟩) (run_all m ρ)

end Cert.KernelIdeal.Hand

end
-- ==== Proof.Spec.lean ====
/-
  The function both programs compute, over the extended reals, index by index.

  A gated attention unit on x : [4, 2048, 1024]. Per row (b, l): the row is centred and scaled by the
  reciprocal square root of its variance plus a small constant, then by a gain and a shift (`xn`); a
  projection to 4224 features with a bias, each passed through x ↦ x · logistic x (`act`); the features
  split into a gate u (2048), values v (2048) and a shared 128-wide z from which queries and keys are an
  affine map each (`qq`, `kk`). The attention weight of row i on row j of one batch is the square of the
  positive part of ⟨q_i, k_j⟩ · 2⁻¹¹ (`att`), no normalisation; the weighted sum of values over ALL 2048
  rows j (`acc`) is gated by u, projected back to 1024 features, and added to x with a bias (`out`).

  Every sum is a finite sum in the commutative monoid of extended reals, so its grouping and order are
  immaterial; nothing here needs an entry to be finite.
-/
import Idealize.ShloMosaic.PureOps.Ideal

noncomputable section

namespace Cert.Spec

open Idealize.ShloMosaic
open scoped BigOperators

/-- The row length 1024, as the float both programs divide by. -/
def c1024 : EReal := Ideal.ofBits .f32 0x44800000#32
/-- The variance's additive constant (the float nearest 1e-5; the same word in both programs). -/
def eps : EReal := Ideal.ofBits .f32 0x3727C5AC#32
/-- 2⁻¹¹ as a float: the kernel multiplies the scores by it. -/
def cInv2048 : EReal := Ideal.ofBits .f32 0x3A000000#32
/-- 2048 as a float: the reference divides the scores by it. -/
def c2048 : EReal := Ideal.ofBits .f32 0x45000000#32

variable (x : Fin 4 → Fin 2048 → Fin 1024 → EReal) (lng lnb : Fin 1024 → EReal)
  (Win : Fin 1024 → Fin 4224 → EReal) (bin : Fin 4224 → EReal)
  (Wout : Fin 2048 → Fin 1024 → EReal) (bout : Fin 1024 → EReal)
  (gq bq gk bk : Fin 128 → EReal)

/-- The mean of row (b, l). -/
def mean (b : Fin 4) (l : Fin 2048) : EReal := Ideal.div (∑ d : Fin 1024, x b l d) c1024
/-- The row, centred. -/
def cen (b : Fin 4) (l : Fin 2048) (d : Fin 1024) : EReal := x b l d - mean x b l
/-- The mean of the centred row's squares. -/
def var (b : Fin 4) (l : Fin 2048) : EReal := Ideal.div (∑ d : Fin 1024, cen x b l d * cen x b l d) c1024
/-- The normalised row, with gain and shift. -/
def xn (b : Fin 4) (l : Fin 2048) (d : Fin 1024) : EReal :=
  cen x b l d * Ideal.rsqrt (var x b l + eps) * lng d + lnb d
/-- The projection to 4224 features, with its bias. -/
def pre (b : Fin 4) (l : Fin 2048) (f : Fin 4224) : EReal :=
  (∑ d : Fin 1024, xn x lng lnb b l d * Win d f) + bin f
/-- Each feature through x ↦ x · logistic x. -/
def act (b : Fin 4) (l : Fin 2048) (f : Fin 4224) : EReal :=
  pre x lng lnb Win bin b l f * Ideal.logistic (pre x lng lnb Win bin b l f)
/-- Features 0 … 2047: the gate. -/
def uu (b : Fin 4) (l : Fin 2048) (e : Fin 2048) : EReal :=
  act x lng lnb Win bin b l ⟨e.val, by have := e.isLt; omega⟩
/-- Features 2048 … 4095: the values. -/
def vv (b : Fin 4) (l : Fin 2048) (e : Fin 2048) : EReal :=
  act x lng lnb Win bin b l ⟨2048 + e.val, by have := e.isLt; omega⟩
/-- Features 4096 … 4223: what queries and keys are made from. -/
def zz (b : Fin 4) (l : Fin 2048) (s : Fin 128) : EReal :=
  act x lng lnb Win bin b l ⟨4096 + s.val, by have := s.isLt; omega⟩
/-- The queries. -/
def qq (b : Fin 4) (l : Fin 2048) (s : Fin 128) : EReal := zz x lng lnb Win bin b l s * gq s + bq s
/-- The keys. -/
def kk (b : Fin 4) (l : Fin 2048) (s : Fin 128) : EReal := zz x lng lnb Win bin b l s * gk s + bk s
/-- The scaled score of row i on row j. -/
def score (b : Fin 4) (i j : Fin 2048) : EReal :=
  (∑ s : Fin 128, qq x lng lnb Win bin gq bq b i s * kk x lng lnb Win bin gk bk b j s) * cInv2048
/-- The attention weight: the square of the score's positive part. -/
def att (b : Fin 4) (i j : Fin 2048) : EReal :=
  max (score x lng lnb Win bin gq bq gk bk b i j) 0 * max (score x lng lnb Win bin gq bq gk bk b i j) 0
/-- The weighted sum of the values over all 2048 rows of the batch. -/
def acc (b : Fin 4) (i : Fin 2048) (e : Fin 2048) : EReal :=
  ∑ j : Fin 2048, att x lng lnb Win bin gq bq gk bk b i j * vv x lng lnb Win bin b j e
/-- The result: x plus the gated sum projected back, plus a bias. -/
def out (b : Fin 4) (l : Fin 2048) (d : Fin 1024) : EReal :=
  x b l d + (∑ e : Fin 2048, (uu x lng lnb Win bin b l e * acc x lng lnb Win bin gq bq gk bk b l e) * Wout e d) + bout d

end Cert.Spec

end
-- ==== Proof.SpecArr.lean ====
/-
  Arrays read at coordinates, and the whole result as ONE function of the eleven argument arrays.

  An array of literal shape [n0, …] is a function of its index; `cur1` … `cur3` read it at explicit
  coordinates, so that the specification's curried functions can be fed the programs' arrays. `G` is the
  specification's `out` at the index's three coordinates: the term both runs' results are stated as.
-/
import Idealize.ShloMosaic.Lib.ValueIdx
import proofs.«124477_j41326175322889_1_alg».proof.Proof.Spec

noncomputable section

namespace Cert.Spec

open Idealize.ShloMosaic Idealize.ShloMosaic.ValueIdx

/-- A rank-1 array at its coordinate. -/
def cur1 {n : Nat} (a : (⟨1, ![n]⟩ : Shape).Idx → EReal) : Fin n → EReal := fun i => a (ix1 i)
/-- A rank-2 array at its coordinates. -/
def cur2 {n0 n1 : Nat} (a : (⟨2, ![n0, n1]⟩ : Shape).Idx → EReal) : Fin n0 → Fin n1 → EReal := fun i j => a (ix2 i j)
/-- A rank-3 array at its coordinates. -/
def cur3 {n0 n1 n2 : Nat} (a : (⟨3, ![n0, n1, n2]⟩ : Shape).Idx → EReal) : Fin n0 → Fin n1 → Fin n2 → EReal :=
  fun i j k => a (ix3 i j k)

theorem cur1_apply {n : Nat} (a : (⟨1, ![n]⟩ : Shape).Idx → EReal) (i : Fin n) : cur1 a i = a (ix1 i) := rfl
theorem cur2_apply {n0 n1 : Nat} (a : (⟨2, ![n0, n1]⟩ : Shape).Idx → EReal) (i : Fin n0) (j : Fin n1) : cur2 a i j = a (ix2 i j) := rfl
theorem cur3_apply {n0 n1 n2 : Nat} (a : (⟨3, ![n0, n1, n2]⟩ : Shape).Idx → EReal) (i : Fin n0) (j : Fin n1) (k : Fin n2) :
    cur3 a i j k = a (ix3 i j k) := rfl

/-- The gate u as an array [4, 2048, 2048] of the region's input arrays. -/
def Uarr (x : (⟨3, ![4, 2048, 1024]⟩ : Shape).Idx → EReal) (lng lnb : (⟨1, ![1024]⟩ : Shape).Idx → EReal)
    (Win : (⟨2, ![1024, 4224]⟩ : Shape).Idx → EReal) (bin : (⟨1, ![4224]⟩ : Shape).Idx → EReal) :
    (⟨3, ![4, 2048, 2048]⟩ : Shape).Idx → EReal :=
  fun i => uu (cur3 x) (cur1 lng) (cur1 lnb) (cur2 Win) (cur1 bin) (i 0) (i 1) (i 2)
/-- The values v as an array [4, 2048, 2048]. -/
def Varr (x : (⟨3, ![4, 2048, 1024]⟩ : Shape).Idx → EReal) (lng lnb : (⟨1, ![1024]⟩ : Shape).Idx → EReal)
    (Win : (⟨2, ![1024, 4224]⟩ : Shape).Idx → EReal) (bin : (⟨1, ![4224]⟩ : Shape).Idx → EReal) :
    (⟨3, ![4, 2048, 2048]⟩ : Shape).Idx → EReal :=
  fun i => vv (cur3 x) (cur1 lng) (cur1 lnb) (cur2 Win) (cur1 bin) (i 0) (i 1) (i 2)
/-- The queries as an array [4, 2048, 128]. -/
def Qarr (x : (⟨3, ![4, 2048, 1024]⟩ : Shape).Idx → EReal) (lng lnb : (⟨1, ![1024]⟩ : Shape).Idx → EReal)
    (Win : (⟨2, ![1024, 4224]⟩ : Shape).Idx → EReal) (bin : (⟨1, ![4224]⟩ : Shape).Idx → EReal)
    (gq bq : (⟨1, ![128]⟩ : Shape).Idx → EReal) : (⟨3, ![4, 2048, 128]⟩ : Shape).Idx → EReal :=
  fun i => qq (cur3 x) (cur1 lng) (cur1 lnb) (cur2 Win) (cur1 bin) (cur1 gq) (cur1 bq) (i 0) (i 1) (i 2)
/-- The keys as an array [4, 2048, 128]. -/
def Karr (x : (⟨3, ![4, 2048, 1024]⟩ : Shape).Idx → EReal) (lng lnb : (⟨1, ![1024]⟩ : Shape).Idx → EReal)
    (Win : (⟨2, ![1024, 4224]⟩ : Shape).Idx → EReal) (bin : (⟨1, ![4224]⟩ : Shape).Idx → EReal)
    (gk bk : (⟨1, ![128]⟩ : Shape).Idx → EReal) : (⟨3, ![4, 2048, 128]⟩ : Shape).Idx → EReal :=
  fun i => kk (cur3 x) (cur1 lng) (cur1 lnb) (cur2 Win) (cur1 bin) (cur1 gk) (cur1 bk) (i 0) (i 1) (i 2)

/-- The attention half on ARRAYS q, k, v, u (whatever produced them): the result array [4, 2048, 1024]. This is
    what the second kernel region computes of its five input arrays, the projection and the bias. -/
def attnOut (q k : (⟨3, ![4, 2048, 128]⟩ : Shape).Idx → EReal) (v u : (⟨3, ![4, 2048, 2048]⟩ : Shape).Idx → EReal)
    (x : (⟨3, ![4, 2048, 1024]⟩ : Shape).Idx → EReal) (Wout : (⟨2, ![2048, 1024]⟩ : Shape).Idx → EReal)
    (bout : (⟨1, ![1024]⟩ : Shape).Idx → EReal) : (⟨3, ![4, 2048, 1024]⟩ : Shape).Idx → EReal :=
  fun i =>
    x (ix3 (i 0) (i 1) (i 2))
      + (∑ e : Fin 2048, (u (ix3 (i 0) (i 1) e)
          * ∑ j : Fin 2048,
              (max ((∑ s : Fin 128, q (ix3 (i 0) (i 1) s) * k (ix3 (i 0) j s)) * cInv2048) 0
                * max ((∑ s : Fin 128, q (ix3 (i 0) (i 1) s) * k (ix3 (i 0) j s)) * cInv2048) 0)
              * v (ix3 (i 0) j e)) * Wout (ix2 e (i 2)))
      + bout (ix1 (i 2))

/-- The whole result as one function of the eleven argument arrays. -/
def G (x : (⟨3, ![4, 2048, 1024]⟩ : Shape).Idx → EReal) (lng lnb : (⟨1, ![1024]⟩ : Shape).Idx → EReal)
    (Win : (⟨2, ![1024, 4224]⟩ : Shape).Idx → EReal) (bin : (⟨1, ![4224]⟩ : Shape).Idx → EReal)
    (Wout : (⟨2, ![2048, 1024]⟩ : Shape).Idx → EReal) (bout : (⟨1, ![1024]⟩ : Shape).Idx → EReal)
    (gq bq gk bk : (⟨1, ![128]⟩ : Shape).Idx → EReal) : (⟨3, ![4, 2048, 1024]⟩ : Shape).Idx → EReal :=
  fun i => out (cur3 x) (cur1 lng) (cur1 lnb) (cur2 Win) (cur1 bin) (cur2 Wout) (cur1 bout)
    (cur1 gq) (cur1 bq) (cur1 gk) (cur1 bk) (i 0) (i 1) (i 2)

/-- The attention half on the first region's arrays is the whole result. -/
theorem attnOut_eq_G (x : (⟨3, ![4, 2048, 1024]⟩ : Shape).Idx → EReal) (lng lnb : (⟨1, ![1024]⟩ : Shape).Idx → EReal)
    (Win : (⟨2, ![1024, 4224]⟩ : Shape).Idx → EReal) (bin : (⟨1, ![4224]⟩ : Shape).Idx → EReal)
    (Wout : (⟨2, ![2048, 1024]⟩ : Shape).Idx → EReal) (bout : (⟨1, ![1024]⟩ : Shape).Idx → EReal)
    (gq bq gk bk : (⟨1, ![128]⟩ : Shape).Idx → EReal) :
    attnOut (Qarr x lng lnb Win bin gq bq) (Karr x lng lnb Win bin gk bk) (Varr x lng lnb Win bin) (Uarr x lng lnb Win bin) x Wout bout
      = G x lng lnb Win bin Wout bout gq bq gk bk := by
  funext i
  rfl

end Cert.Spec

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.R0Value.lean ====
/-
  What the first region leaves in its four output arrays, at the exact instance: the gate u, the values v, the
  queries and the keys, each as ONE function of the region's input arrays (the specification's).

  A point (b, l) of the 4 × 8 grid writes rows 256 l … 256 l + 255 of batch b of each output; the 32 points' blocks
  tile each array, and every block is the specification's function restricted to its rows, so the arrays are the
  specification's.

  Two layers. First, over variables: a stored block at an index is the specification's formula on the row of the x block
  it sits in (the two lane sums are the row's sums over 1024, the matrix product into a zero accumulator is the sum over
  the 1024 inputs, the three slices read features e, 2048 + e and 4096 + s, the narrowing format changes are the
  identity on extended reals). Then, per output window: the block a point reads of each input is where the output's
  rectangle says, so what the point writes back is its block of the specification's array; every index of the array is
  in the block of the point 8 b + l / 256; hence the array.
-/
import proofs.«124477_j41326175322889_1_alg».proof.Proof.R0
import proofs.«124477_j41326175322889_1_alg».proof.Proof.SpecArr
import proofs.«124477_j41326175322889_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

namespace R0Value

/-! ## Layout operations of the block's shapes, read at coordinates -/

section Layout
variable {α : Type}

/-- A lane sum of a [256, 1024] block over its second axis, at row `r`: the sum of the row's 1024 entries. -/
theorem rowSum_apply (v : FVec Ideal S256x1024 .f32) (h : S256x1024.Reduces [1] S256) (hφ : FTy.f32 = FTy.f32 ∨ FTy.f32 = FTy.bf16)
    (hacc : (0x00000000#32 : BitVec 32) = 0x00000000#32) (r : Fin 256) :
    multiReduction (F := Ideal) .add [1] S256 v 0x00000000#32 h hφ hacc (ix1 r) = ∑ d : Fin 1024, v (ix2 r d) := by
  refine (Ideal.multiReduction_add_single v 0x00000000#32 h hφ hacc (ix1 r)).trans ?_
  refine Finset.sum_congr rfl fun d _ => congrArg v ?_
  funext a
  refine Fin.ext ?_
  match a with
  | ⟨0, _⟩ => rfl
  | ⟨1, _⟩ => rfl

/-- A column [256] cast to [256, 1] reads, at `(r, z)`, the column at `r`. -/
theorem colCast_apply (v : S256.Idx → α) (h : S256.ShapeCasts S256x1) (r : Fin 256) (z : Fin 1) :
    shapeCast S256x1 v h (ix2 r z) = v (ix1 r) :=
  shapeCast_apply v h _ _ (by
    have hz : z.val = 0 := by omega
    rw [Shape.rowMajor_val_two, Shape.rowMajor_val_one]
    show r.val = r.val * 1 + z.val
    rw [hz, Nat.mul_one, Nat.add_zero])

/-- A column [256, 1] broadcast along 1024 lanes reads, at `(r, d)`, the column at `(r, 0)`. -/
theorem colBcast_apply (v : S256x1.Idx → α) (h : S256x1.Broadcasts S256x1024) (r : Fin 256) (d : Fin 1024) :
    broadcastTo S256x1024 v h (ix2 r d) = v (ix2 r (0 : Fin 1)) := by
  refine broadcastTo_apply v h (ix2 r d) (ix2 r (0 : Fin 1)) fun ax => ?_
  match ax with
  | ⟨0, _⟩ => rfl
  | ⟨1, _⟩ => rfl

end Layout

/-! ## The projection's dimension numbers: which coordinate of each operand is the output's, which the contracted one -/

theorem projL0 (i : S256x4224.Idx) (q : dot_S256x1024_S1024x4224_S256x4224_1_0_0_1_n_n.contr.Idx) :
    (dot_S256x1024_S1024x4224_S256x4224_1_0_0_1_n_n.lhsIdx i q 0).val = (i 0).val := by
  unfold DotDims.lhsIdx
  rw [dif_neg (show ¬(0 : Fin S256x1024.rank) ∈ dot_S256x1024_S1024x4224_S256x4224_1_0_0_1_n_n.lhsBatch by decide), dif_pos (show (0 : Fin S256x1024.rank) ∈ dot_S256x1024_S1024x4224_S256x4224_1_0_0_1_n_n.lhsNonContracting by decide)]
  rfl
theorem projL1 (i : S256x4224.Idx) (q : dot_S256x1024_S1024x4224_S256x4224_1_0_0_1_n_n.contr.Idx) :
    (dot_S256x1024_S1024x4224_S256x4224_1_0_0_1_n_n.lhsIdx i q 1).val = (q ⟨0, by decide⟩).val :=
  dot_S256x1024_S1024x4224_S256x4224_1_0_0_1_n_n.lhsIdx_val_of_single rfl i q
theorem projR0 (i : S256x4224.Idx) (q : dot_S256x1024_S1024x4224_S256x4224_1_0_0_1_n_n.contr.Idx) :
    (dot_S256x1024_S1024x4224_S256x4224_1_0_0_1_n_n.rhsIdx i q 0).val = (q ⟨0, by decide⟩).val :=
  dot_S256x1024_S1024x4224_S256x4224_1_0_0_1_n_n.rhsIdx_val_of_single rfl i q
theorem projR1 (i : S256x4224.Idx) (q : dot_S256x1024_S1024x4224_S256x4224_1_0_0_1_n_n.contr.Idx) :
    (dot_S256x1024_S1024x4224_S256x4224_1_0_0_1_n_n.rhsIdx i q 1).val = (i 1).val := by
  unfold DotDims.rhsIdx
  rw [dif_neg (show ¬(1 : Fin S1024x4224.rank) ∈ dot_S256x1024_S1024x4224_S256x4224_1_0_0_1_n_n.rhsBatch by decide), dif_pos (show (1 : Fin S1024x4224.rank) ∈ dot_S256x1024_S1024x4224_S256x4224_1_0_0_1_n_n.rhsNonContracting by decide)]
  rfl

/-- The projection into a zero accumulator, at row `r` and feature `f`: the sum over the 1024 inputs. -/
theorem proj_apply (l : FVec Ideal S256x1024 .bf16) (w : FVec Ideal S1024x4224 .bf16) (r : Fin 256) (f : Fin 4224) :
    matmul dot_S256x1024_S1024x4224_S256x4224_1_0_0_1_n_n none l w (constant (F := Ideal) S256x4224 .f32 0x00000000#32) (ix2 r f)
      = ∑ a : Fin 1024, l (ix2 r a) * w (ix2 a f) :=
  Cert.Lib.Dot2.matmul_zero_ix2 dot_S256x1024_S1024x4224_S256x4224_1_0_0_1_n_n none rfl rfl projL0 projL1 projR0 projR1 l w r f

/-- The logistic function at an index is the elements'. -/
theorem logistic_apply {s : Shape} {φ : FTy} (a : FVec Ideal s φ) (i : s.Idx) : logistic a i = Ideal.logistic (a i) := rfl
/-- The reciprocal square root at an index is the elements'. -/
theorem rsqrt_apply {s : Shape} {φ : FTy} (a : FVec Ideal s φ) (i : s.Idx) : rsqrt a i = Ideal.rsqrt (a i) := rfl

/-! ## The activated projection of one block, at a row and a feature -/

/-- Row `r` of the block, feature `f`: the specification's activated projection of the row (the row's mean and variance
    are the two lane sums over 1024; the projection is the sum over the 1024 normalised inputs). The specification is fed
    the row at every `(b, l)`, since a row's result depends on that row only. -/
theorem pay5_apply (x0 : Vec Ideal S1x256x1024 .f32) (x1 x2 : Vec Ideal S1024 .f32) (x3 : Vec Ideal S1024x4224 .bf16)
    (x4 : Vec Ideal S4224 .f32) (r : Fin 256) (f : Fin 4224) :
    k0_pay5 x0 x1 x2 x3 x4 (ix2 r f)
      = Cert.Spec.act (fun _ _ d => x0 (ix3 (0 : Fin 1) r d)) (Cert.Spec.cur1 x1) (Cert.Spec.cur1 x2) (Cert.Spec.cur2 x3)
          (Cert.Spec.cur1 x4) (0 : Fin 4) (0 : Fin 2048) f := by
  unfold k0_pay5
  simp only [mulf_apply, addf_apply, subf_apply, divf_apply, logistic_apply, rsqrt_apply, truncf_apply, broadcast_apply,
    proj_apply, shapeCast_self, broadcastTo_1b_ab_apply, shapeCast_a_1a_apply, colBcast_apply, colCast_apply,
    shapeCast_1ab_ab_apply]
  rw [rowSum_apply, rowSum_apply]
  simp only [mulf_apply, subf_apply, divf_apply, broadcast_apply, colBcast_apply, colCast_apply, shapeCast_1ab_ab_apply]
  rw [rowSum_apply]
  simp only [shapeCast_1ab_ab_apply]
  rfl

/-- The specification's activated projection reads only row `(b, l)` of its array. -/
theorem act_row (X : (⟨3, ![4, 2048, 1024]⟩ : Shape).Idx → EReal) (x0 : Vec Ideal S1x256x1024 .f32)
    (lng lnb : Fin 1024 → EReal) (W : Fin 1024 → Fin 4224 → EReal) (bin : Fin 4224 → EReal)
    (b : Fin 4) (l : Fin 2048) (r : Fin 256) (hx : ∀ d : Fin 1024, x0 (ix3 (0 : Fin 1) r d) = X (ix3 b l d)) (f : Fin 4224) :
    Cert.Spec.act (fun _ _ d => x0 (ix3 (0 : Fin 1) r d)) lng lnb W bin (0 : Fin 4) (0 : Fin 2048) f
      = Cert.Spec.act (Cert.Spec.cur3 X) lng lnb W bin b l f := by
  have e : (fun (_ : Fin 4) (_ : Fin 2048) (d : Fin 1024) => x0 (ix3 (0 : Fin 1) r d)) = fun _ _ d => X (ix3 b l d) := by
    funext _ _ d; exact hx d
  rw [e]
  rfl

/-! ## The four stored blocks at an index -/

/-- The u block at `(u, r, e)`: feature `e` of the row's activated projection. -/
theorem out0_9_apply (x0 : Vec Ideal S1x256x1024 .f32) (x1 x2 : Vec Ideal S1024 .f32) (x3 : Vec Ideal S1024x4224 .bf16)
    (x4 : Vec Ideal S4224 .f32) (u : Fin 1) (r : Fin 256) (e : Fin 2048) :
    out0_9 x0 x1 x2 x3 x4 (ix3 u r e)
      = Cert.Spec.act (fun _ _ d => x0 (ix3 (0 : Fin 1) r d)) (Cert.Spec.cur1 x1) (Cert.Spec.cur1 x2) (Cert.Spec.cur2 x3)
          (Cert.Spec.cur1 x4) (0 : Fin 4) (0 : Fin 2048) ⟨e.val, by have := e.isLt; omega⟩ := by
  unfold out0_9 k0_pay1 k0_pay6
  refine (shapeCast_ab_1ab_apply _ _ u r e).trans ?_
  show extractStridedSlice S256x2048 ![0, 0] (k0_pay5 x0 x1 x2 x3 x4) Gen.slices_S256x4224_o0_0_S256x2048 (ix2 r e) = _
  refine (slice2_axis1_apply (n0 := 256) (n1 := 4224) (m := 2048) 0 _ _ r e ⟨e.val, by have := e.isLt; omega⟩ (Nat.zero_add _).symm).trans ?_
  exact pay5_apply x0 x1 x2 x3 x4 r _

/-- The v block at `(u, r, e)`: feature `2048 + e`. -/
theorem out0_10_apply (x0 : Vec Ideal S1x256x1024 .f32) (x1 x2 : Vec Ideal S1024 .f32) (x3 : Vec Ideal S1024x4224 .bf16)
    (x4 : Vec Ideal S4224 .f32) (u : Fin 1) (r : Fin 256) (e : Fin 2048) :
    out0_10 x0 x1 x2 x3 x4 (ix3 u r e)
      = Cert.Spec.act (fun _ _ d => x0 (ix3 (0 : Fin 1) r d)) (Cert.Spec.cur1 x1) (Cert.Spec.cur1 x2) (Cert.Spec.cur2 x3)
          (Cert.Spec.cur1 x4) (0 : Fin 4) (0 : Fin 2048) ⟨2048 + e.val, by have := e.isLt; omega⟩ := by
  unfold out0_10 k0_pay2 k0_pay7
  refine (shapeCast_ab_1ab_apply _ _ u r e).trans ?_
  show extractStridedSlice S256x2048 ![0, 2048] (k0_pay5 x0 x1 x2 x3 x4) Gen.slices_S256x4224_o0_2048_S256x2048 (ix2 r e) = _
  refine (slice2_axis1_apply (n0 := 256) (n1 := 4224) (m := 2048) 2048 _ _ r e ⟨2048 + e.val, by have := e.isLt; omega⟩ rfl).trans ?_
  exact pay5_apply x0 x1 x2 x3 x4 r _

/-- The shared 128 features of the block at `(r, s)`: feature `4096 + s`. -/
theorem pay8_apply (x0 : Vec Ideal S1x256x1024 .f32) (x1 x2 : Vec Ideal S1024 .f32) (x3 : Vec Ideal S1024x4224 .bf16)
    (x4 : Vec Ideal S4224 .f32) (r : Fin 256) (s : Fin 128) :
    k0_pay8 x0 x1 x2 x3 x4 (ix2 r s)
      = Cert.Spec.act (fun _ _ d => x0 (ix3 (0 : Fin 1) r d)) (Cert.Spec.cur1 x1) (Cert.Spec.cur1 x2) (Cert.Spec.cur2 x3)
          (Cert.Spec.cur1 x4) (0 : Fin 4) (0 : Fin 2048) ⟨4096 + s.val, by have := s.isLt; omega⟩ := by
  unfold k0_pay8
  show extractStridedSlice S256x128 ![0, 4096] (k0_pay5 x0 x1 x2 x3 x4) Gen.slices_S256x4224_o0_4096_S256x128 (ix2 r s) = _
  refine (slice2_axis1_apply (n0 := 256) (n1 := 4224) (m := 128) 4096 _ _ r s ⟨4096 + s.val, by have := s.isLt; omega⟩ rfl).trans ?_
  exact pay5_apply x0 x1 x2 x3 x4 r _

/-- The q block at `(u, r, s)`: the shared feature times the query gain, plus the query shift. -/
theorem out0_11_apply (x0 : Vec Ideal S1x256x1024 .f32) (x1 x2 : Vec Ideal S1024 .f32) (x3 : Vec Ideal S1024x4224 .bf16)
    (x4 : Vec Ideal S4224 .f32) (x5 x6 : Vec Ideal S128 .f32) (u : Fin 1) (r : Fin 256) (s : Fin 128) :
    out0_11 x0 x1 x2 x3 x4 x5 x6 (ix3 u r s)
      = Cert.Spec.act (fun _ _ d => x0 (ix3 (0 : Fin 1) r d)) (Cert.Spec.cur1 x1) (Cert.Spec.cur1 x2) (Cert.Spec.cur2 x3)
          (Cert.Spec.cur1 x4) (0 : Fin 4) (0 : Fin 2048) ⟨4096 + s.val, by have := s.isLt; omega⟩ * x5 (ix1 s) + x6 (ix1 s) := by
  unfold out0_11 k0_pay3 k0_pay9
  refine (shapeCast_ab_1ab_apply _ _ u r s).trans ?_
  simp only [truncf_apply, addf_apply, mulf_apply, broadcastTo_1b_ab_apply, shapeCast_a_1a_apply, pay8_apply]

/-- The k block at `(u, r, s)`: the shared feature times the key gain, plus the key shift. -/
theorem out0_12_apply (x0 : Vec Ideal S1x256x1024 .f32) (x1 x2 : Vec Ideal S1024 .f32) (x3 : Vec Ideal S1024x4224 .bf16)
    (x4 : Vec Ideal S4224 .f32) (x7 x8 : Vec Ideal S128 .f32) (u : Fin 1) (r : Fin 256) (s : Fin 128) :
    out0_12 x0 x1 x2 x3 x4 x7 x8 (ix3 u r s)
      = Cert.Spec.act (fun _ _ d => x0 (ix3 (0 : Fin 1) r d)) (Cert.Spec.cur1 x1) (Cert.Spec.cur1 x2) (Cert.Spec.cur2 x3)
          (Cert.Spec.cur1 x4) (0 : Fin 4) (0 : Fin 2048) ⟨4096 + s.val, by have := s.isLt; omega⟩ * x7 (ix1 s) + x8 (ix1 s) := by
  unfold out0_12 k0_pay4
  refine (shapeCast_ab_1ab_apply _ _ u r s).trans ?_
  simp only [truncf_apply, addf_apply, mulf_apply, broadcastTo_1b_ab_apply, shapeCast_a_1a_apply, pay8_apply]

/-! ## A stored block against the specification's array, over variables

Each lemma takes the block's inputs as variables with what they are: the x block's row `r` is row `(b, l)` of the array `X`,
every other input is its whole array, and the array index `i` under the block index is `(b, l, ·)`. -/

theorem out0_9_block (X : (⟨3, ![4, 2048, 1024]⟩ : Shape).Idx → EReal) (lng lnb : (⟨1, ![1024]⟩ : Shape).Idx → EReal)
    (W : (⟨2, ![1024, 4224]⟩ : Shape).Idx → EReal) (bin : (⟨1, ![4224]⟩ : Shape).Idx → EReal)
    (x0 : Vec Ideal S1x256x1024 .f32) (x1 x2 : Vec Ideal S1024 .f32) (x3 : Vec Ideal S1024x4224 .bf16) (x4 : Vec Ideal S4224 .f32)
    (b : Fin 4) (l : Fin 2048) (u : Fin 1) (r : Fin 256) (e : Fin 2048) (i : (⟨3, ![4, 2048, 2048]⟩ : Shape).Idx)
    (h1 : x1 = lng) (h2 : x2 = lnb) (h3 : x3 = W) (h4 : x4 = bin)
    (hx : ∀ d : Fin 1024, x0 (ix3 (0 : Fin 1) r d) = X (ix3 b l d)) (hi : i = ix3 b l e) :
    out0_9 x0 x1 x2 x3 x4 (ix3 u r e) = Cert.Spec.Uarr X lng lnb W bin i := by
  subst h1 h2 h3 h4 hi
  refine (out0_9_apply x0 x1 x2 x3 x4 u r e).trans ?_
  exact act_row X x0 _ _ _ _ b l r hx _

theorem out0_10_block (X : (⟨3, ![4, 2048, 1024]⟩ : Shape).Idx → EReal) (lng lnb : (⟨1, ![1024]⟩ : Shape).Idx → EReal)
    (W : (⟨2, ![1024, 4224]⟩ : Shape).Idx → EReal) (bin : (⟨1, ![4224]⟩ : Shape).Idx → EReal)
    (x0 : Vec Ideal S1x256x1024 .f32) (x1 x2 : Vec Ideal S1024 .f32) (x3 : Vec Ideal S1024x4224 .bf16) (x4 : Vec Ideal S4224 .f32)
    (b : Fin 4) (l : Fin 2048) (u : Fin 1) (r : Fin 256) (e : Fin 2048) (i : (⟨3, ![4, 2048, 2048]⟩ : Shape).Idx)
    (h1 : x1 = lng) (h2 : x2 = lnb) (h3 : x3 = W) (h4 : x4 = bin)
    (hx : ∀ d : Fin 1024, x0 (ix3 (0 : Fin 1) r d) = X (ix3 b l d)) (hi : i = ix3 b l e) :
    out0_10 x0 x1 x2 x3 x4 (ix3 u r e) = Cert.Spec.Varr X lng lnb W bin i := by
  subst h1 h2 h3 h4 hi
  refine (out0_10_apply x0 x1 x2 x3 x4 u r e).trans ?_
  exact act_row X x0 _ _ _ _ b l r hx _

theorem out0_11_block (X : (⟨3, ![4, 2048, 1024]⟩ : Shape).Idx → EReal) (lng lnb : (⟨1, ![1024]⟩ : Shape).Idx → EReal)
    (W : (⟨2, ![1024, 4224]⟩ : Shape).Idx → EReal) (bin : (⟨1, ![4224]⟩ : Shape).Idx → EReal)
    (gq bq : (⟨1, ![128]⟩ : Shape).Idx → EReal)
    (x0 : Vec Ideal S1x256x1024 .f32) (x1 x2 : Vec Ideal S1024 .f32) (x3 : Vec Ideal S1024x4224 .bf16) (x4 : Vec Ideal S4224 .f32)
    (x5 x6 : Vec Ideal S128 .f32)
    (b : Fin 4) (l : Fin 2048) (u : Fin 1) (r : Fin 256) (s : Fin 128) (i : (⟨3, ![4, 2048, 128]⟩ : Shape).Idx)
    (h1 : x1 = lng) (h2 : x2 = lnb) (h3 : x3 = W) (h4 : x4 = bin) (h5 : x5 = gq) (h6 : x6 = bq)
    (hx : ∀ d : Fin 1024, x0 (ix3 (0 : Fin 1) r d) = X (ix3 b l d)) (hi : i = ix3 b l s) :
    out0_11 x0 x1 x2 x3 x4 x5 x6 (ix3 u r s) = Cert.Spec.Qarr X lng lnb W bin gq bq i := by
  subst h1 h2 h3 h4 h5 h6 hi
  refine (out0_11_apply x0 x1 x2 x3 x4 x5 x6 u r s).trans ?_
  exact congrArg (fun z => z * x5 (ix1 s) + x6 (ix1 s)) (act_row X x0 _ _ _ _ b l r hx _)

theorem out0_12_block (X : (⟨3, ![4, 2048, 1024]⟩ : Shape).Idx → EReal) (lng lnb : (⟨1, ![1024]⟩ : Shape).Idx → EReal)
    (W : (⟨2, ![1024, 4224]⟩ : Shape).Idx → EReal) (bin : (⟨1, ![4224]⟩ : Shape).Idx → EReal)
    (gk bk : (⟨1, ![128]⟩ : Shape).Idx → EReal)
    (x0 : Vec Ideal S1x256x1024 .f32) (x1 x2 : Vec Ideal S1024 .f32) (x3 : Vec Ideal S1024x4224 .bf16) (x4 : Vec Ideal S4224 .f32)
    (x7 x8 : Vec Ideal S128 .f32)
    (b : Fin 4) (l : Fin 2048) (u : Fin 1) (r : Fin 256) (s : Fin 128) (i : (⟨3, ![4, 2048, 128]⟩ : Shape).Idx)
    (h1 : x1 = lng) (h2 : x2 = lnb) (h3 : x3 = W) (h4 : x4 = bin) (h7 : x7 = gk) (h8 : x8 = bk)
    (hx : ∀ d : Fin 1024, x0 (ix3 (0 : Fin 1) r d) = X (ix3 b l d)) (hi : i = ix3 b l s) :
    out0_12 x0 x1 x2 x3 x4 x7 x8 (ix3 u r s) = Cert.Spec.Karr X lng lnb W bin gk bk i := by
  subst h1 h2 h3 h4 h7 h8 hi
  refine (out0_12_apply x0 x1 x2 x3 x4 x7 x8 u r s).trans ?_
  exact congrArg (fun z => z * x7 (ix1 s) + x8 (ix1 s)) (act_row X x0 _ _ _ _ b l r hx _)

/-! ## The index maps over the grid

Point `t` of the grid is `(t / 8, t % 8)`. The x block and the four output blocks sit at block row `t % 8` of batch `t / 8`;
every other window's block is its whole array. -/

theorem idx_in0 : ∀ t : Fin cfg0.N,
    win0_0.index t (0 : Fin 3) = t.val / 8 ∧ win0_0.index t (1 : Fin 3) = t.val % 8 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 1) = 0 ∧ win0_6.index t (0 : Fin 1) = 0 ∧ win0_7.index t (0 : Fin 1) = 0
    ∧ win0_8.index t (0 : Fin 1) = 0 :=
  (by decide +kernel : ∀ t : Fin grid0.N, _)

theorem idx_out0 : ∀ t : Fin cfg0.N,
    (win0_9.index t (0 : Fin 3) = t.val / 8 ∧ win0_9.index t (1 : Fin 3) = t.val % 8 ∧ win0_9.index t (2 : Fin 3) = 0)
    ∧ (win0_10.index t (0 : Fin 3) = t.val / 8 ∧ win0_10.index t (1 : Fin 3) = t.val % 8 ∧ win0_10.index t (2 : Fin 3) = 0)
    ∧ (win0_11.index t (0 : Fin 3) = t.val / 8 ∧ win0_11.index t (1 : Fin 3) = t.val % 8 ∧ win0_11.index t (2 : Fin 3) = 0)
    ∧ (win0_12.index t (0 : Fin 3) = t.val / 8 ∧ win0_12.index t (1 : Fin 3) = t.val % 8 ∧ win0_12.index t (2 : Fin 3) = 0) :=
  (by decide +kernel : ∀ t : Fin grid0.N, _)

/-- A point's number is below 32. -/
theorem t_lt (t : Fin cfg0.N) : t.val < 32 := lt_of_lt_of_eq t.isLt N_0

/-! ## The input blocks as the region finds them -/

/-- Row `r` of the x block at point `t` is row `(t / 8, 256 (t % 8) + r)` of x. -/
theorem xrow0 (c : Dev nD) (t : Fin cfg0.N) (r : Fin 256) (b : Fin 4) (l : Fin 2048) (hb : b.val = t.val / 8)
    (hl : l.val = t.val % 8 * 256 + r.val) (d : Fin 1024) :
    (iblk0 V c 0 t : Vec Ideal S1x256x1024 .f32) (ix3 (0 : Fin 1) r d) = V c main_arg0 (ix3 b l d) := by
  show V c main_arg0 (((cfg0.win 0).blk t).view.emb (ix3 (0 : Fin 1) r d)) = V c main_arg0 (ix3 b l d)
  refine congrArg _ (funext fun a => Fin.ext ?_)
  obtain ⟨h0, h1, h2, -⟩ := idx_in0 t
  match a with
  | ⟨0, _⟩ => show win0_0.index t (0 : Fin 3) * 1 + 1 * 0 = b.val; rw [h0, hb]; omega
  | ⟨1, _⟩ => show win0_0.index t (1 : Fin 3) * 256 + 1 * r.val = l.val; rw [h1, hl]; omega
  | ⟨2, _⟩ => show win0_0.index t (2 : Fin 3) * 1024 + 1 * d.val = d.val; rw [h2]; omega

/-- The gain's block is the gain. -/
theorem iblk0_1 (c : Dev nD) (t : Fin cfg0.N) : (iblk0 V c 1 t : Vec Ideal S1024 .f32) = V c main_arg1 := by
  funext y
  show V c main_arg1 (((cfg0.win 1).blk t).view.emb y) = V c main_arg1 y
  refine congrArg _ (funext fun a => Fin.ext ?_)
  have h := (idx_in0 t).2.2.2.1
  match a with
  | ⟨0, _⟩ => show win0_1.index t (0 : Fin 1) * 1024 + 1 * (y 0).val = (y 0).val; rw [h]; omega
/-- The shift's block is the shift. -/
theorem iblk0_2 (c : Dev nD) (t : Fin cfg0.N) : (iblk0 V c 2 t : Vec Ideal S1024 .f32) = V c main_arg2 := by
  funext y
  show V c main_arg2 (((cfg0.win 2).blk t).view.emb y) = V c main_arg2 y
  refine congrArg _ (funext fun a => Fin.ext ?_)
  have h := (idx_in0 t).2.2.2.2.1
  match a with
  | ⟨0, _⟩ => show win0_2.index t (0 : Fin 1) * 1024 + 1 * (y 0).val = (y 0).val; rw [h]; omega
/-- The projection matrix's block is the matrix. -/
theorem iblk0_3 (c : Dev nD) (t : Fin cfg0.N) : (iblk0 V c 3 t : Vec Ideal S1024x4224 .bf16) = V c main_v0 := by
  funext y
  show V c main_v0 (((cfg0.win 3).blk t).view.emb y) = V c main_v0 y
  refine congrArg _ (funext fun a => Fin.ext ?_)
  have h0 := (idx_in0 t).2.2.2.2.2.1
  have h1 := (idx_in0 t).2.2.2.2.2.2.1
  match a with
  | ⟨0, _⟩ => show win0_3.index t (0 : Fin 2) * 1024 + 1 * (y 0).val = (y 0).val; rw [h0]; omega
  | ⟨1, _⟩ => show win0_3.index t (1 : Fin 2) * 4224 + 1 * (y 1).val = (y 1).val; rw [h1]; omega
/-- The bias's block is the bias. -/
theorem iblk0_4 (c : Dev nD) (t : Fin cfg0.N) : (iblk0 V c 4 t : Vec Ideal S4224 .f32) = V c main_arg4 := by
  funext y
  show V c main_arg4 (((cfg0.win 4).blk t).view.emb y) = V c main_arg4 y
  refine congrArg _ (funext fun a => Fin.ext ?_)
  have h := (idx_in0 t).2.2.2.2.2.2.2.1
  match a with
  | ⟨0, _⟩ => show win0_4.index t (0 : Fin 1) * 4224 + 1 * (y 0).val = (y 0).val; rw [h]; omega
/-- The query gain's block is the query gain. -/
theorem iblk0_5 (c : Dev nD) (t : Fin cfg0.N) : (iblk0 V c 5 t : Vec Ideal S128 .f32) = V c main_arg7 := by
  funext y
  show V c main_arg7 (((cfg0.win 5).blk t).view.emb y) = V c main_arg7 y
  refine congrArg _ (funext fun a => Fin.ext ?_)
  have h := (idx_in0 t).2.2.2.2.2.2.2.2.1
  match a with
  | ⟨0, _⟩ => show win0_5.index t (0 : Fin 1) * 128 + 1 * (y 0).val = (y 0).val; rw [h]; omega
/-- The query shift's block is the query shift. -/
theorem iblk0_6 (c : Dev nD) (t : Fin cfg0.N) : (iblk0 V c 6 t : Vec Ideal S128 .f32) = V c main_arg8 := by
  funext y
  show V c main_arg8 (((cfg0.win 6).blk t).view.emb y) = V c main_arg8 y
  refine congrArg _ (funext fun a => Fin.ext ?_)
  have h := (idx_in0 t).2.2.2.2.2.2.2.2.2.1
  match a with
  | ⟨0, _⟩ => show win0_6.index t (0 : Fin 1) * 128 + 1 * (y 0).val = (y 0).val; rw [h]; omega
/-- The key gain's block is the key gain. -/
theorem iblk0_7 (c : Dev nD) (t : Fin cfg0.N) : (iblk0 V c 7 t : Vec Ideal S128 .f32) = V c main_arg9 := by
  funext y
  show V c main_arg9 (((cfg0.win 7).blk t).view.emb y) = V c main_arg9 y
  refine congrArg _ (funext fun a => Fin.ext ?_)
  have h := (idx_in0 t).2.2.2.2.2.2.2.2.2.2.1
  match a with
  | ⟨0, _⟩ => show win0_7.index t (0 : Fin 1) * 128 + 1 * (y 0).val = (y 0).val; rw [h]; omega
/-- The key shift's block is the key shift. -/
theorem iblk0_8 (c : Dev nD) (t : Fin cfg0.N) : (iblk0 V c 8 t : Vec Ideal S128 .f32) = V c main_arg10 := by
  funext y
  show V c main_arg10 (((cfg0.win 8).blk t).view.emb y) = V c main_arg10 y
  refine congrArg _ (funext fun a => Fin.ext ?_)
  have h := (idx_in0 t).2.2.2.2.2.2.2.2.2.2.2
  match a with
  | ⟨0, _⟩ => show win0_8.index t (0 : Fin 1) * 128 + 1 * (y 0).val = (y 0).val; rw [h]; omega

/-! ## Output window 9: the gate u -/

/-- Block `t` of the window's array holds, at `(u, r, e)`, the specification's array at `(t / 8, 256 (t % 8) + r, e)`. -/
theorem blk0_9_at (c : Dev nD) (t : Fin cfg0.N) (u : Fin 1) (r : Fin 256) (e : Fin 2048) :
    out0_9 (iblk0 V c 0 t) (iblk0 V c 1 t) (iblk0 V c 2 t) (iblk0 V c 3 t) (iblk0 V c 4 t) (ix3 u r e)
      = Cert.Spec.Uarr (V c main_arg0) (V c main_arg1) (V c main_arg2) (V c main_v0) (V c main_arg4)
          (((cfg0.win 9).blk t).view.emb (ix3 u r e)) := by
  have ht := t_lt t
  obtain ⟨h0, h1, h2⟩ := (idx_out0 t).1
  refine out0_9_block (V c main_arg0) (V c main_arg1) (V c main_arg2) (V c main_v0) (V c main_arg4) _ _ _ _ _
    ⟨t.val / 8, by omega⟩ ⟨t.val % 8 * 256 + r.val, by have := r.isLt; omega⟩ u r e _
    (iblk0_1 V c t) (iblk0_2 V c t) (iblk0_3 V c t) (iblk0_4 V c t) (xrow0 V c t r _ _ rfl rfl) ?_
  refine funext fun a => Fin.ext ?_
  match a with
  | ⟨0, _⟩ => show win0_9.index t (0 : Fin 3) * 1 + 1 * u.val = t.val / 8; rw [h0]; have := u.isLt; omega
  | ⟨1, _⟩ => show win0_9.index t (1 : Fin 3) * 256 + 1 * r.val = t.val % 8 * 256 + r.val; rw [h1]; omega
  | ⟨2, _⟩ => show win0_9.index t (2 : Fin 3) * 2048 + 1 * e.val = e.val; rw [h2]; omega

/-- What point `t` writes back is block `t` of the specification's array. -/
theorem flushed0_9_eq (c : Dev nD) (t : Fin cfg0.N) :
    (dat0 V c).flushed 9 t = ((cfg0.win 9).blk t).view.read (Elt Ideal)
      (Cert.Spec.Uarr (V c main_arg0) (V c main_arg1) (V c main_arg2) (V c main_v0) (V c main_arg4)) := by
  show (cfg0.win 9).cut (grid0.coords t) ((dat0 V c).after 9 t) = _
  rw [after0_9]
  funext y
  obtain ⟨u, r, e, rfl⟩ : ∃ (u : Fin 1) (r : Fin 256) (e : Fin 2048), y = ix3 u r e := ⟨y 0, y 1, y 2, eq_ix3 y⟩
  exact blk0_9_at V c t u r e

/-- An index of the array is in point `t`'s block iff each coordinate is in the block's range on its axis. -/
theorem mem_blk0_9 (t : Fin cfg0.N) (i : S4x2048x2048.Idx) :
    i ∈ ((cfg0.win 9).blk t).view.set ↔ ∀ a : Fin 3, win0_9.index t a * S1x256x2048.size a ≤ (i a).val
      ∧ (i a).val < win0_9.index t a * S1x256x2048.size a + S1x256x2048.size a := by
  show i ∈ ((View.whole main_v2_0).slice (win0_9.rect t)).set ↔ _
  rw [View.set_slice_whole, Rect.mem_set_unit]
  exact Iff.rfl

/-- Every index of the array is in the block of the point `8 b + l / 256`. -/
theorem cover0_9 (i : S4x2048x2048.Idx) :
    ∃ t : Fin cfg0.N, (cfg0.win 9).flush t = true ∧ i ∈ ((cfg0.win 9).blk t).view.set := by
  have hi0 : (i 0).val < 4 := (i 0).isLt
  have hi1 : (i 1).val < 2048 := (i 1).isLt
  have hi2 : (i 2).val < 2048 := (i 2).isLt
  have hN : cfg0.N = 32 := N_0
  obtain ⟨t, ht⟩ : ∃ t : Fin cfg0.N, t.val = 8 * (i 0).val + (i 1).val / 256 := ⟨⟨8 * (i 0).val + (i 1).val / 256, by omega⟩, rfl⟩
  obtain ⟨h0, h1, h2⟩ := (idx_out0 t).1
  refine ⟨t, flush0_9 t, ?_⟩
  rw [mem_blk0_9]
  intro a
  match a with
  | ⟨0, _⟩ =>
    show win0_9.index t (0 : Fin 3) * 1 ≤ (i 0).val ∧ (i 0).val < win0_9.index t (0 : Fin 3) * 1 + 1
    rw [h0]; omega
  | ⟨1, _⟩ =>
    show win0_9.index t (1 : Fin 3) * 256 ≤ (i 1).val ∧ (i 1).val < win0_9.index t (1 : Fin 3) * 256 + 256
    rw [h1]; omega
  | ⟨2, _⟩ =>
    show win0_9.index t (2 : Fin 3) * 2048 ≤ (i 2).val ∧ (i 2).val < win0_9.index t (2 : Fin 3) * 2048 + 2048
    rw [h2]; omega

/-! ## Output window 10: the values v -/

/-- Block `t` of the window's array holds, at `(u, r, e)`, the specification's array at `(t / 8, 256 (t % 8) + r, e)`. -/
theorem blk0_10_at (c : Dev nD) (t : Fin cfg0.N) (u : Fin 1) (r : Fin 256) (e : Fin 2048) :
    out0_10 (iblk0 V c 0 t) (iblk0 V c 1 t) (iblk0 V c 2 t) (iblk0 V c 3 t) (iblk0 V c 4 t) (ix3 u r e)
      = Cert.Spec.Varr (V c main_arg0) (V c main_arg1) (V c main_arg2) (V c main_v0) (V c main_arg4)
          (((cfg0.win 10).blk t).view.emb (ix3 u r e)) := by
  have ht := t_lt t
  obtain ⟨h0, h1, h2⟩ := (idx_out0 t).2.1
  refine out0_10_block (V c main_arg0) (V c main_arg1) (V c main_arg2) (V c main_v0) (V c main_arg4) _ _ _ _ _
    ⟨t.val / 8, by omega⟩ ⟨t.val % 8 * 256 + r.val, by have := r.isLt; omega⟩ u r e _
    (iblk0_1 V c t) (iblk0_2 V c t) (iblk0_3 V c t) (iblk0_4 V c t) (xrow0 V c t r _ _ rfl rfl) ?_
  refine funext fun a => Fin.ext ?_
  match a with
  | ⟨0, _⟩ => show win0_10.index t (0 : Fin 3) * 1 + 1 * u.val = t.val / 8; rw [h0]; have := u.isLt; omega
  | ⟨1, _⟩ => show win0_10.index t (1 : Fin 3) * 256 + 1 * r.val = t.val % 8 * 256 + r.val; rw [h1]; omega
  | ⟨2, _⟩ => show win0_10.index t (2 : Fin 3) * 2048 + 1 * e.val = e.val; rw [h2]; omega

/-- What point `t` writes back is block `t` of the specification's array. -/
theorem flushed0_10_eq (c : Dev nD) (t : Fin cfg0.N) :
    (dat0 V c).flushed 10 t = ((cfg0.win 10).blk t).view.read (Elt Ideal)
      (Cert.Spec.Varr (V c main_arg0) (V c main_arg1) (V c main_arg2) (V c main_v0) (V c main_arg4)) := by
  show (cfg0.win 10).cut (grid0.coords t) ((dat0 V c).after 10 t) = _
  rw [after0_10]
  funext y
  obtain ⟨u, r, e, rfl⟩ : ∃ (u : Fin 1) (r : Fin 256) (e : Fin 2048), y = ix3 u r e := ⟨y 0, y 1, y 2, eq_ix3 y⟩
  exact blk0_10_at V c t u r e

/-- An index of the array is in point `t`'s block iff each coordinate is in the block's range on its axis. -/
theorem mem_blk0_10 (t : Fin cfg0.N) (i : S4x2048x2048.Idx) :
    i ∈ ((cfg0.win 10).blk t).view.set ↔ ∀ a : Fin 3, win0_10.index t a * S1x256x2048.size a ≤ (i a).val
      ∧ (i a).val < win0_10.index t a * S1x256x2048.size a + S1x256x2048.size a := by
  show i ∈ ((View.whole main_v2_1).slice (win0_10.rect t)).set ↔ _
  rw [View.set_slice_whole, Rect.mem_set_unit]
  exact Iff.rfl

/-- Every index of the array is in the block of the point `8 b + l / 256`. -/
theorem cover0_10 (i : S4x2048x2048.Idx) :
    ∃ t : Fin cfg0.N, (cfg0.win 10).flush t = true ∧ i ∈ ((cfg0.win 10).blk t).view.set := by
  have hi0 : (i 0).val < 4 := (i 0).isLt
  have hi1 : (i 1).val < 2048 := (i 1).isLt
  have hi2 : (i 2).val < 2048 := (i 2).isLt
  have hN : cfg0.N = 32 := N_0
  obtain ⟨t, ht⟩ : ∃ t : Fin cfg0.N, t.val = 8 * (i 0).val + (i 1).val / 256 := ⟨⟨8 * (i 0).val + (i 1).val / 256, by omega⟩, rfl⟩
  obtain ⟨h0, h1, h2⟩ := (idx_out0 t).2.1
  refine ⟨t, flush0_10 t, ?_⟩
  rw [mem_blk0_10]
  intro a
  match a with
  | ⟨0, _⟩ =>
    show win0_10.index t (0 : Fin 3) * 1 ≤ (i 0).val ∧ (i 0).val < win0_10.index t (0 : Fin 3) * 1 + 1
    rw [h0]; omega
  | ⟨1, _⟩ =>
    show win0_10.index t (1 : Fin 3) * 256 ≤ (i 1).val ∧ (i 1).val < win0_10.index t (1 : Fin 3) * 256 + 256
    rw [h1]; omega
  | ⟨2, _⟩ =>
    show win0_10.index t (2 : Fin 3) * 2048 ≤ (i 2).val ∧ (i 2).val < win0_10.index t (2 : Fin 3) * 2048 + 2048
    rw [h2]; omega

/-! ## Output window 11: the queries -/

/-- Block `t` of the window's array holds, at `(u, r, e)`, the specification's array at `(t / 8, 256 (t % 8) + r, e)`. -/
theorem blk0_11_at (c : Dev nD) (t : Fin cfg0.N) (u : Fin 1) (r : Fin 256) (e : Fin 128) :
    out0_11 (iblk0 V c 0 t) (iblk0 V c 1 t) (iblk0 V c 2 t) (iblk0 V c 3 t) (iblk0 V c 4 t) (iblk0 V c 5 t) (iblk0 V c 6 t) (ix3 u r e)
      = Cert.Spec.Qarr (V c main_arg0) (V c main_arg1) (V c main_arg2) (V c main_v0) (V c main_arg4) (V c main_arg7) (V c main_arg8)
          (((cfg0.win 11).blk t).view.emb (ix3 u r e)) := by
  have ht := t_lt t
  obtain ⟨h0, h1, h2⟩ := (idx_out0 t).2.2.1
  refine out0_11_block (V c main_arg0) (V c main_arg1) (V c main_arg2) (V c main_v0) (V c main_arg4) (V c main_arg7) (V c main_arg8) _ _ _ _ _ _ _
    ⟨t.val / 8, by omega⟩ ⟨t.val % 8 * 256 + r.val, by have := r.isLt; omega⟩ u r e _
    (iblk0_1 V c t) (iblk0_2 V c t) (iblk0_3 V c t) (iblk0_4 V c t) (iblk0_5 V c t) (iblk0_6 V c t) (xrow0 V c t r _ _ rfl rfl) ?_
  refine funext fun a => Fin.ext ?_
  match a with
  | ⟨0, _⟩ => show win0_11.index t (0 : Fin 3) * 1 + 1 * u.val = t.val / 8; rw [h0]; have := u.isLt; omega
  | ⟨1, _⟩ => show win0_11.index t (1 : Fin 3) * 256 + 1 * r.val = t.val % 8 * 256 + r.val; rw [h1]; omega
  | ⟨2, _⟩ => show win0_11.index t (2 : Fin 3) * 128 + 1 * e.val = e.val; rw [h2]; omega

/-- What point `t` writes back is block `t` of the specification's array. -/
theorem flushed0_11_eq (c : Dev nD) (t : Fin cfg0.N) :
    (dat0 V c).flushed 11 t = ((cfg0.win 11).blk t).view.read (Elt Ideal)
      (Cert.Spec.Qarr (V c main_arg0) (V c main_arg1) (V c main_arg2) (V c main_v0) (V c main_arg4) (V c main_arg7) (V c main_arg8)) := by
  show (cfg0.win 11).cut (grid0.coords t) ((dat0 V c).after 11 t) = _
  rw [after0_11]
  funext y
  obtain ⟨u, r, e, rfl⟩ : ∃ (u : Fin 1) (r : Fin 256) (e : Fin 128), y = ix3 u r e := ⟨y 0, y 1, y 2, eq_ix3 y⟩
  exact blk0_11_at V c t u r e

/-- An index of the array is in point `t`'s block iff each coordinate is in the block's range on its axis. -/
theorem mem_blk0_11 (t : Fin cfg0.N) (i : S4x2048x128.Idx) :
    i ∈ ((cfg0.win 11).blk t).view.set ↔ ∀ a : Fin 3, win0_11.index t a * S1x256x128.size a ≤ (i a).val
      ∧ (i a).val < win0_11.index t a * S1x256x128.size a + S1x256x128.size a := by
  show i ∈ ((View.whole main_v2_2).slice (win0_11.rect t)).set ↔ _
  rw [View.set_slice_whole, Rect.mem_set_unit]
  exact Iff.rfl

/-- Every index of the array is in the block of the point `8 b + l / 256`. -/
theorem cover0_11 (i : S4x2048x128.Idx) :
    ∃ t : Fin cfg0.N, (cfg0.win 11).flush t = true ∧ i ∈ ((cfg0.win 11).blk t).view.set := by
  have hi0 : (i 0).val < 4 := (i 0).isLt
  have hi1 : (i 1).val < 2048 := (i 1).isLt
  have hi2 : (i 2).val < 128 := (i 2).isLt
  have hN : cfg0.N = 32 := N_0
  obtain ⟨t, ht⟩ : ∃ t : Fin cfg0.N, t.val = 8 * (i 0).val + (i 1).val / 256 := ⟨⟨8 * (i 0).val + (i 1).val / 256, by omega⟩, rfl⟩
  obtain ⟨h0, h1, h2⟩ := (idx_out0 t).2.2.1
  refine ⟨t, flush0_11 t, ?_⟩
  rw [mem_blk0_11]
  intro a
  match a with
  | ⟨0, _⟩ =>
    show win0_11.index t (0 : Fin 3) * 1 ≤ (i 0).val ∧ (i 0).val < win0_11.index t (0 : Fin 3) * 1 + 1
    rw [h0]; omega
  | ⟨1, _⟩ =>
    show win0_11.index t (1 : Fin 3) * 256 ≤ (i 1).val ∧ (i 1).val < win0_11.index t (1 : Fin 3) * 256 + 256
    rw [h1]; omega
  | ⟨2, _⟩ =>
    show win0_11.index t (2 : Fin 3) * 128 ≤ (i 2).val ∧ (i 2).val < win0_11.index t (2 : Fin 3) * 128 + 128
    rw [h2]; omega

/-! ## Output window 12: the keys -/

/-- Block `t` of the window's array holds, at `(u, r, e)`, the specification's array at `(t / 8, 256 (t % 8) + r, e)`. -/
theorem blk0_12_at (c : Dev nD) (t : Fin cfg0.N) (u : Fin 1) (r : Fin 256) (e : Fin 128) :
    out0_12 (iblk0 V c 0 t) (iblk0 V c 1 t) (iblk0 V c 2 t) (iblk0 V c 3 t) (iblk0 V c 4 t) (iblk0 V c 7 t) (iblk0 V c 8 t) (ix3 u r e)
      = Cert.Spec.Karr (V c main_arg0) (V c main_arg1) (V c main_arg2) (V c main_v0) (V c main_arg4) (V c main_arg9) (V c main_arg10)
          (((cfg0.win 12).blk t).view.emb (ix3 u r e)) := by
  have ht := t_lt t
  obtain ⟨h0, h1, h2⟩ := (idx_out0 t).2.2.2
  refine out0_12_block (V c main_arg0) (V c main_arg1) (V c main_arg2) (V c main_v0) (V c main_arg4) (V c main_arg9) (V c main_arg10) _ _ _ _ _ _ _
    ⟨t.val / 8, by omega⟩ ⟨t.val % 8 * 256 + r.val, by have := r.isLt; omega⟩ u r e _
    (iblk0_1 V c t) (iblk0_2 V c t) (iblk0_3 V c t) (iblk0_4 V c t) (iblk0_7 V c t) (iblk0_8 V c t) (xrow0 V c t r _ _ rfl rfl) ?_
  refine funext fun a => Fin.ext ?_
  match a with
  | ⟨0, _⟩ => show win0_12.index t (0 : Fin 3) * 1 + 1 * u.val = t.val / 8; rw [h0]; have := u.isLt; omega
  | ⟨1, _⟩ => show win0_12.index t (1 : Fin 3) * 256 + 1 * r.val = t.val % 8 * 256 + r.val; rw [h1]; omega
  | ⟨2, _⟩ => show win0_12.index t (2 : Fin 3) * 128 + 1 * e.val = e.val; rw [h2]; omega

/-- What point `t` writes back is block `t` of the specification's array. -/
theorem flushed0_12_eq (c : Dev nD) (t : Fin cfg0.N) :
    (dat0 V c).flushed 12 t = ((cfg0.win 12).blk t).view.read (Elt Ideal)
      (Cert.Spec.Karr (V c main_arg0) (V c main_arg1) (V c main_arg2) (V c main_v0) (V c main_arg4) (V c main_arg9) (V c main_arg10)) := by
  show (cfg0.win 12).cut (grid0.coords t) ((dat0 V c).after 12 t) = _
  rw [after0_12]
  funext y
  obtain ⟨u, r, e, rfl⟩ : ∃ (u : Fin 1) (r : Fin 256) (e : Fin 128), y = ix3 u r e := ⟨y 0, y 1, y 2, eq_ix3 y⟩
  exact blk0_12_at V c t u r e

/-- An index of the array is in point `t`'s block iff each coordinate is in the block's range on its axis. -/
theorem mem_blk0_12 (t : Fin cfg0.N) (i : S4x2048x128.Idx) :
    i ∈ ((cfg0.win 12).blk t).view.set ↔ ∀ a : Fin 3, win0_12.index t a * S1x256x128.size a ≤ (i a).val
      ∧ (i a).val < win0_12.index t a * S1x256x128.size a + S1x256x128.size a := by
  show i ∈ ((View.whole main_v2_3).slice (win0_12.rect t)).set ↔ _
  rw [View.set_slice_whole, Rect.mem_set_unit]
  exact Iff.rfl

/-- Every index of the array is in the block of the point `8 b + l / 256`. -/
theorem cover0_12 (i : S4x2048x128.Idx) :
    ∃ t : Fin cfg0.N, (cfg0.win 12).flush t = true ∧ i ∈ ((cfg0.win 12).blk t).view.set := by
  have hi0 : (i 0).val < 4 := (i 0).isLt
  have hi1 : (i 1).val < 2048 := (i 1).isLt
  have hi2 : (i 2).val < 128 := (i 2).isLt
  have hN : cfg0.N = 32 := N_0
  obtain ⟨t, ht⟩ : ∃ t : Fin cfg0.N, t.val = 8 * (i 0).val + (i 1).val / 256 := ⟨⟨8 * (i 0).val + (i 1).val / 256, by omega⟩, rfl⟩
  obtain ⟨h0, h1, h2⟩ := (idx_out0 t).2.2.2
  refine ⟨t, flush0_12 t, ?_⟩
  rw [mem_blk0_12]
  intro a
  match a with
  | ⟨0, _⟩ =>
    show win0_12.index t (0 : Fin 3) * 1 ≤ (i 0).val ∧ (i 0).val < win0_12.index t (0 : Fin 3) * 1 + 1
    rw [h0]; omega
  | ⟨1, _⟩ =>
    show win0_12.index t (1 : Fin 3) * 256 ≤ (i 1).val ∧ (i 1).val < win0_12.index t (1 : Fin 3) * 256 + 256
    rw [h1]; omega
  | ⟨2, _⟩ =>
    show win0_12.index t (2 : Fin 3) * 128 ≤ (i 2).val ∧ (i 2).val < win0_12.index t (2 : Fin 3) * 128 + 128
    rw [h2]; omega

end R0Value

open R0Value

/-! ## The four arrays after the region -/

/-- The gate: features 0 … 2047 of the activated projection. -/
theorem arrAt0_9 (c : Dev nD) :
    (dat0 (F := Ideal) V c).arrAt 9 cfg0.N
      = Cert.Spec.Uarr (V c main_arg0) (V c main_arg1) (V c main_arg2) (V c main_v0) (V c main_arg4) :=
  (dat0 V c).arrAt_eq_of_cover 9 _ (fun t _ => flushed0_9_eq V c t) cover0_9
/-- The values: features 2048 … 4095. -/
theorem arrAt0_10 (c : Dev nD) :
    (dat0 (F := Ideal) V c).arrAt 10 cfg0.N
      = Cert.Spec.Varr (V c main_arg0) (V c main_arg1) (V c main_arg2) (V c main_v0) (V c main_arg4) :=
  (dat0 V c).arrAt_eq_of_cover 10 _ (fun t _ => flushed0_10_eq V c t) cover0_10
/-- The queries. -/
theorem arrAt0_11 (c : Dev nD) :
    (dat0 (F := Ideal) V c).arrAt 11 cfg0.N
      = Cert.Spec.Qarr (V c main_arg0) (V c main_arg1) (V c main_arg2) (V c main_v0) (V c main_arg4) (V c main_arg7) (V c main_arg8) :=
  (dat0 V c).arrAt_eq_of_cover 11 _ (fun t _ => flushed0_11_eq V c t) cover0_11
/-- The keys. -/
theorem arrAt0_12 (c : Dev nD) :
    (dat0 (F := Ideal) V c).arrAt 12 cfg0.N
      = Cert.Spec.Karr (V c main_arg0) (V c main_arg1) (V c main_arg2) (V c main_v0) (V c main_arg4) (V c main_arg9) (V c main_arg10) :=
  (dat0 V c).arrAt_eq_of_cover 12 _ (fun t _ => flushed0_12_eq V c t) cover0_12

end Cert.KernelIdeal.Hand

end
-- ==== Proof.R1Value.lean ====
/-
  What the second region leaves in its output array, at the exact instance: the attention half of the
  specification, as ONE function of the region's seven input arrays.

  A point (b, qi, ki) adds key tile ki's weighted values to the carried scratch; after ki = 3 the scratch of rows
  512 qi … 512 qi + 511 holds the sum over all 2048 keys (four tiles of 512, in order, onto a zero block), and the
  stored block is x plus the gated sum projected back plus the bias. Only the points with ki = 3 write back; their
  16 blocks tile the array.
-/
import proofs.«124477_j41326175322889_1_alg».proof.Proof.R1
import proofs.«124477_j41326175322889_1_alg».proof.Proof.SpecArr
import proofs.«124477_j41326175322889_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

namespace R1Value

/-! ## The three matrix products' coordinate facts -/

theorem dotQK_l0 (i : S512x512.Idx) (q : dot_S512x128_S128x512_S512x512_1_0_0_1_n_n.contr.Idx) :
    (dot_S512x128_S128x512_S512x512_1_0_0_1_n_n.lhsIdx i q 0).val = (i 0).val := by
  unfold DotDims.lhsIdx
  rw [dif_neg (show ¬(0 : Fin S512x128.rank) ∈ dot_S512x128_S128x512_S512x512_1_0_0_1_n_n.lhsBatch by decide), dif_pos (show (0 : Fin S512x128.rank) ∈ dot_S512x128_S128x512_S512x512_1_0_0_1_n_n.lhsNonContracting by decide)]
  rfl
theorem dotQK_l1 (i : S512x512.Idx) (q : dot_S512x128_S128x512_S512x512_1_0_0_1_n_n.contr.Idx) :
    (dot_S512x128_S128x512_S512x512_1_0_0_1_n_n.lhsIdx i q 1).val = (q ⟨0, by decide⟩).val :=
  dot_S512x128_S128x512_S512x512_1_0_0_1_n_n.lhsIdx_val_of_single rfl i q
theorem dotQK_r0 (i : S512x512.Idx) (q : dot_S512x128_S128x512_S512x512_1_0_0_1_n_n.contr.Idx) :
    (dot_S512x128_S128x512_S512x512_1_0_0_1_n_n.rhsIdx i q 0).val = (q ⟨0, by decide⟩).val :=
  dot_S512x128_S128x512_S512x512_1_0_0_1_n_n.rhsIdx_val_of_single rfl i q
theorem dotQK_r1 (i : S512x512.Idx) (q : dot_S512x128_S128x512_S512x512_1_0_0_1_n_n.contr.Idx) :
    (dot_S512x128_S128x512_S512x512_1_0_0_1_n_n.rhsIdx i q 1).val = (i 1).val := by
  unfold DotDims.rhsIdx
  rw [dif_neg (show ¬(1 : Fin S128x512.rank) ∈ dot_S512x128_S128x512_S512x512_1_0_0_1_n_n.rhsBatch by decide), dif_pos (show (1 : Fin S128x512.rank) ∈ dot_S512x128_S128x512_S512x512_1_0_0_1_n_n.rhsNonContracting by decide)]
  rfl

theorem dotAV_l0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem dotAV_l1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem dotAV_r0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem dotAV_r1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

theorem dotGW_l0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem dotGW_l1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem dotGW_r0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem dotGW_r1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-! ## The payloads at an index -/

/-- The scaled score of query row `r` of one block on key row `j` of another. -/
def sc (q k : Vec Ideal S1x512x128 .bf16) (r j : Fin 512) : EReal :=
  (∑ s : Fin 128, q (ix3 0 r s) * k (ix3 0 j s)) * Ideal.ofBits .f32 0x3A000000#32

/-- The zero block. -/
theorem pay1_apply (r : Fin 512) (e : Fin 2048) : (k1_pay1 (F := Ideal)) (ix2 r e) = 0 := by
  unfold k1_pay1
  refine (congrFun (shapeCast_self _ _) (ix2 r e)).trans ?_
  exact Ideal.ofBits_zero_f32

/-- A score block's entry: the query row against the key row. -/
theorem score_apply (q k : Vec Ideal S1x512x128 .bf16) (r j : Fin 512) :
    matmul (φ₁ := .bf16) (φ₂ := .bf16) dot_S512x128_S128x512_S512x512_1_0_0_1_n_n none
        (shapeCast S512x128 q Gen.shapeCasts_S1x512x128_S512x128)
        (transpose S128x512 [1, 0] (shapeCast S512x128 k Gen.shapeCasts_S1x512x128_S512x128) Gen.transposes_S512x128_p1_0_S128x512)
        (constant (F := Ideal) S512x512 .f32 0x00000000#32) (ix2 r j)
      = ∑ s : Fin 128, q (ix3 0 r s) * k (ix3 0 j s) := by
  refine (Cert.Lib.Dot2.matmul_zero_ix2 dot_S512x128_S128x512_S512x512_1_0_0_1_n_n none rfl rfl dotQK_l0 dotQK_l1 dotQK_r0 dotQK_r1 _ _ r j).trans ?_
  refine Finset.sum_congr rfl fun s _ => ?_
  refine congrArg₂ (· * ·) (shapeCast_1ab_ab_apply q _ r s) ?_
  refine (transpose_ix2_apply _ _ s j).trans ?_
  exact shapeCast_1ab_ab_apply k _ j s

/-- The square of a positive part, under a change of the score and of the spelling of zero. -/
theorem sqpos_congr {x y c z : EReal} (hx : x = y) (hz : z = 0) :
    max (x * c) z * max (x * c) z = max (y * c) 0 * max (y * c) 0 := by subst hx hz; rfl

/-- One key tile's weighted values added to the carried block. -/
theorem pay2_apply (q k : Vec Ideal S1x512x128 .bf16) (v : Vec Ideal S1x512x2048 .bf16) (a : Vec Ideal S512x2048 .f32)
    (r : Fin 512) (e : Fin 2048) :
    k1_pay2 q k v a (ix2 r e)
      = a (ix2 r e) + ∑ j : Fin 512, (max (sc q k r j) 0 * max (sc q k r j) 0) * v (ix3 0 j e) := by
  unfold k1_pay2
  refine (congrFun (shapeCast_self _ _) (ix2 r e)).trans ?_
  refine congrArg (a (ix2 r e) + ·) ?_
  refine (Cert.Lib.Dot2.matmul_zero_ix2 dot_S512x512_S512x2048_S512x2048_1_0_0_1_n_n none rfl rfl dotAV_l0 dotAV_l1 dotAV_r0 dotAV_r1 _ _ r e).trans ?_
  refine Finset.sum_congr rfl fun j _ => ?_
  refine congrArg₂ (· * ·) ?_ (shapeCast_1ab_ab_apply v _ j e)
  unfold sc
  exact sqpos_congr (score_apply q k r j) Ideal.ofBits_zero_f32

/-- The stored block: x plus the gated block projected back, plus the bias. -/
theorem pay3_apply (u : Vec Ideal S1x512x2048 .bf16) (a : Vec Ideal S512x2048 .f32) (W : Vec Ideal S2048x1024 .bf16)
    (x : Vec Ideal S1x512x1024 .f32) (b : Vec Ideal S1024 .f32) (r : Fin 512) (d : Fin 1024) :
    k1_pay3 u a W x b (ix3 0 r d)
      = x (ix3 0 r d) + (∑ e : Fin 2048, (u (ix3 0 r e) * a (ix2 r e)) * W (ix2 e d)) + b (ix1 d) := by
  unfold k1_pay3
  refine (shapeCast_ab_1ab_apply _ _ 0 r d).trans ?_
  refine congrArg₂ (· + ·) (congrArg₂ (· + ·) (shapeCast_1ab_ab_apply x _ r d) ?_) ?_
  · refine (Cert.Lib.Dot2.matmul_zero_ix2 dot_S512x2048_S2048x1024_S512x1024_1_0_0_1_n_n none rfl rfl dotGW_l0 dotGW_l1 dotGW_r0 dotGW_r1 _ _ r d).trans ?_
    refine Finset.sum_congr rfl fun e _ => ?_
    refine congrArg₂ (· * ·) (congrArg (· * a (ix2 r e)) (shapeCast_1ab_ab_apply u _ r e)) ?_
    exact congrFun (shapeCast_self W _) (ix2 e d)
  · refine (broadcastTo_1b_ab_apply _ _ r d).trans ?_
    exact shapeCast_a_1a_apply b _ 0 d

/-! ## The arrays and the blocks, at their literal types -/

/-- The queries, as the region finds them. -/
abbrev aQ (c : Dev nD) : Vec Ideal S4x2048x128 .bf16 := V c main_v2_2
/-- The keys. -/
abbrev aK (c : Dev nD) : Vec Ideal S4x2048x128 .bf16 := V c main_v2_3
/-- The values. -/
abbrev aV (c : Dev nD) : Vec Ideal S4x2048x2048 .bf16 := V c main_v2_1
/-- The gate. -/
abbrev aU (c : Dev nD) : Vec Ideal S4x2048x2048 .bf16 := V c main_v2_0
/-- The residual input x. -/
abbrev aX (c : Dev nD) : Vec Ideal S4x2048x1024 .f32 := V c main_arg0
/-- The output projection. -/
abbrev aW (c : Dev nD) : Vec Ideal S2048x1024 .bf16 := V c main_v1
/-- The output bias. -/
abbrev aB (c : Dev nD) : Vec Ideal S1024 .f32 := V c main_arg6

/-- The query block of point `t`. -/
abbrev bQ (c : Dev nD) (t : Fin cfg1.N) : Vec Ideal S1x512x128 .bf16 := iblk1 V c 0 t
/-- The key block of point `t`. -/
abbrev bK (c : Dev nD) (t : Fin cfg1.N) : Vec Ideal S1x512x128 .bf16 := iblk1 V c 1 t
/-- The value block of point `t`. -/
abbrev bV (c : Dev nD) (t : Fin cfg1.N) : Vec Ideal S1x512x2048 .bf16 := iblk1 V c 2 t
/-- The gate block of point `t`. -/
abbrev bU (c : Dev nD) (t : Fin cfg1.N) : Vec Ideal S1x512x2048 .bf16 := iblk1 V c 3 t
/-- The block of x at point `t`. -/
abbrev bX (c : Dev nD) (t : Fin cfg1.N) : Vec Ideal S1x512x1024 .f32 := iblk1 V c 4 t
/-- The projection as point `t` sees it (the whole matrix). -/
abbrev bW (c : Dev nD) (t : Fin cfg1.N) : Vec Ideal S2048x1024 .bf16 := iblk1 V c 5 t
/-- The bias as point `t` sees it (the whole vector). -/
abbrev bB (c : Dev nD) (t : Fin cfg1.N) : Vec Ideal S1024 .f32 := iblk1 V c 6 t

/-! ## Where a point's blocks sit: position `n = 16 b + 4 qi + ki` -/

/-- The batch of grid position `n`. -/
def bat (n : Nat) : Fin 4 := ⟨n / 16 % 4, Nat.mod_lt _ (by decide)⟩
/-- Row `r` of the 512-row tile `m mod 4` of a batch's 2048 rows. -/
def row (m : Nat) (r : Fin 512) : Fin 2048 := ⟨512 * (m % 4) + r.val, by have := r.isLt; omega⟩

theorem row_mod (m : Nat) (r : Fin 512) : row (m % 4) r = row m r := by
  unfold row; exact Fin.ext (by show 512 * (m % 4 % 4) + r.val = 512 * (m % 4) + r.val; rw [Nat.mod_mod])

/-- The windows' index maps, decided over the grid. -/
theorem idx1_0 : ∀ t : Fin cfg1.N, win1_0.index t (0 : Fin 3) = t.val / 16 % 4 ∧ win1_0.index t (1 : Fin 3) = t.val / 4 % 4 ∧ win1_0.index t (2 : Fin 3) = 0 :=
  (by decide +kernel : ∀ t : Fin grid1.N, _)
theorem idx1_1 : ∀ t : Fin cfg1.N, win1_1.index t (0 : Fin 3) = t.val / 16 % 4 ∧ win1_1.index t (1 : Fin 3) = t.val % 4 ∧ win1_1.index t (2 : Fin 3) = 0 :=
  (by decide +kernel : ∀ t : Fin grid1.N, _)
theorem idx1_2 : ∀ t : Fin cfg1.N, win1_2.index t (0 : Fin 3) = t.val / 16 % 4 ∧ win1_2.index t (1 : Fin 3) = t.val % 4 ∧ win1_2.index t (2 : Fin 3) = 0 :=
  (by decide +kernel : ∀ t : Fin grid1.N, _)
theorem idx1_3 : ∀ t : Fin cfg1.N, win1_3.index t (0 : Fin 3) = t.val / 16 % 4 ∧ win1_3.index t (1 : Fin 3) = t.val / 4 % 4 ∧ win1_3.index t (2 : Fin 3) = 0 :=
  (by decide +kernel : ∀ t : Fin grid1.N, _)
theorem idx1_4 : ∀ t : Fin cfg1.N, win1_4.index t (0 : Fin 3) = t.val / 16 % 4 ∧ win1_4.index t (1 : Fin 3) = t.val / 4 % 4 ∧ win1_4.index t (2 : Fin 3) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 1) = 0 :=
  (by decide +kernel : ∀ t : Fin grid1.N, _)
theorem idx1_7 : ∀ t : Fin cfg1.N, win1_7.index t (0 : Fin 3) = t.val / 16 % 4 ∧ win1_7.index t (1 : Fin 3) = t.val / 4 % 4 ∧ win1_7.index t (2 : Fin 3) = 0 :=
  (by decide +kernel : ∀ t : Fin grid1.N, _)

/-- A query block's entry in the array: batch `b`, row `r` of tile `qi`. -/
theorem bQ_apply (c : Dev nD) (t : Fin cfg1.N) (r : Fin 512) (s : Fin 128) :
    bQ V c t (ix3 0 r s) = aQ V c (ix3 (bat t.val) (row (t.val / 4) r) s) := by
  obtain ⟨e0, e1, e2⟩ := idx1_0 t
  show aQ V c (((cfg1.win 0).blk t).view.emb (ix3 0 r s)) = _
  refine congrArg (aQ V c) (funext fun a => Fin.ext ?_)
  match a with
  | ⟨0, _⟩ => show win1_0.index t (0 : Fin 3) * 1 + 1 * 0 = t.val / 16 % 4; omega
  | ⟨1, _⟩ => show win1_0.index t (1 : Fin 3) * 512 + 1 * r.val = 512 * (t.val / 4 % 4) + r.val; omega
  | ⟨2, _⟩ => show win1_0.index t (2 : Fin 3) * 128 + 1 * s.val = s.val; omega

/-- A key block's entry in the array: batch `b`, row `j` of tile `ki`. -/
theorem bK_apply (c : Dev nD) (t : Fin cfg1.N) (j : Fin 512) (s : Fin 128) :
    bK V c t (ix3 0 j s) = aK V c (ix3 (bat t.val) (row t.val j) s) := by
  obtain ⟨e0, e1, e2⟩ := idx1_1 t
  show aK V c (((cfg1.win 1).blk t).view.emb (ix3 0 j s)) = _
  refine congrArg (aK V c) (funext fun a => Fin.ext ?_)
  match a with
  | ⟨0, _⟩ => show win1_1.index t (0 : Fin 3) * 1 + 1 * 0 = t.val / 16 % 4; omega
  | ⟨1, _⟩ => show win1_1.index t (1 : Fin 3) * 512 + 1 * j.val = 512 * (t.val % 4) + j.val; omega
  | ⟨2, _⟩ => show win1_1.index t (2 : Fin 3) * 128 + 1 * s.val = s.val; omega

/-- A value block's entry in the array: batch `b`, row `j` of tile `ki`. -/
theorem bV_apply (c : Dev nD) (t : Fin cfg1.N) (j : Fin 512) (e : Fin 2048) :
    bV V c t (ix3 0 j e) = aV V c (ix3 (bat t.val) (row t.val j) e) := by
  obtain ⟨e0, e1, e2⟩ := idx1_2 t
  show aV V c (((cfg1.win 2).blk t).view.emb (ix3 0 j e)) = _
  refine congrArg (aV V c) (funext fun a => Fin.ext ?_)
  match a with
  | ⟨0, _⟩ => show win1_2.index t (0 : Fin 3) * 1 + 1 * 0 = t.val / 16 % 4; omega
  | ⟨1, _⟩ => show win1_2.index t (1 : Fin 3) * 512 + 1 * j.val = 512 * (t.val % 4) + j.val; omega
  | ⟨2, _⟩ => show win1_2.index t (2 : Fin 3) * 2048 + 1 * e.val = e.val; omega

/-- A gate block's entry in the array: batch `b`, row `r` of tile `qi`. -/
theorem bU_apply (c : Dev nD) (t : Fin cfg1.N) (r : Fin 512) (e : Fin 2048) :
    bU V c t (ix3 0 r e) = aU V c (ix3 (bat t.val) (row (t.val / 4) r) e) := by
  obtain ⟨e0, e1, e2⟩ := idx1_3 t
  show aU V c (((cfg1.win 3).blk t).view.emb (ix3 0 r e)) = _
  refine congrArg (aU V c) (funext fun a => Fin.ext ?_)
  match a with
  | ⟨0, _⟩ => show win1_3.index t (0 : Fin 3) * 1 + 1 * 0 = t.val / 16 % 4; omega
  | ⟨1, _⟩ => show win1_3.index t (1 : Fin 3) * 512 + 1 * r.val = 512 * (t.val / 4 % 4) + r.val; omega
  | ⟨2, _⟩ => show win1_3.index t (2 : Fin 3) * 2048 + 1 * e.val = e.val; omega

/-- An entry of the block of x in the array: batch `b`, row `r` of tile `qi`. -/
theorem bX_apply (c : Dev nD) (t : Fin cfg1.N) (r : Fin 512) (d : Fin 1024) :
    bX V c t (ix3 0 r d) = aX V c (ix3 (bat t.val) (row (t.val / 4) r) d) := by
  obtain ⟨e0, e1, e2⟩ := idx1_4 t
  show aX V c (((cfg1.win 4).blk t).view.emb (ix3 0 r d)) = _
  refine congrArg (aX V c) (funext fun a => Fin.ext ?_)
  match a with
  | ⟨0, _⟩ => show win1_4.index t (0 : Fin 3) * 1 + 1 * 0 = t.val / 16 % 4; omega
  | ⟨1, _⟩ => show win1_4.index t (1 : Fin 3) * 512 + 1 * r.val = 512 * (t.val / 4 % 4) + r.val; omega
  | ⟨2, _⟩ => show win1_4.index t (2 : Fin 3) * 1024 + 1 * d.val = d.val; omega

/-- Every point sees the whole projection. -/
theorem bW_apply (c : Dev nD) (t : Fin cfg1.N) (e : Fin 2048) (d : Fin 1024) :
    bW V c t (ix2 e d) = aW V c (ix2 e d) := by
  obtain ⟨e0, e1⟩ := idx1_5 t
  show aW V c (((cfg1.win 5).blk t).view.emb (ix2 e d)) = _
  refine congrArg (aW V c) (funext fun a => Fin.ext ?_)
  match a with
  | ⟨0, _⟩ => show win1_5.index t (0 : Fin 2) * 2048 + 1 * e.val = e.val; omega
  | ⟨1, _⟩ => show win1_5.index t (1 : Fin 2) * 1024 + 1 * d.val = d.val; omega

/-- Every point sees the whole bias. -/
theorem bB_apply (c : Dev nD) (t : Fin cfg1.N) (d : Fin 1024) :
    bB V c t (ix1 d) = aB V c (ix1 d) := by
  have e0 := idx1_6 t
  show aB V c (((cfg1.win 6).blk t).view.emb (ix1 d)) = _
  refine congrArg (aB V c) (funext fun a => Fin.ext ?_)
  match a with
  | ⟨0, _⟩ => show win1_6.index t (0 : Fin 1) * 1024 + 1 * d.val = d.val; omega

/-! ## The carried block, point by point -/

/-- The scaled score of row `l` on row `j` of batch `b`. -/
def scA (Q K : Vec Ideal S4x2048x128 .bf16) (b : Fin 4) (l j : Fin 2048) : EReal :=
  (∑ s : Fin 128, Q (ix3 b l s) * K (ix3 b j s)) * Ideal.ofBits .f32 0x3A000000#32

/-- Key row `j`'s weighted value for query row `l` of batch `b`, at feature `e`. -/
def wv (Q K : Vec Ideal S4x2048x128 .bf16) (Vv : Vec Ideal S4x2048x2048 .bf16) (b : Fin 4) (l : Fin 2048) (e : Fin 2048)
    (j : Fin 2048) : EReal :=
  (max (scA Q K b l j) 0 * max (scA Q K b l j) 0) * Vv (ix3 b j e)

/-- Key tile `m`'s weighted values for query row `l` of batch `b`, at feature `e`. -/
def tile (Q K : Vec Ideal S4x2048x128 .bf16) (Vv : Vec Ideal S4x2048x2048 .bf16) (b : Fin 4) (l : Fin 2048) (e : Fin 2048)
    (m : Nat) : EReal :=
  ∑ j : Fin 512, wv Q K Vv b l e (row m j)

theorem tile_mod (Q K : Vec Ideal S4x2048x128 .bf16) (Vv : Vec Ideal S4x2048x2048 .bf16) (b : Fin 4) (l : Fin 2048)
    (e : Fin 2048) (m : Nat) : tile Q K Vv b l e (m % 4) = tile Q K Vv b l e m := by
  unfold tile
  exact Finset.sum_congr rfl fun j _ => congrArg (wv Q K Vv b l e) (row_mod m j)

/-- The body's update at point `t`: the carried block plus key tile `ki`'s weighted values for the rows of tile `qi`. -/
theorem pay2_point (c : Dev nD) (t : Fin cfg1.N) (a : Vec Ideal S512x2048 .f32) (r : Fin 512) (e : Fin 2048) :
    k1_pay2 (bQ V c t) (bK V c t) (bV V c t) a (ix2 r e)
      = a (ix2 r e) + tile (aQ V c) (aK V c) (aV V c) (bat t.val) (row (t.val / 4) r) e t.val := by
  refine (pay2_apply (bQ V c t) (bK V c t) (bV V c t) a r e).trans ?_
  refine congrArg (a (ix2 r e) + ·) ?_
  unfold tile
  refine Finset.sum_congr rfl fun j _ => ?_
  have hs : sc (bQ V c t) (bK V c t) r j = scA (aQ V c) (aK V c) (bat t.val) (row (t.val / 4) r) (row t.val j) := by
    unfold sc scA
    refine congrArg (· * Ideal.ofBits .f32 0x3A000000#32) (Finset.sum_congr rfl fun s _ => ?_)
    exact congrArg₂ (· * ·) (bQ_apply V c t r s) (bK_apply V c t j s)
  unfold wv
  exact congrArg₂ (· * ·) (congrArg (fun x => max x 0 * max x 0) hs) (bV_apply V c t j e)

/-- After position `n` the carried block holds, for the rows of tile `qi`, the key tiles `0 … ki`'s weighted values, added
    in order onto zero. -/
theorem scr1_eq (c : Dev nD) : ∀ (n : Nat) (hn : n < cfg1.N) (r : Fin 512) (e : Fin 2048),
    scr1 V c n hn (ix2 r e)
      = ∑ m ∈ Finset.range (n % 4 + 1), tile (aQ V c) (aK V c) (aV V c) (bat n) (row (n / 4) r) e m := by
  intro n
  induction n with
  | zero =>
    intro hn r e
    refine (congrFun (scr1_reset V c ⟨0, hn⟩ rfl) (ix2 r e)).trans ?_
    refine (pay2_point V c ⟨0, hn⟩ (k1_pay1 (F := Ideal)) r e).trans ?_
    rw [pay1_apply, zero_add]
    show _ = ∑ m ∈ Finset.range 1, _
    rw [Finset.sum_range_one]
  | succ n ih =>
    intro hn r e
    by_cases h0 : (n + 1) % 4 = 0
    · refine (congrFun (scr1_reset V c ⟨n + 1, hn⟩ h0) (ix2 r e)).trans ?_
      refine (pay2_point V c ⟨n + 1, hn⟩ (k1_pay1 (F := Ideal)) r e).trans ?_
      rw [pay1_apply, zero_add, h0, Finset.sum_range_one]
      show tile _ _ _ _ _ _ (n + 1) = _
      rw [← tile_mod, h0]
    · refine (congrFun (scr1_acc V c ⟨n + 1, hn⟩ h0) (ix2 r e)).trans ?_
      refine (pay2_point V c ⟨n + 1, hn⟩ (scr1 V c n (Nat.lt_of_succ_lt hn)) r e).trans ?_
      rw [ih (Nat.lt_of_succ_lt hn) r e]
      have hq : (n + 1) / 4 = n / 4 := by omega
      have hb : bat (n + 1) = bat n := by unfold bat; exact Fin.ext (by show (n + 1) / 16 % 4 = n / 16 % 4; omega)
      have hk : (n + 1) % 4 = n % 4 + 1 := by omega
      show _ + tile _ _ _ (bat (n + 1)) (row ((n + 1) / 4) r) e (n + 1) = _
      rw [hb, hq, hk, Finset.sum_range_succ _ (n % 4 + 1), ← tile_mod _ _ _ _ _ _ (n + 1), hk]

/-! ## The four tiles are the whole batch -/

/-- A sum over the 2048 rows, tile by tile. -/
theorem sum_tiles (f : Fin 2048 → EReal) :
    ∑ m ∈ Finset.range 4, ∑ j : Fin 512, f (row m j) = ∑ j : Fin 2048, f j := by
  rw [← Fin.sum_univ_eq_sum_range (fun m => ∑ j : Fin 512, f (row m j)) 4]
  rw [← Equiv.sum_comp (finProdFinEquiv : Fin 4 × Fin 512 ≃ Fin 2048) f, Fintype.sum_prod_type]
  refine Finset.sum_congr rfl fun m _ => Finset.sum_congr rfl fun j _ => congrArg f (Fin.ext ?_)
  show 512 * (m.val % 4) + j.val = j.val + 512 * m.val
  have := m.isLt
  omega

/-! ## The stored block, and the array -/

/-- What a last key tile stores, at row `r` and feature `d`: the specification at the block's place in the array. -/
theorem out1_7_apply (c : Dev nD) (t : Fin cfg1.N) (h3 : t.val % 4 = 3) (r : Fin 512) (d : Fin 1024) :
    out1_7 V c t (ix3 0 r d)
      = Cert.Spec.attnOut (aQ V c) (aK V c) (aV V c) (aU V c) (aX V c) (aW V c) (aB V c)
          (ix3 (bat t.val) (row (t.val / 4) r) d) := by
  unfold out1_7
  refine (pay3_apply (bU V c t) (scr1 V c t.val t.isLt) (bW V c t) (bX V c t) (bB V c t) r d).trans ?_
  refine congrArg₂ (· + ·) (congrArg₂ (· + ·) (bX_apply V c t r d) ?_) (bB_apply V c t d)
  refine Finset.sum_congr rfl fun e _ => ?_
  refine congrArg₂ (· * ·) (congrArg₂ (· * ·) (bU_apply V c t r e) ?_) (bW_apply V c t e d)
  refine (scr1_eq V c t.val t.isLt r e).trans ?_
  rw [h3]
  exact sum_tiles (wv (aQ V c) (aK V c) (aV V c) (bat t.val) (row (t.val / 4) r) e)

/-- An index of the array is in point `t`'s output block iff each coordinate is in the block's range on its axis. -/
theorem mem_blk1_7 (t : Fin cfg1.N) (i : S4x2048x1024.Idx) :
    i ∈ ((cfg1.win 7).blk t).view.set
      ↔ ∀ a : Fin 3, win1_7.index t a * S1x512x1024.size a ≤ (i a).val
          ∧ (i a).val < win1_7.index t a * S1x512x1024.size a + S1x512x1024.size a := by
  show i ∈ ((View.whole main_v3).slice (win1_7.rect t)).set ↔ _
  rw [View.set_slice_whole, Rect.mem_set_unit]
  exact Iff.rfl

/-- What a last key tile writes back is its block of the specification's array. -/
theorem flushed1_7 (c : Dev nD) (t : Fin cfg1.N) (hf : (cfg1.win 7).flush t = true) :
    (dat1 V c).flushed 7 t
      = ((cfg1.win 7).blk t).view.read (Elt Ideal)
          (Cert.Spec.attnOut (aQ V c) (aK V c) (aV V c) (aU V c) (aX V c) (aW V c) (aB V c)) := by
  have h3 : t.val % 4 = 3 := (flush1_7 t).mp hf
  obtain ⟨e0, e1, e2⟩ := idx1_7 t
  show (cfg1.win 7).cut (grid1.coords t) ((dat1 V c).after 7 t) = _
  rw [after1_7]
  funext y
  obtain ⟨u0, r, d, rfl⟩ : ∃ (u0 : Fin 1) (r : Fin 512) (d : Fin 1024), y = ix3 u0 r d := ⟨y 0, y 1, y 2, eq_ix3 y⟩
  obtain rfl : u0 = 0 := Subsingleton.elim _ _
  show out1_7 V c t (ix3 0 r d)
    = Cert.Spec.attnOut (aQ V c) (aK V c) (aV V c) (aU V c) (aX V c) (aW V c) (aB V c)
        (((cfg1.win 7).blk t).view.emb (ix3 0 r d))
  refine (out1_7_apply V c t h3 r d).trans (congrArg _ (funext fun a => Fin.ext ?_))
  match a with
  | ⟨0, _⟩ => show t.val / 16 % 4 = win1_7.index t (0 : Fin 3) * 1 + 1 * 0; omega
  | ⟨1, _⟩ => show 512 * (t.val / 4 % 4) + r.val = win1_7.index t (1 : Fin 3) * 512 + 1 * r.val; omega
  | ⟨2, _⟩ => show d.val = win1_7.index t (2 : Fin 3) * 1024 + 1 * d.val; omega

/-- Row `l` of batch `b` lies in the block of the last key tile of query tile `l / 512`. -/
theorem cover1_7 (i : S4x2048x1024.Idx) :
    ∃ t : Fin cfg1.N, (cfg1.win 7).flush t = true ∧ i ∈ ((cfg1.win 7).blk t).view.set := by
  have hN : cfg1.N = 64 := N_1
  have h0 : (i 0).val < 4 := (i 0).isLt
  have h1 : (i 1).val < 2048 := (i 1).isLt
  have h2 : (i 2).val < 1024 := (i 2).isLt
  have ht : 16 * (i 0).val + 4 * ((i 1).val / 512) + 3 < cfg1.N := by omega
  obtain ⟨e0, e1, e2⟩ := idx1_7 ⟨16 * (i 0).val + 4 * ((i 1).val / 512) + 3, ht⟩
  refine ⟨⟨16 * (i 0).val + 4 * ((i 1).val / 512) + 3, ht⟩, (flush1_7 _).mpr ?_, ?_⟩
  · show (16 * (i 0).val + 4 * ((i 1).val / 512) + 3) % 4 = 3
    omega
  · rw [mem_blk1_7]
    intro a
    match a with
    | ⟨0, _⟩ =>
      show win1_7.index ⟨16 * (i 0).val + 4 * ((i 1).val / 512) + 3, ht⟩ (0 : Fin 3) * 1 ≤ (i 0).val
        ∧ (i 0).val < win1_7.index ⟨16 * (i 0).val + 4 * ((i 1).val / 512) + 3, ht⟩ (0 : Fin 3) * 1 + 1
      rw [e0]
      show (16 * (i 0).val + 4 * ((i 1).val / 512) + 3) / 16 % 4 * 1 ≤ (i 0).val
        ∧ (i 0).val < (16 * (i 0).val + 4 * ((i 1).val / 512) + 3) / 16 % 4 * 1 + 1
      omega
    | ⟨1, _⟩ =>
      show win1_7.index ⟨16 * (i 0).val + 4 * ((i 1).val / 512) + 3, ht⟩ (1 : Fin 3) * 512 ≤ (i 1).val
        ∧ (i 1).val < win1_7.index ⟨16 * (i 0).val + 4 * ((i 1).val / 512) + 3, ht⟩ (1 : Fin 3) * 512 + 512
      rw [e1]
      show (16 * (i 0).val + 4 * ((i 1).val / 512) + 3) / 4 % 4 * 512 ≤ (i 1).val
        ∧ (i 1).val < (16 * (i 0).val + 4 * ((i 1).val / 512) + 3) / 4 % 4 * 512 + 512
      omega
    | ⟨2, _⟩ =>
      show win1_7.index ⟨16 * (i 0).val + 4 * ((i 1).val / 512) + 3, ht⟩ (2 : Fin 3) * 1024 ≤ (i 2).val
        ∧ (i 2).val < win1_7.index ⟨16 * (i 0).val + 4 * ((i 1).val / 512) + 3, ht⟩ (2 : Fin 3) * 1024 + 1024
      rw [e2]
      omega

end R1Value

open R1Value

/-- The result array: the attention half of the specification on the arrays q, k, v, u, x, the output projection and
    its bias, as the region finds them. -/
theorem arrAt1_7 (c : Dev nD) :
    (dat1 (F := Ideal) V c).arrAt 7 cfg1.N
      = Cert.Spec.attnOut (V c main_v2_2) (V c main_v2_3) (V c main_v2_1) (V c main_v2_0) (V c main_arg0) (V c main_v1) (V c main_arg6) := by
  exact (dat1 (F := Ideal) V c).arrAt_eq_of_cover 7
    (Cert.Spec.attnOut (aQ V c) (aK V c) (aV V c) (aU V c) (aX V c) (aW V c) (aB V c))
    (fun t hf => flushed1_7 V c t hf) cover1_7

end Cert.KernelIdeal.Hand

end
-- ==== Proof.Result.lean ====
/-
  The idealized kernel's result array is the specification's function of the argument arrays.

  The second region leaves in the result array the attention half of the specification on the arrays it is entered
  with. Those are: the first region's four output arrays, which are the specification's u, v, q and k of the arrays
  the FIRST region is entered with; x and the output bias, which nothing before wrote; and the output matrix after
  the host's change of float format. The first region is entered with the arguments, and the projection matrix after
  the host's change of float format. A change of float format is the identity on the extended reals, so every array
  walks back to an argument, and the attention half on the specification's u, v, q, k is the whole specification.
-/
import proofs.«124477_j41326175322889_1_alg».proof.Proof.Run
import proofs.«124477_j41326175322889_1_alg».proof.Proof.R0Value
import proofs.«124477_j41326175322889_1_alg».proof.Proof.R1Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-! ## The first region's entry contents, read back to the launch memory -/

/-- The projection matrix the first region reads is the host's cast of the argument, and a change of float format
    is the identity on the extended reals. -/
theorem V1_main_v0 (c : Dev nD) :
    (V1 (F := Ideal) m c main_v0 : S1024x4224.Idx → EReal) = (m ((c : Thread nD τ).loc main_arg3) : S1024x4224.Idx → EReal) := by
  show (StableHlo.after hostOps0 (Gen.V0 m c) (Proc.devRef .tc main_v0) : S1024x4224.Idx → EReal) = _
  after_results
  rfl

/-- The output matrix the second region reads is the host's cast of the argument. -/
theorem V1_main_v1 (c : Dev nD) :
    (V1 (F := Ideal) m c main_v1 : S2048x1024.Idx → EReal) = (m ((c : Thread nD τ).loc main_arg5) : S2048x1024.Idx → EReal) := by
  show (StableHlo.after hostOps0 (Gen.V0 m c) (Proc.devRef .tc main_v1) : S2048x1024.Idx → EReal) = _
  after_results
  rfl

/-- The host casts write only their own results. -/
theorem V1_main_arg0 (c : Dev nD) : V1 (F := Ideal) m c main_arg0 = m ((c : Thread nD τ).loc main_arg0) :=
  Gen.V1_of m c main_arg0 (by decide)
/-- The host casts write only their own results. -/
theorem V1_main_arg1 (c : Dev nD) : V1 (F := Ideal) m c main_arg1 = m ((c : Thread nD τ).loc main_arg1) :=
  Gen.V1_of m c main_arg1 (by decide)
/-- The host casts write only their own results. -/
theorem V1_main_arg2 (c : Dev nD) : V1 (F := Ideal) m c main_arg2 = m ((c : Thread nD τ).loc main_arg2) :=
  Gen.V1_of m c main_arg2 (by decide)
/-- The host casts write only their own results. -/
theorem V1_main_arg4 (c : Dev nD) : V1 (F := Ideal) m c main_arg4 = m ((c : Thread nD τ).loc main_arg4) :=
  Gen.V1_of m c main_arg4 (by decide)
/-- The host casts write only their own results. -/
theorem V1_main_arg6 (c : Dev nD) : V1 (F := Ideal) m c main_arg6 = m ((c : Thread nD τ).loc main_arg6) :=
  Gen.V1_of m c main_arg6 (by decide)
/-- The host casts write only their own results. -/
theorem V1_main_arg7 (c : Dev nD) : V1 (F := Ideal) m c main_arg7 = m ((c : Thread nD τ).loc main_arg7) :=
  Gen.V1_of m c main_arg7 (by decide)
/-- The host casts write only their own results. -/
theorem V1_main_arg8 (c : Dev nD) : V1 (F := Ideal) m c main_arg8 = m ((c : Thread nD τ).loc main_arg8) :=
  Gen.V1_of m c main_arg8 (by decide)
/-- The host casts write only their own results. -/
theorem V1_main_arg9 (c : Dev nD) : V1 (F := Ideal) m c main_arg9 = m ((c : Thread nD τ).loc main_arg9) :=
  Gen.V1_of m c main_arg9 (by decide)
/-- The host casts write only their own results. -/
theorem V1_main_arg10 (c : Dev nD) : V1 (F := Ideal) m c main_arg10 = m ((c : Thread nD τ).loc main_arg10) :=
  Gen.V1_of m c main_arg10 (by decide)

/-! ## The result array is the specification's function of the arguments -/

/-- What the second region's write-backs leave: the attention half of the specification on the first region's four
    arrays, which are the specification's u, v, q, k of the arguments; so the whole specification. -/
theorem result_eq (c : Dev nD) :
    (dat1 (F := Ideal) (V2 m) c).arrAt 7 cfg1.N
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10)) := by
  have h := arrAt1_7 (V2 m) c
  rw [V2_main_v2_2 m c, V2_main_v2_3 m c, V2_main_v2_1 m c, V2_main_v2_0 m c, V2_main_arg0 m c, V2_main_v1 m c, V2_main_arg6 m c,
    arrAt0_11 (V1 m) c, arrAt0_12 (V1 m) c, arrAt0_10 (V1 m) c, arrAt0_9 (V1 m) c] at h
  rw [h, V1_main_arg0 m c, V1_main_arg1 m c, V1_main_arg2 m c, V1_main_arg4 m c, V1_main_arg6 m c, V1_main_arg7 m c, V1_main_arg8 m c, V1_main_arg9 m c, V1_main_arg10 m c, V1_main_v0 m c, V1_main_v1 m c]
  exact Cert.Spec.attnOut_eq_G _ _ _ _ _ _ _ _ _ _ _

end Cert.KernelIdeal.Hand

end
-- ==== Proof.RefValue.lean ====
/-
  The reference, read one operation at a time, computes the specification: its last stage, as a function of the
  eleven argument arrays, is `Cert.Spec.G` of them, index by index.

  The reference normalises each row (a sum over the row divided by 1024, twice), multiplies by the gain and adds the
  shift, contracts with the projection matrix and adds its bias, applies x ↦ x · (1 / (1 + e⁻ˣ)) — which is
  x · logistic x by the definition of the logistic function on the extended reals —, slices u, v and z, forms q and
  k, contracts q with k over the 128 features and divides by 2048 — the product with 2⁻¹¹ on every extended real,
  2048 being a nonzero real —, squares the positive part, contracts with v over all 2048 rows, gates by u,
  contracts with the output matrix, and adds x and the bias. Each host sum starts from the float zero, which is the
  zero of the extended reals.
-/
import proofs.«124477_j41326175322889_1_alg».proof.Defs
import proofs.«124477_j41326175322889_1_alg».proof.Proof.Gen.ReferenceIdeal.Run
import proofs.«124477_j41326175322889_1_alg».proof.Proof.Gen.ReferenceIdeal.Read
import proofs.«124477_j41326175322889_1_alg».proof.Proof.SpecArr
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open scoped BigOperators

open Cert.Spec

/-! ## The float words that are evaluated -/

/-- The word of 1.0 is the extended real 1. -/
theorem word_one : Ideal.ofBits .f32 0x3F800000#32 = 1 := by
  simp [Ideal.ofBits, Ideal.ieee, -EReal.coe_mul]; norm_num

/-- The word of 2048.0 is the real 2048. -/
theorem word_2048 : Ideal.ofBits .f32 0x45000000#32 = ((2048 : ℝ) : EReal) := by
  simp [Ideal.ofBits, Ideal.ieee, -EReal.coe_mul]; norm_num

/-- The word of 2⁻¹¹ is the real 1 / 2048. -/
theorem word_inv2048 : Ideal.ofBits .f32 0x3A000000#32 = ((1 / 2048 : ℝ) : EReal) := by
  simp [Ideal.ofBits, Ideal.ieee, -EReal.coe_mul]; norm_num

/-- Dividing by 2048 is multiplying by 2⁻¹¹, on every extended real: 2048 is a nonzero real. -/
theorem div_2048 (s : EReal) : Ideal.div s Spec.c2048 = s * Spec.cInv2048 := by
  unfold Spec.c2048 Spec.cInv2048
  rw [word_2048, word_inv2048]
  exact Ideal.div_coe (by norm_num) s

/-! ## The normalised row -/

section Norm
variable (x0 : (⟨S4x2048x1024, .f32⟩ : BufTy).Contents (Elt Ideal))
  (x1 x2 : (⟨S1024, .f32⟩ : BufTy).Contents (Elt Ideal))

/-- The row mean: the sum over the row, started from the float zero, divided by 1024. -/
theorem mean_eq (b : Fin 4) (l : Fin 2048) (z : Fin 1) :
    val_main_v3 (F := Ideal) x0 (ix3 b l z) = Spec.mean (cur3 x0) b l := by
  rw [val_main_v3_apply, val_main_v1_apply, val_main_v0_apply, val_main_v2_apply, val_main_cst_0_apply,
    val_main_cst_apply]
  simp only [Ideal.hostDivf_def, Ideal.ofBits_def, Ideal.ofBits_zero_f32, zero_add]
  unfold Spec.mean Spec.c1024
  refine congrArg (Ideal.div · _) (Finset.sum_congr rfl fun k _ => ?_)
  exact congrArg x0 (funext fun a => by match a with | ⟨0, _⟩ => rfl | ⟨1, _⟩ => rfl | ⟨2, _⟩ => rfl)

/-- The centred row, as the variance reads it. -/
theorem cen_eq (b : Fin 4) (l : Fin 2048) (d : Fin 1024) :
    val_main_v5 (F := Ideal) x0 (ix3 b l d) = Spec.cen (cur3 x0) b l d := by
  rw [val_main_v5_apply, val_main_v4_apply]
  have hi : idx_main_v4 (ix3 b l d) = ix3 b l (0 : Fin 1) :=
    funext fun a => by match a with | ⟨0, _⟩ => rfl | ⟨1, _⟩ => rfl | ⟨2, _⟩ => rfl
  rw [hi, mean_eq]
  rfl

/-- The centred row, as the normalisation reads it: the same subtraction again. -/
theorem cen_eq' (b : Fin 4) (l : Fin 2048) (d : Fin 1024) :
    val_main_v12 (F := Ideal) x0 (ix3 b l d) = Spec.cen (cur3 x0) b l d := by
  rw [val_main_v12_apply, val_main_v11_apply]
  have hi : idx_main_v11 (ix3 b l d) = ix3 b l (0 : Fin 1) :=
    funext fun a => by match a with | ⟨0, _⟩ => rfl | ⟨1, _⟩ => rfl | ⟨2, _⟩ => rfl
  rw [hi, mean_eq]
  rfl

/-- The variance: the sum of the centred row's squares, started from the float zero, divided by 1024. -/
theorem var_eq (b : Fin 4) (l : Fin 2048) (z : Fin 1) :
    val_main_v10 (F := Ideal) x0 (ix3 b l z) = Spec.var (cur3 x0) b l := by
  rw [val_main_v10_apply, val_main_v8_apply, val_main_v7_apply, val_main_v9_apply, val_main_cst_2_apply,
    val_main_cst_1_apply]
  simp only [Ideal.hostDivf_def, Ideal.ofBits_def, Ideal.ofBits_zero_f32, zero_add]
  unfold Spec.var Spec.c1024
  refine congrArg (Ideal.div · _) (Finset.sum_congr rfl fun k _ => ?_)
  have hi : idx_main_v7 (idx_main_v8 (ix3 b l z)) k = ix3 b l k :=
    funext fun a => by match a with | ⟨0, _⟩ => rfl | ⟨1, _⟩ => rfl | ⟨2, _⟩ => rfl
  rw [hi, val_main_v6_apply, cen_eq]
  rfl

/-- The normalised row with gain and shift. -/
theorem xn_eq (b : Fin 4) (l : Fin 2048) (d : Fin 1024) :
    val_main_v23 (F := Ideal) x0 x1 x2 (ix3 b l d) = Spec.xn (cur3 x0) (cur1 x1) (cur1 x2) b l d := by
  rw [val_main_v23_apply, val_main_v20_apply, val_main_v17_apply, val_main_v16_apply, val_main_v15_apply,
    val_main_v14_apply, val_main_v13_apply, val_main_cst_3_apply, val_main_v19_apply, val_main_v18_apply,
    val_main_v22_apply, val_main_v21_apply]
  have hi : idx_main_v16 (ix3 b l d) = ix3 b l (0 : Fin 1) :=
    funext fun a => by match a with | ⟨0, _⟩ => rfl | ⟨1, _⟩ => rfl | ⟨2, _⟩ => rfl
  have h1 : idx_main_v18 (idx_main_v19 (ix3 b l d)) = ix1 d :=
    funext fun a => by match a with | ⟨0, _⟩ => rfl
  have h2 : idx_main_v21 (idx_main_v22 (ix3 b l d)) = ix1 d :=
    funext fun a => by match a with | ⟨0, _⟩ => rfl
  rw [hi, h1, h2, cen_eq', var_eq]
  rfl

end Norm

/-! ## The projection, the activation and its three slices -/

section Proj
variable (x0 : (⟨S4x2048x1024, .f32⟩ : BufTy).Contents (Elt Ideal))
  (x1 x2 : (⟨S1024, .f32⟩ : BufTy).Contents (Elt Ideal))
  (x3 : (⟨S1024x4224, .f32⟩ : BufTy).Contents (Elt Ideal)) (x4 : (⟨S4224, .f32⟩ : BufTy).Contents (Elt Ideal))

/-- The projection to 4224 features with its bias. -/
theorem pre_eq (b : Fin 4) (l : Fin 2048) (f : Fin 4224) :
    val_main_v27 (F := Ideal) x0 x1 x2 x3 x4 (ix3 b l f)
      = Spec.pre (cur3 x0) (cur1 x1) (cur1 x2) (cur2 x3) (cur1 x4) b l f := by
  rw [val_main_v27_apply, val_main_v24_apply, val_main_v26_apply, val_main_v25_apply]
  have hb : idx_main_v25 (idx_main_v26 (ix3 b l f)) = ix1 f :=
    funext fun a => by match a with | ⟨0, _⟩ => rfl
  rw [hb]
  unfold Spec.pre
  refine congrArg (· + _) (Finset.sum_congr rfl fun k _ => ?_)
  have hl : lidx_main_v24 (ix3 b l f) k = ix3 b l k :=
    funext fun a => by match a with | ⟨0, _⟩ => rfl | ⟨1, _⟩ => rfl | ⟨2, _⟩ => rfl
  have hr : ridx_main_v24 (ix3 b l f) k = ix2 k f :=
    funext fun a => by match a with | ⟨0, _⟩ => rfl | ⟨1, _⟩ => rfl
  rw [hl, hr, xn_eq]
  rfl

/-- The activation: the reference's x · (1 / (1 + e⁻ˣ)) is x · logistic x, by the definition of the logistic
    function and the word of 1.0 being 1. -/
theorem act_eq (b : Fin 4) (l : Fin 2048) (f : Fin 4224) :
    val_main_v28 (F := Ideal) x0 x1 x2 x3 x4 (ix3 b l f)
      = Spec.act (cur3 x0) (cur1 x1) (cur1 x2) (cur2 x3) (cur1 x4) b l f := by
  rw [val_main_v28_apply, val_main_call0_v5_apply, val_main_call0_v4_apply, val_main_call0_cst_0_apply,
    val_main_call0_v3_apply, val_main_call0_v2_apply, val_main_call0_cst_apply, val_main_call0_v1_apply,
    val_main_call0_v0_apply, pre_eq]
  simp only [Ideal.hostDivf_def, Ideal.ofBits_def, Ideal.hostUnary_exp_def, Ideal.hostNegf_def, Ideal.negf_def,
    Ideal.addf_def, Ideal.mulf_def, word_one]
  rfl

/-- The gate: features 0 … 2047 of the activation. -/
theorem uu_eq (b : Fin 4) (l : Fin 2048) (e : Fin 2048) :
    val_main_v29 (F := Ideal) x0 x1 x2 x3 x4 (ix3 b l e)
      = Spec.uu (cur3 x0) (cur1 x1) (cur1 x2) (cur2 x3) (cur1 x4) b l e := by
  rw [val_main_v29_apply]
  have hi : idx_main_v29 (ix3 b l e) = ix3 b l (⟨e.val, by have := e.isLt; omega⟩ : Fin 4224) :=
    funext fun a => by match a with | ⟨0, _⟩ => rfl | ⟨1, _⟩ => rfl | ⟨2, _⟩ => rfl
  rw [hi, act_eq]
  rfl

/-- The values: features 2048 … 4095 of the activation. -/
theorem vv_eq (b : Fin 4) (l : Fin 2048) (e : Fin 2048) :
    val_main_v30 (F := Ideal) x0 x1 x2 x3 x4 (ix3 b l e)
      = Spec.vv (cur3 x0) (cur1 x1) (cur1 x2) (cur2 x3) (cur1 x4) b l e := by
  rw [val_main_v30_apply]
  have hi : idx_main_v30 (ix3 b l e) = ix3 b l (⟨2048 + e.val, by have := e.isLt; omega⟩ : Fin 4224) :=
    funext fun a => by match a with | ⟨0, _⟩ => rfl | ⟨1, _⟩ => rfl | ⟨2, _⟩ => rfl
  rw [hi, act_eq]
  rfl

/-- The shared 128 features 4096 … 4223 of the activation. -/
theorem zz_eq (b : Fin 4) (l : Fin 2048) (s : Fin 128) :
    val_main_v31 (F := Ideal) x0 x1 x2 x3 x4 (ix3 b l s)
      = Spec.zz (cur3 x0) (cur1 x1) (cur1 x2) (cur2 x3) (cur1 x4) b l s := by
  rw [val_main_v31_apply]
  have hi : idx_main_v31 (ix3 b l s) = ix3 b l (⟨4096 + s.val, by have := s.isLt; omega⟩ : Fin 4224) :=
    funext fun a => by match a with | ⟨0, _⟩ => rfl | ⟨1, _⟩ => rfl | ⟨2, _⟩ => rfl
  rw [hi, act_eq]
  rfl

variable (x7 x8 x9 x10 : (⟨S128, .f32⟩ : BufTy).Contents (Elt Ideal))

/-- The queries: an affine map of the shared features. -/
theorem qq_eq (b : Fin 4) (l : Fin 2048) (s : Fin 128) :
    val_main_v37 (F := Ideal) x0 x1 x2 x3 x4 x7 x8 (ix3 b l s)
      = Spec.qq (cur3 x0) (cur1 x1) (cur1 x2) (cur2 x3) (cur1 x4) (cur1 x7) (cur1 x8) b l s := by
  rw [val_main_v37_apply, val_main_v34_apply, val_main_v33_apply, val_main_v32_apply, val_main_v36_apply,
    val_main_v35_apply, zz_eq]
  have h1 : idx_main_v32 (idx_main_v33 (ix3 b l s)) = ix1 s :=
    funext fun a => by match a with | ⟨0, _⟩ => rfl
  have h2 : idx_main_v35 (idx_main_v36 (ix3 b l s)) = ix1 s :=
    funext fun a => by match a with | ⟨0, _⟩ => rfl
  rw [h1, h2]
  rfl

/-- The keys: another affine map of the same features. -/
theorem kk_eq (b : Fin 4) (l : Fin 2048) (s : Fin 128) :
    val_main_v43 (F := Ideal) x0 x1 x2 x3 x4 x9 x10 (ix3 b l s)
      = Spec.kk (cur3 x0) (cur1 x1) (cur1 x2) (cur2 x3) (cur1 x4) (cur1 x9) (cur1 x10) b l s := by
  rw [val_main_v43_apply, val_main_v40_apply, val_main_v39_apply, val_main_v38_apply, val_main_v42_apply,
    val_main_v41_apply, zz_eq]
  have h1 : idx_main_v38 (idx_main_v39 (ix3 b l s)) = ix1 s :=
    funext fun a => by match a with | ⟨0, _⟩ => rfl
  have h2 : idx_main_v41 (idx_main_v42 (ix3 b l s)) = ix1 s :=
    funext fun a => by match a with | ⟨0, _⟩ => rfl
  rw [h1, h2]
  rfl

end Proj

/-! ## The attention, the gate and the output projection -/

section Attn
variable (x0 : (⟨S4x2048x1024, .f32⟩ : BufTy).Contents (Elt Ideal))
  (x1 x2 : (⟨S1024, .f32⟩ : BufTy).Contents (Elt Ideal))
  (x3 : (⟨S1024x4224, .f32⟩ : BufTy).Contents (Elt Ideal)) (x4 : (⟨S4224, .f32⟩ : BufTy).Contents (Elt Ideal))
  (x5 : (⟨S2048x1024, .f32⟩ : BufTy).Contents (Elt Ideal)) (x6 : (⟨S1024, .f32⟩ : BufTy).Contents (Elt Ideal))
  (x7 x8 x9 x10 : (⟨S128, .f32⟩ : BufTy).Contents (Elt Ideal))

/-- The scaled score: the contraction of q with k over the 128 features, divided by 2048, which is the product
    with 2⁻¹¹. -/
theorem score_eq (b : Fin 4) (i j : Fin 2048) :
    val_main_v46 (F := Ideal) x0 x1 x2 x3 x4 x7 x8 x9 x10 (ix3 b i j)
      = Spec.score (cur3 x0) (cur1 x1) (cur1 x2) (cur2 x3) (cur1 x4) (cur1 x7) (cur1 x8) (cur1 x9) (cur1 x10) b i j := by
  rw [val_main_v46_apply, val_main_v45_apply, val_main_cst_4_apply, val_main_v44_apply]
  simp only [Ideal.hostDivf_def, Ideal.ofBits_def]
  refine (div_2048 _).trans ?_
  unfold Spec.score
  refine congrArg (· * _) (Finset.sum_congr rfl fun k _ => ?_)
  have hl : lidx_main_v44 (ix3 b i j) k = ix3 b i k :=
    funext fun a => by match a with | ⟨0, _⟩ => rfl | ⟨1, _⟩ => rfl | ⟨2, _⟩ => rfl
  have hr : ridx_main_v44 (ix3 b i j) k = ix3 b j k :=
    funext fun a => by match a with | ⟨0, _⟩ => rfl | ⟨1, _⟩ => rfl | ⟨2, _⟩ => rfl
  rw [hl, hr, qq_eq, kk_eq]

/-- The attention weight: the square of the score's positive part; the float zero the maximum is taken with is 0. -/
theorem att_eq (b : Fin 4) (i j : Fin 2048) :
    val_main_v48 (F := Ideal) x0 x1 x2 x3 x4 x7 x8 x9 x10 (ix3 b i j)
      = Spec.att (cur3 x0) (cur1 x1) (cur1 x2) (cur2 x3) (cur1 x4) (cur1 x7) (cur1 x8) (cur1 x9) (cur1 x10) b i j := by
  rw [val_main_v48_apply, val_main_v47_apply, val_main_call1_v0_apply, val_main_call1_cst_apply, score_eq]
  simp only [Ideal.mulf_def, Ideal.maximumf_def, Ideal.ofBits_def, Ideal.ofBits_zero_f32]
  rfl

/-- The weighted sum of the values over all 2048 rows of the batch. -/
theorem acc_eq (b : Fin 4) (i e : Fin 2048) :
    val_main_v49 (F := Ideal) x0 x1 x2 x3 x4 x7 x8 x9 x10 (ix3 b i e)
      = Spec.acc (cur3 x0) (cur1 x1) (cur1 x2) (cur2 x3) (cur1 x4) (cur1 x7) (cur1 x8) (cur1 x9) (cur1 x10) b i e := by
  rw [val_main_v49_apply]
  unfold Spec.acc
  refine Finset.sum_congr rfl fun k _ => ?_
  have hl : lidx_main_v49 (ix3 b i e) k = ix3 b i k :=
    funext fun a => by match a with | ⟨0, _⟩ => rfl | ⟨1, _⟩ => rfl | ⟨2, _⟩ => rfl
  have hr : ridx_main_v49 (ix3 b i e) k = ix3 b k e :=
    funext fun a => by match a with | ⟨0, _⟩ => rfl | ⟨1, _⟩ => rfl | ⟨2, _⟩ => rfl
  rw [hl, hr, att_eq, vv_eq]

/-- The result: x plus the gated sum contracted with the output matrix, plus the bias. -/
theorem out_eq (b : Fin 4) (l : Fin 2048) (d : Fin 1024) :
    val_main_v55 (F := Ideal) x0 x1 x2 x3 x4 x5 x6 x7 x8 x9 x10 (ix3 b l d)
      = Spec.out (cur3 x0) (cur1 x1) (cur1 x2) (cur2 x3) (cur1 x4) (cur2 x5) (cur1 x6)
          (cur1 x7) (cur1 x8) (cur1 x9) (cur1 x10) b l d := by
  rw [val_main_v55_apply, val_main_v52_apply, val_main_v54_apply, val_main_v53_apply, val_main_v51_apply]
  have hb : idx_main_v53 (idx_main_v54 (ix3 b l d)) = ix1 d :=
    funext fun a => by match a with | ⟨0, _⟩ => rfl
  rw [hb]
  unfold Spec.out
  refine congrArg (· + _) (congrArg (_ + ·) (Finset.sum_congr rfl fun k _ => ?_))
  have hl : lidx_main_v51 (ix3 b l d) k = ix3 b l k :=
    funext fun a => by match a with | ⟨0, _⟩ => rfl | ⟨1, _⟩ => rfl | ⟨2, _⟩ => rfl
  have hr : ridx_main_v51 (ix3 b l d) k = ix2 k d :=
    funext fun a => by match a with | ⟨0, _⟩ => rfl | ⟨1, _⟩ => rfl
  rw [hl, hr, val_main_v50_apply, uu_eq, acc_eq]
  rfl

end Attn

/-- The reference's result, as a function of the argument arrays, is the specification's. -/
theorem ref_is_G (x0 : (⟨S4x2048x1024, .f32⟩ : BufTy).Contents (Elt Ideal)) (x1 x2 : (⟨S1024, .f32⟩ : BufTy).Contents (Elt Ideal))
    (x3 : (⟨S1024x4224, .f32⟩ : BufTy).Contents (Elt Ideal)) (x4 : (⟨S4224, .f32⟩ : BufTy).Contents (Elt Ideal))
    (x5 : (⟨S2048x1024, .f32⟩ : BufTy).Contents (Elt Ideal)) (x6 : (⟨S1024, .f32⟩ : BufTy).Contents (Elt Ideal))
    (x7 x8 x9 x10 : (⟨S128, .f32⟩ : BufTy).Contents (Elt Ideal)) :
    val_main_v55 (F := Ideal) x0 x1 x2 x3 x4 x5 x6 x7 x8 x9 x10
      = Cert.Spec.G x0 x1 x2 x3 x4 x5 x6 x7 x8 x9 x10 := by
  funext i
  obtain ⟨b, l, d, rfl⟩ : ∃ (b : Fin 4) (l : Fin 2048) (d : Fin 1024), i = ix3 b l d := ⟨i 0, i 1, i 2, eq_ix3 i⟩
  exact out_eq x0 x1 x2 x3 x4 x5 x6 x7 x8 x9 x10 b l d

end Cert.ReferenceIdeal.RefValue

end
-- ==== Proof.lean ====
/-
  A gated attention unit as two kernel regions against its plain reference: the certificate.

  The kernel normalises, projects and activates the rows of x in a first region, which writes the gate u, the values
  v, the queries and the keys; a second region accumulates, key tile by key tile, the values weighted by the squared
  positive part of the scaled scores, gates the sum by u, projects it back and adds x and a bias. The reference
  computes the same in one line of whole-array operations.

  Frames. The kernel at the word level and its idealization are one text read at two instances of the float
  operations; each region's body is run symbolically once, generic in the instance, and the launch composes the
  host casts and the two regions; every argument array walks back through the regions' entry and exit contents to
  the launch memory. The reference's frame is its run with the result dropped.
  Preservation is trivial: the idealization rewrote no operation.
  Equality over the extended reals. Both results are the specification's one function `Cert.Spec.G` of the eleven
  argument arrays: the kernel's by reading each region's blocks at an index and covering the arrays with them, the
  reference's by reading its operations one at a time. Three facts join the two texts: a change of float format is
  the identity; x · (1 / (1 + e⁻ˣ)) is x · logistic x by the definition of the logistic function; dividing by 2048 is
  multiplying by 2⁻¹¹ on every extended real. Every sum is a finite sum in a commutative monoid, so the kernel's
  four tiles of 512 keys are the reference's 2048. No entry needs to be finite, and the precondition is not opened.
-/
import proofs.«124477_j41326175322889_1_alg».proof.Defs
import proofs.«124477_j41326175322889_1_alg».proof.Proof.Gen.Kernel
import proofs.«124477_j41326175322889_1_alg».proof.Proof.Gen.KernelIdeal
import proofs.«124477_j41326175322889_1_alg».proof.Proof.Gen.ReferenceIdeal
import proofs.«124477_j41326175322889_1_alg».proof.Proof.Gen.Pre_finite_inputs
import proofs.«124477_j41326175322889_1_alg».proof.Proof.KernelRun
import proofs.«124477_j41326175322889_1_alg».proof.Proof.Result
import proofs.«124477_j41326175322889_1_alg».proof.Proof.RefValue
import Idealize.ShloMosaic.Adequacy
import Idealize.ShloMosaic.Init

noncomputable section

namespace Cert.Proof

open Idealize.ShloMosaic Idealize.ShloMosaic.TcCoe Idealize.SL.Sem

/-- The idealized kernel runs and leaves its arguments unchanged. -/
theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The idealized reference runs and leaves its arguments unchanged: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the specification's function of the
    arguments in their result arrays: the kernel's second region leaves it (`result_eq`), and the reference's last
    stage is it (`ref_is_G`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Hand.result_eq m c), (h c).2⟩)
      (Cert.KernelIdeal.Hand.run_value (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v55_eq, Cert.ReferenceIdeal.RefValue.ref_is_G,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

/-- The kernel at the word level runs and leaves its arguments unchanged: the same run at the word-level instance. -/
theorem frame_p : Cert.frame_Kernel (hKernel := Cert.Kernel.Gen.facts) (hPre_finite_inputs := Cert.Pre_finite_inputs.Gen.facts) :=
  fun m ρ _ => Cert.Kernel.Hand.frame (F := Bits) m ρ

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
